-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S2x2048x2048 : Shape := ⟨3, ![2, 2048, 2048]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S2x2048x2048 : S_.BroadcastsInDim S2x2048x2048 (![] : Fin 0 → Fin S2x2048x2048.rank)
  reducesTo_S2x2048x2048_S_d0_1_2 : S2x2048x2048.ReducesTo [0, 1, 2] S_
  bcast_S_S1024x3072 : S_.BroadcastsInDim S1024x3072 (![] : Fin 0 → Fin S1024x3072.rank)
  reducesTo_S1024x3072_S_d0_1 : S1024x3072.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x1024 .f32) (main_arg5 : FVec F S1024 .f32) (main_v13 : IVec S_ 1) (main_v16 : IVec S3072 1) : IVec S_ 1 :=
  let main_c_5 : IVec S_ 1 := constantI S_ 1 1#1
  let main_v17 : IVec S_ 1 := (fun x v => Host.reduce IntOp.andi x v reducesTo_S3072_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S2x2048x1024 .f32) (main_arg1 : FVec F S2x2048x2048 .f32) (main_arg2 : FVec F S1024x3072 .f32) (main_arg3 : FVec F S3072 .f32) (main_arg4 : FVec F S1024x1024 .f32) (main_arg5 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x2048 .f32 := Host.absf main_arg1
  let main_cst_0 : FVec F S_ .f32 := constant S_ .f32 0x7F800000#32
  let main_v5 : FVec F S2x2048x2048 .f32 := broadcastInDim S2x2048x2048 ![] bcast_S_S2x2048x2048 main_cst_0
  let main_v6 : IVec S2x2048x2048 1 := cmpf .olt main_v4 main_v5
  let main_c_1 : IVec S_ 1 := constantI S_ 1 1#1
  let main_v7 : IVec S_ 1 := (fun x v => Host.reduce IntOp.andi x v reducesTo_S2x2048x2048_S_d0_1_2 h_S_) main_v6 main_c_1
  let main_v8 : IVec S_ 1 := andi main_v3 main_v7
  let main_v9 : FVec F S1024x3072 .f32 := Host.absf main_arg2
  let main_cst_2 : FVec F S_ .f32 := constant S_ .f32 0x7F800000#32
  let main_v10 : FVec F S1024x3072 .f32 := broadcastInDim S1024x3072 ![] bcast_S_S1024x3072 main_cst_2
  let main_v11 : IVec S1024x3072 1 := cmpf .olt main_v9 main_v10
  let main_c_3 : IVec S_ 1 := constantI S_ 1 1#1
  let main_v12 : IVec S_ 1 := (fun x v => Host.reduce IntOp.andi x v reducesTo_S1024x3072_S_d0_1 h_S_) main_v11 main_c_3
  let main_v13 : IVec S_ 1 := andi main_v8 main_v12
  let main_v14 : FVec F S3072 .f32 := Host.absf main_arg3
  let main_cst_4 : FVec F S_ .f32 := constant S_ .f32 0x7F800000#32
  let main_v15 : FVec F S3072 .f32 := broadcastInDim S3072 ![] bcast_S_S3072 main_cst_4
  let main_v16 : IVec S3072 1 := cmpf .olt main_v14 main_v15
  fn_part1 (F := F) main_arg4 main_arg5 main_v13 main_v16
-- ==== Kernel.lean ====
abbrev S2x2048x1024 : Shape := ⟨3, ![2, 2048, 1024]⟩
abbrev S2x2048x2048 : Shape := ⟨3, ![2, 2048, 2048]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S_ : Shape := ⟨0, ![]⟩
abbrev S3072x1 : Shape := ⟨2, ![3072, 1]⟩
abbrev S4096x1024 : Shape := ⟨2, ![4096, 1024]⟩
abbrev S1x3072 : Shape := ⟨2, ![1, 3072]⟩
abbrev S512x1024 : Shape := ⟨2, ![512, 1024]⟩
abbrev S512x3072 : Shape := ⟨2, ![512, 3072]⟩
abbrev S1x1024 : Shape := ⟨2, ![1, 1024]⟩
abbrev S1x256x1024 : Shape := ⟨3, ![1, 256, 1024]⟩
abbrev S1x2048x1024 : Shape := ⟨3, ![1, 2048, 1024]⟩
abbrev S1x256x2048 : Shape := ⟨3, ![1, 256, 2048]⟩
abbrev S256x1024 : Shape := ⟨2, ![256, 1024]⟩
abbrev S256x2048 : Shape := ⟨2, ![256, 2048]⟩
abbrev S1x256x128 : Shape := ⟨3, ![1, 256, 128]⟩
abbrev S256x128 : Shape := ⟨2, ![256, 128]⟩
abbrev S1x2048x128 : Shape := ⟨3, ![1, 2048, 128]⟩
abbrev S2048x128 : Shape := ⟨2, ![2048, 128]⟩
abbrev S256x64 : Shape := ⟨2, ![256, 64]⟩
abbrev S2048x64 : Shape := ⟨2, ![2048, 64]⟩
abbrev S256 : Shape := ⟨1, ![256]⟩
abbrev S256x1 : Shape := ⟨2, ![256, 1]⟩

abbrev nBuf : Space → Nat
  | .hbm => 33
  | .vmem => 23
  | .smem => 0
  | _ => 0

abbrev bufTy : (tb : Table) → Fin (tcTables nBuf tb) → BufTy
  | .hbm, ⟨0, _⟩ => ⟨S2x2048x1024, .f32⟩
  | .hbm, ⟨1, _⟩ => ⟨S2x2048x2048, .f32⟩
  | .hbm, ⟨2, _⟩ => ⟨S1024x3072, .f32⟩
  | .hbm, ⟨3, _⟩ => ⟨S3072, .f32⟩
  | .hbm, ⟨4, _⟩ => ⟨S1024x1024, .f32⟩
  | .hbm, ⟨5, _⟩ => ⟨S1024, .f32⟩
  | .hbm, ⟨6, _⟩ => ⟨S3072, .i32⟩
  | .hbm, ⟨7, _⟩ => ⟨S3072, .i1⟩
  | .hbm, ⟨8, _⟩ => ⟨S3072, .i1⟩
  | .hbm, ⟨9, _⟩ => ⟨S_, .i32⟩
  | .hbm, ⟨10, _⟩ => ⟨S3072, .i32⟩
  | .hbm, ⟨11, _⟩ => ⟨S3072, .i32⟩
  | .hbm, ⟨12, _⟩ => ⟨S3072, .i32⟩
  | .hbm, ⟨13, _⟩ => ⟨S3072x1, .i32⟩
  | .hbm, ⟨14, _⟩ => ⟨S1024x3072, .f32⟩
  | .hbm, ⟨15, _⟩ => ⟨S_, .i32⟩
  | .hbm, ⟨16, _⟩ => ⟨S3072, .i32⟩
  | .hbm, ⟨17, _⟩ => ⟨S3072, .i32⟩
  | .hbm, ⟨18, _⟩ => ⟨S3072, .i32⟩
  | .hbm, ⟨19, _⟩ => ⟨S3072x1, .i32⟩
  | .hbm, ⟨20, _⟩ => ⟨S3072, .f32⟩
  | .hbm, ⟨21, _⟩ => ⟨S1024x3072, .bf16⟩
  | .hbm, ⟨22, _⟩ => ⟨S1024x1024, .bf16⟩
  | .hbm, ⟨23, _⟩ => ⟨S4096x1024, .f32⟩
  | .hbm, ⟨24, _⟩ => ⟨S1x3072, .f32⟩
  | .hbm, ⟨25, _⟩ => ⟨S4096x1024, .bf16⟩
  | .hbm, ⟨26, _⟩ => ⟨S4096x1024, .bf16⟩
  | .hbm, ⟨27, _⟩ => ⟨S4096x1024, .bf16⟩
  | .hbm, ⟨28, _⟩ => ⟨S2x2048x1024, .bf16⟩
  | .hbm, ⟨29, _⟩ => ⟨S2x2048x1024, .bf16⟩
  | .hbm, ⟨30, _⟩ => ⟨S2x2048x1024, .bf16⟩
  | .hbm, ⟨31, _⟩ => ⟨S1x1024, .f32⟩
  | .hbm, ⟨32, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x3072, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x2048x1024, .bf16⟩
  | .local _ .vmem, ⟨13, _⟩ => ⟨S1x2048x1024, .bf16⟩
  | .local _ .vmem, ⟨14, _⟩ => ⟨S1x2048x1024, .bf16⟩
  | .local _ .vmem, ⟨15, _⟩ => ⟨S1x2048x1024, .bf16⟩
  | .local _ .vmem, ⟨16, _⟩ => ⟨S1x256x2048, .f32⟩
  | .local _ .vmem, ⟨17, _⟩ => ⟨S1x256x2048, .f32⟩
  | .local _ .vmem, ⟨18, _⟩ => ⟨S1024x1024, .bf16⟩
  | .local _ .vmem, ⟨19, _⟩ => ⟨S1x1024, .f32⟩
  | .local _ .vmem, ⟨20, _⟩ => ⟨S1x256x1024, .f32⟩
  | .local _ .vmem, ⟨21, _⟩ => ⟨S1x256x1024, .f32⟩
  | .local _ .vmem, ⟨22, _⟩ => ⟨S256x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_c_2 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_3 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v14_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![2, 8], ![false, false]⟩

@[reducible] def k1_t1_loop : Scf.Loop 32 :=
  let c0_i32 : BitVec 32 := 0#32
  let c8_i32 : BitVec 32 := 8#32
  let v2 : BitVec 32 := Scalar.addi c0_i32 c8_i32
  let c1_i32 : BitVec 32 := 1#32
  ⟨c0_i32, v2, c1_i32⟩
def k1_mult1 (k1_t1 : Fin k1_t1_loop.trips) : BitVec 32 :=
  let c0_i32_13 : BitVec 32 := 0#32
  let c0_i32 : BitVec 32 := 0#32
  let c1_i32 : BitVec 32 := 1#32
  let arg10 : BitVec 32 := Scf.iv c0_i32 c1_i32 k1_t1
  let c1_i32_12 : BitVec 32 := 1#32
  let v15 : BitVec 32 := Scalar.muli arg10 c1_i32_12
  let v16 : BitVec 32 := Scalar.addi c0_i32_13 v15
  let c128_i32 : BitVec 32 := 128#32
  let v17 : BitVec 32 := Scalar.muli v16 c128_i32
  v17
def k1_off1 (k1_t1 : Fin k1_t1_loop.trips) : Fin 3 → Nat :=
  let c0_14 : Index := 0#32
  let c0_15 : Index := 0#32
  let c0_i32_13 : BitVec 32 := 0#32
  let c0_i32 : BitVec 32 := 0#32
  let c1_i32 : BitVec 32 := 1#32
  let arg10 : BitVec 32 := Scf.iv c0_i32 c1_i32 k1_t1
  let c1_i32_12 : BitVec 32 := 1#32
  let v15 : BitVec 32 := Scalar.muli arg10 c1_i32_12
  let v16 : BitVec 32 := Scalar.addi c0_i32_13 v15
  let c128_i32 : BitVec 32 := 128#32
  let v17 : BitVec 32 := Scalar.muli v16 c128_i32
  let v18 : BitVec 32 := v17
  let v19 : Index := Scalar.indexCast v18
  ![0, 0, v19.toNat]
def k1_off2 (k1_t1 : Fin k1_t1_loop.trips) : Fin 3 → Nat :=
  let c0_16 : Index := 0#32
  let c0_17 : Index := 0#32
  let c0_i32_13 : BitVec 32 := 0#32
  let c0_i32 : BitVec 32 := 0#32
  let c1_i32 : BitVec 32 := 1#32
  let arg10 : BitVec 32 := Scf.iv c0_i32 c1_i32 k1_t1
  let c1_i32_12 : BitVec 32 := 1#32
  let v15 : BitVec 32 := Scalar.muli arg10 c1_i32_12
  let v16 : BitVec 32 := Scalar.addi c0_i32_13 v15
  let c128_i32 : BitVec 32 := 128#32
  let v17 : BitVec 32 := Scalar.muli v16 c128_i32
  let v18 : BitVec 32 := v17
  let v22 : Index := Scalar.indexCast v18
  ![0, 0, v22.toNat]
def k1_off3 (k1_t1 : Fin k1_t1_loop.trips) : Fin 2 → Nat :=
  let c0_30 : Index := 0#32
  let c0_i32_13 : BitVec 32 := 0#32
  let c0_i32 : BitVec 32 := 0#32
  let c1_i32 : BitVec 32 := 1#32
  let arg10 : BitVec 32 := Scf.iv c0_i32 c1_i32 k1_t1
  let c1_i32_12 : BitVec 32 := 1#32
  let v15 : BitVec 32 := Scalar.muli arg10 c1_i32_12
  let v16 : BitVec 32 := Scalar.addi c0_i32_13 v15
  let c128_i32 : BitVec 32 := 128#32
  let v17 : BitVec 32 := Scalar.muli v16 c128_i32
  let v18 : BitVec 32 := v17
  let v65 : Index := Scalar.indexCast v18
  ![0, v65.toNat]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  bcast_S_S3072 : S_.BroadcastsInDim S3072 (![] : Fin 0 → Fin S3072.rank)
  bcast_S3072_S3072x1_0 : S3072.BroadcastsInDim S3072x1 (![0] : Fin 1 → Fin S3072x1.rank)
  bitsLt_bf16_f32 : FTy.bits .bf16 < FTy.bits .f32
  shapeCasts_S2x2048x1024_S4096x1024 : S2x2048x1024.ShapeCasts S4096x1024
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  slices_S512x3072_o0_0_S512x1024 : S512x3072.Slices ![0, 0] S512x1024
  packedbf16_S512x1024_S512x1024_0_0 : (Rect.unit (s := S512x1024) ![0, 0] S512x1024.size inb_S512x1024_S512x1024_0_0).PackedRows (EltTy.packing .bf16)
  slices_S512x3072_o0_1024_S512x1024 : S512x3072.Slices ![0, 1024] S512x1024
  slices_S512x3072_o0_2048_S512x1024 : S512x3072.Slices ![0, 2048] S512x1024
  shapeCasts_S4096x1024_S2x2048x1024 : S4096x1024.ShapeCasts S2x2048x1024
  shapeCasts_S1024_S1x1024 : S1024.ShapeCasts S1x1024
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  h_S1x256x128 : 0 < S1x256x128.numel
  shapeCasts_S1x256x128_S256x128 : S1x256x128.ShapeCasts S256x128
  h_S1x2048x128 : 0 < S1x2048x128.numel
  shapeCasts_S1x2048x128_S2048x128 : S1x2048x128.ShapeCasts S2048x128
  slices_S256x128_o0_0_S256x64 : S256x128.Slices ![0, 0] S256x64
  slices_S2048x128_o0_0_S2048x64 : S2048x128.Slices ![0, 0] S2048x64
  reduces_S256x2048_S256 : S256x2048.Reduces [1] S256
  shapeCasts_S256_S256x1 : S256.ShapeCasts S256x1
  broadcasts_S256x1_S256x2048 : S256x1.Broadcasts S256x2048
  slices_S256x128_o0_64_S256x64 : S256x128.Slices ![0, 64] S256x64
  slices_S2048x128_o0_64_S2048x64 : S2048x128.Slices ![0, 64] S2048x64
  concatenates_S256x64_S256x64_S256x128_d1 : Shape.Concatenates [S256x64, S256x64] S256x128 1
  h_S256x128 : 0 < S256x128.numel
  shapeCasts_S256x128_S256x128 : S256x128.ShapeCasts S256x128
  inb_S256x1024_S256x1024_0_0 : ∀ a, (![0, 0] : Fin 2 → Nat) a + S256x1024.size a ≤ S256x1024.size a
  h_S256x1024 : 0 < S256x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  gather_S1024x3072_S3072x1_S1024x3072_0_1_n_n_1_1_10241_wf : GatherDims.WF S1024x3072 S3072x1 S1024x3072 [0] [1] [] [1] [] 1 ![1024, 1]
  gather_S3072_S3072x1_S3072_n_0_n_n_0_1_1_wf : GatherDims.WF S3072 S3072x1 S3072 [] [0] [] [0] [] 1 ![1]
  dot_S512x1024_S1024x3072_S512x3072_1_0_0_1_n_n_wf : DotDims.WF S512x1024 S1024x3072 S512x3072 [1] [0] [0] [1] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .bf16 = 32 ∨ (Rect.block (s := S4096x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x1024.size a
  hwx0_4 : ∀ i : grid0.Coords, EltTy.bits .bf16 = 32 ∨ (Rect.block (s := S4096x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S4096x1024.size a
  hwx0_5 : ∀ i : grid0.Coords, EltTy.bits .bf16 = 32 ∨ (Rect.block (s := S4096x1024) S512x1024.size (cc0_transform_5 i) (hinb0_5 i)).WholeWords (EltTy.packing .bf16)
  hrank1 : 0 < grid1.rank
  k1_t1_ok : k1_t1_loop.OK
  k1_mult1_dvd : ∀ k1_t1 : Fin k1_t1_loop.trips, 128 ∣ (k1_mult1 k1_t1).toNat
  k1_off1_inb : ∀ k1_t1 : Fin k1_t1_loop.trips, ∀ a, (k1_off1 k1_t1) a + S1x256x128.size a ≤ S1x256x1024.size a
  k1_off2_inb : ∀ k1_t1 : Fin k1_t1_loop.trips, ∀ a, (k1_off2 k1_t1) a + S1x2048x128.size a ≤ S1x2048x1024.size a
  k1_off3_inb : ∀ k1_t1 : Fin k1_t1_loop.trips, ∀ a, (k1_off3 k1_t1) a + S256x128.size a ≤ S256x1024.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S2x2048x1024.size a
  hwx1_0 : ∀ i : grid1.Coords, EltTy.bits .bf16 = 32 ∨ (Rect.block (s := S2x2048x1024) S1x256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S2x2048x1024.size a
  hwx1_1 : ∀ i : grid1.Coords, EltTy.bits .bf16 = 32 ∨ (Rect.block (s := S2x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S2x2048x1024.size a
  hwx1_2 : ∀ i : grid1.Coords, EltTy.bits .bf16 = 32 ∨ (Rect.block (s := S2x2048x1024) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x2048.size a ≤ S2x2048x2048.size a
  hwx1_3 : ∀ i : grid1.Coords, EltTy.bits .f32 = 32 ∨ (Rect.block (s := S2x2048x2048) S1x256x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S1024x1024.size a
  hwx1_4 : ∀ i : grid1.Coords, EltTy.bits .bf16 = 32 ∨ (Rect.block (s := S1024x1024) S1024x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x1024.size a
  hwx1_5 : ∀ i : grid1.Coords, EltTy.bits .f32 = 32 ∨ (Rect.block (s := S1x1024) S1x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x256x1024.size a ≤ S2x2048x1024.size a
  hwx1_6 : ∀ i : grid1.Coords, EltTy.bits .f32 = 32 ∨ (Rect.block (s := S2x2048x1024) S1x256x1024.size (cc1_transform_6 i) (hinb1_6 i)).WholeWords (EltTy.packing .f32)

variable [Facts₀]

def gather_S1024x3072_S3072x1_S1024x3072_0_1_n_n_1_1_10241 : GatherDims S1024x3072 S3072x1 S1024x3072 where
  offsetDims := [0]
  collapsedSliceDims := [1]
  operandBatchingDims := []
  startIndicesBatchingDims := []
  startIndexMap := [1]
  indexVectorDim := 1
  sliceSizes := ![1024, 1]
  wf := gather_S1024x3072_S3072x1_S1024x3072_0_1_n_n_1_1_10241_wf
def gather_S3072_S3072x1_S3072_n_0_n_n_0_1_1 : GatherDims S3072 S3072x1 S3072 where
  offsetDims := []
  collapsedSliceDims := [0]
  operandBatchingDims := []
  startIndicesBatchingDims := []
  startIndexMap := [0]
  indexVectorDim := 1
  sliceSizes := ![1]
  wf := gather_S3072_S3072x1_S3072_n_0_n_n_0_1_1_wf
def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v12) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14_1) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v14_2) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v15) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S1x256x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v11) S1024x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S1x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v19) S1x256x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S2x2048x1024 : Shape := ⟨3, ![2, 2048, 1024]⟩
abbrev S2x2048x2048 : Shape := ⟨3, ![2, 2048, 2048]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S2x2048x3072 : Shape := ⟨3, ![2, 2048, 3072]⟩
abbrev S1x1x3072 : Shape := ⟨3, ![1, 1, 3072]⟩
abbrev S2x2048x16x192 : Shape := ⟨4, ![2, 2048, 16, 192]⟩
abbrev S2x16x2048x192 : Shape := ⟨4, ![2, 16, 2048, 192]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x1x2048x2048 : Shape := ⟨4, ![2, 1, 2048, 2048]⟩
abbrev S2x16x2048 : Shape := ⟨3, ![2, 16, 2048]⟩
abbrev S2x16x2048x1 : Shape := ⟨4, ![2, 16, 2048, 1]⟩
abbrev S2x2048x16x64 : Shape := ⟨4, ![2, 2048, 16, 64]⟩
abbrev S1x1x1024 : Shape := ⟨3, ![1, 1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x2048, .f32⟩
  | .hbm, ⟨2, _⟩ => ⟨S1024x3072, .f32⟩
  | .hbm, ⟨3, _⟩ => ⟨S3072, .f32⟩
  | .hbm, ⟨4, _⟩ => ⟨S1024x1024, .f32⟩
  | .hbm, ⟨5, _⟩ => ⟨S1024, .f32⟩
  | .hbm, ⟨6, _⟩ => ⟨S2x2048x3072, .f32⟩
  | .hbm, ⟨7, _⟩ => ⟨S1x1x3072, .f32⟩
  | .hbm, ⟨8, _⟩ => ⟨S2x2048x3072, .f32⟩
  | .hbm, ⟨9, _⟩ => ⟨S2x2048x3072, .f32⟩
  | .hbm, ⟨10, _⟩ => ⟨S2x2048x16x192, .f32⟩
  | .hbm, ⟨11, _⟩ => ⟨S2x16x2048x192, .f32⟩
  | .hbm, ⟨12, _⟩ => ⟨S2x16x2048x64, .f32⟩
  | .hbm, ⟨13, _⟩ => ⟨S2x16x2048x64, .f32⟩
  | .hbm, ⟨14, _⟩ => ⟨S2x16x2048x64, .f32⟩
  | .hbm, ⟨15, _⟩ => ⟨S2x16x2048x2048, .f32⟩
  | .hbm, ⟨16, _⟩ => ⟨S_, .f32⟩
  | .hbm, ⟨17, _⟩ => ⟨S2x16x2048x2048, .f32⟩
  | .hbm, ⟨18, _⟩ => ⟨S2x16x2048x2048, .f32⟩
  | .hbm, ⟨19, _⟩ => ⟨S2x1x2048x2048, .f32⟩
  | .hbm, ⟨20, _⟩ => ⟨S2x16x2048x2048, .f32⟩
  | .hbm, ⟨21, _⟩ => ⟨S2x16x2048x2048, .f32⟩
  | .hbm, ⟨22, _⟩ => ⟨S_, .f32⟩
  | .hbm, ⟨23, _⟩ => ⟨S2x16x2048, .f32⟩
  | .hbm, ⟨24, _⟩ => ⟨S_, .f32⟩
  | .hbm, ⟨25, _⟩ => ⟨S2x16x2048, .f32⟩
  | .hbm, ⟨26, _⟩ => ⟨S2x16x2048, .f32⟩
  | .hbm, ⟨27, _⟩ => ⟨S2x16x2048x1, .f32⟩
  | .hbm, ⟨28, _⟩ => ⟨S2x16x2048x2048, .f32⟩
  | .hbm, ⟨29, _⟩ => ⟨S2x16x2048x2048, .f32⟩
  | .hbm, ⟨30, _⟩ => ⟨S2x16x2048x2048, .f32⟩
  | .hbm, ⟨31, _⟩ => ⟨S_, .f32⟩
  | .hbm, ⟨32, _⟩ => ⟨S2x16x2048, .f32⟩
  | .hbm, ⟨33, _⟩ => ⟨S2x16x2048x1, .f32⟩
  | .hbm, ⟨34, _⟩ => ⟨S2x16x2048x2048, .f32⟩
  | .hbm, ⟨35, _⟩ => ⟨S2x16x2048x2048, .f32⟩
  | .hbm, ⟨36, _⟩ => ⟨S2x16x2048x64, .f32⟩
  | .hbm, ⟨37, _⟩ => ⟨S2x2048x16x64, .f32⟩
  | .hbm, ⟨38, _⟩ => ⟨S2x2048x1024, .f32⟩
  | .hbm, ⟨39, _⟩ => ⟨S2x2048x1024, .f32⟩
  | .hbm, ⟨40, _⟩ => ⟨S1x1x1024, .f32⟩
  | .hbm, ⟨41, _⟩ => ⟨S2x2048x1024, .f32⟩
  | .hbm, ⟨42, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S2x2048x3072_0_1_2 : S1x1x3072.BroadcastsInDim S2x2048x3072 (![0, 1, 2] : Fin 3 → Fin S2x2048x3072.rank)
  shapeCasts_S2x2048x3072_S2x2048x16x192 : S2x2048x3072.ShapeCasts S2x2048x16x192
  transposes_S2x2048x16x192_S2x16x2048x192_0_2_1_3 : S2x2048x16x192.Transposes [0, 2, 1, 3] S2x16x2048x192
  slices_S2x16x2048x192_S2x16x2048x64_0_0_0_0 : S2x16x2048x192.Slices ![0, 0, 0, 0] S2x16x2048x64
  slices_S2x16x2048x192_S2x16x2048x64_0_0_0_64 : S2x16x2048x192.Slices ![0, 0, 0, 64] S2x16x2048x64
  slices_S2x16x2048x192_S2x16x2048x64_0_0_0_128 : S2x16x2048x192.Slices ![0, 0, 0, 128] S2x16x2048x64
  bcast_S_S2x16x2048x2048 : S_.BroadcastsInDim S2x16x2048x2048 (![] : Fin 0 → Fin S2x16x2048x2048.rank)
  bcast_S2x2048x2048_S2x1x2048x2048_0_2_3 : S2x2048x2048.BroadcastsInDim S2x1x2048x2048 (![0, 2, 3] : Fin 3 → Fin S2x1x2048x2048.rank)
  bcast_S2x1x2048x2048_S2x16x2048x2048_0_1_2_3 : S2x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S1024x3072_S2x2048x3072_2_0_01_1_n_n_wf : DotDims.WF S2x2048x1024 S1024x3072 S2x2048x3072 [2] [0] [0, 1] [1] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_0_01_1_n_n_wf : DotDims.WF S2x2048x1024 S1024x1024 S2x2048x1024 [2] [0] [0, 1] [1] [] []

variable [Facts₀]

def dot_S2x2048x1024_S1024x3072_S2x2048x3072_2_0_01_1_n_n : DotDims S2x2048x1024 S1024x3072 S2x2048x3072 where
  lhsContracting := [2]
  rhsContracting := [0]
  lhsNonContracting := [0, 1]
  rhsNonContracting := [1]
  lhsBatch := []
  rhsBatch := []
  wf := dot_S2x2048x1024_S1024x3072_S2x2048x3072_2_0_01_1_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_0_01_1_n_n : DotDims S2x2048x1024 S1024x1024 S2x2048x1024 where
  lhsContracting := [2]
  rhsContracting := [0]
  lhsNonContracting := [0, 1]
  rhsNonContracting := [1]
  lhsBatch := []
  rhsBatch := []
  wf := dot_S2x2048x1024_S1024x1024_S2x2048x1024_2_0_01_1_n_n_wf

class Facts : Prop extends Facts₀ where

variable [Facts]
-- ==== Proof.TripBits.lean ====
/-
  The head loop of the attention kernel, read as values. Trip `k` (k < 8) loads lanes 128k … 128k+127 of the query
  block, the key block and the value block, computes the pair of heads 2k, 2k+1 against the mask block, and stores the
  pair's two contexts, side by side, at lanes 128k … 128k+127 of the context scratch. So after the eight trips the
  scratch holds, at row r and column c, trip c / 128's stored value at (r, c % 128): the trips' pieces tile the
  scratch and each is a block of that one function.
-/
import proofs.«409499_j57698590654770_3_alg».proof.Proof.Gen.Kernel.Loops
import Idealize.ShloMosaic.Lib.Pipeline.Value
import Idealize.ShloMosaic.Lib.ValueIdx
import Idealize.ShloMosaic.Lib.Tactic

set_option maxRecDepth 16384

noncomputable section

namespace Cert.Kernel.KV

open Cert.Kernel Cert.Kernel.Gen
open Idealize.ShloMosaic Idealize.ShloMosaic.TcCoe Idealize.ShloMosaic.Tactic Idealize.ShloMosaic.ValueIdx
open Idealize.SL Idealize.SL.Sem

variable {F : FTy → Type} [FloatOps F]

/-- The loop makes eight trips. -/
theorem trips_eq : k1_t1_loop.trips = 8 := by decide

section Trip

variable (𝒱 : Variants) (c : Dev nD) (bd : Option 𝒱.V) (i : grid1.Coords)
  (arg2 : Memref sig .tc .vmem S1x256x1024 .bf16) (harg2 : arg2.IsWhole) (arg3 : Memref sig .tc .vmem S1x2048x1024 .bf16) (harg3 : arg3.IsWhole)
  (arg4 : Memref sig .tc .vmem S1x2048x1024 .bf16) (harg4 : arg4.IsWhole) (arg5 : Memref sig .tc .vmem S1x256x2048 .f32) (harg5 : arg5.IsWhole)
  (arg6 : Memref sig .tc .vmem S1024x1024 .bf16) (harg6 : arg6.IsWhole) (arg7 : Memref sig .tc .vmem S1x1024 .f32) (harg7 : arg7.IsWhole)
  (arg8 : Memref sig .tc .vmem S1x256x1024 .f32) (harg8 : arg8.IsWhole) (arg9 : Memref sig .tc .vmem S256x1024 .f32) (harg9 : arg9.IsWhole)
  (v0 : Vec F S1x256x2048 .f32)
  (X2 : BufTy.Contents (Elt F) arg2.view.ty) (X3 : BufTy.Contents (Elt F) arg3.view.ty) (X4 : BufTy.Contents (Elt F) arg4.view.ty)

/-- The query lanes trip `k` loads. -/
abbrev qBlk (k : Fin k1_t1_loop.trips) : Vec F S1x256x128 .bf16 :=
  View.readAt (Elt F) arg2.view (Rect.unit (s := S1x256x1024) (k1_off1 k) S1x256x128.size (k1_off1_inb k)).toLoadRect X2
/-- The key lanes trip `k` loads. -/
abbrev kBlk (k : Fin k1_t1_loop.trips) : Vec F S1x2048x128 .bf16 :=
  View.readAt (Elt F) arg3.view (Rect.unit (s := S1x2048x1024) (k1_off2 k) S1x2048x128.size (k1_off2_inb k)).toLoadRect X3
/-- The value lanes trip `k` loads. -/
abbrev vBlk (k : Fin k1_t1_loop.trips) : Vec F S1x2048x128 .bf16 :=
  View.readAt (Elt F) arg4.view (Rect.unit (s := S1x2048x1024) (k1_off2 k) S1x2048x128.size (k1_off2_inb k)).toLoadRect X4

/-- What trip `k` stores: the pair of heads' contexts, side by side. -/
def tripPay (k : Fin k1_t1_loop.trips) : FVec F S256x128 .f32 :=
  k1_pay2 (k1_pay7 (k1_pay1 v0) (qBlk arg2 X2 k) (kBlk arg3 X3 k) (vBlk arg4 X4 k)) (k1_pay8 (vBlk arg4 X4 k))
    (k1_pay9 (k1_pay1 v0) (qBlk arg2 X2 k) (kBlk arg3 X3 k))

/-- Where trip `k` stores it: rows 0 … 255, lanes 128k … 128k+127 of the scratch. -/
abbrev tripRect (k : Fin k1_t1_loop.trips) : Rect S256x1024 :=
  Rect.unit (s := S256x1024) (k1_off3 k) S256x128.size (k1_off3_inb k)

/-- Trip `k` writes one piece: that value at that rectangle. -/
theorem tripL_eq (k : Fin k1_t1_loop.trips) :
    tripL_k1_t1 (F := F) 𝒱 c bd i arg2 harg2 arg3 harg3 arg4 harg4 arg5 harg5 arg6 harg6 arg7 harg7 arg8 harg8 arg9 harg9 v0 X2 X3 X4 k
      = [⟨tripRect k, tripPay arg2 arg3 arg4 v0 X2 X3 X4 k⟩] := by
  unfold tripL_k1_t1 trip_k1_t1
  dsimp only
  sl_unfold_run_names
  rfl

/-- Every piece of the trips before `n` is some trip's, -/
theorem pb_mem : ∀ (n : ℕ) (p : View.Piece (Elt F) S256x1024 .f32),
    p ∈ pb_k1_t1 (F := F) 𝒱 c bd i arg2 harg2 arg3 harg3 arg4 harg4 arg5 harg5 arg6 harg6 arg7 harg7 arg8 harg8 arg9 harg9 v0 X2 X3 X4 n →
      ∃ k : Fin k1_t1_loop.trips, k.val < n ∧ p = ⟨tripRect k, tripPay arg2 arg3 arg4 v0 X2 X3 X4 k⟩
  | 0, p, hp => by rw [pb_k1_t1.eq_1] at hp; exact absurd hp (List.not_mem_nil)
  | n + 1, p, hp => by
    rw [pb_k1_t1.eq_2] at hp
    unfold pb_k1_t1Step at hp
    split at hp
    · rename_i h
      rcases List.mem_append.mp hp with hp | hp
      · rw [tripL_eq, List.mem_singleton] at hp
        exact ⟨⟨n, h⟩, Nat.lt_succ_self n, hp⟩
      · obtain ⟨k, hk, e⟩ := pb_mem n p hp
        exact ⟨k, Nat.lt_succ_of_lt hk, e⟩
    · obtain ⟨k, hk, e⟩ := pb_mem n p hp
      exact ⟨k, Nat.lt_succ_of_lt hk, e⟩

/-- and every trip before `n` has its piece among them. -/
theorem mem_pb (k : Fin k1_t1_loop.trips) : ∀ (n : ℕ), k.val < n →
    (⟨tripRect k, tripPay arg2 arg3 arg4 v0 X2 X3 X4 k⟩ : View.Piece (Elt F) S256x1024 .f32)
      ∈ pb_k1_t1 (F := F) 𝒱 c bd i arg2 harg2 arg3 harg3 arg4 harg4 arg5 harg5 arg6 harg6 arg7 harg7 arg8 harg8 arg9 harg9 v0 X2 X3 X4 n
  | 0, h => absurd h (Nat.not_lt_zero _)
  | n + 1, h => by
    rw [pb_k1_t1.eq_2]
    unfold pb_k1_t1Step
    by_cases hn : n < k1_t1_loop.trips
    · rw [dif_pos hn]
      by_cases hk : k.val = n
      · apply List.mem_append_left
        obtain rfl : k = ⟨n, hn⟩ := Fin.ext hk
        rw [tripL_eq]
        exact List.mem_singleton.mpr rfl
      · exact List.mem_append_right _ (mem_pb k n (by omega))
    · rw [dif_neg hn]
      exact mem_pb k n (by have := k.isLt; omega)

/-- The trip's value depends on the trip and the index only through their values. -/
theorem tripPay_congr {k k' : Fin k1_t1_loop.trips} (hk : k' = k) {x x' : S256x128.Idx} (hx : x' = x) :
    tripPay arg2 arg3 arg4 v0 X2 X3 X4 k' x' = tripPay arg2 arg3 arg4 v0 X2 X3 X4 k x := by
  subst hk hx; rfl

/-- The scratch after the eight trips, as one function of the index: at row `r` and column `c`, trip `c / 128`'s
    stored value at `(r, c % 128)`. -/
def scratchFn : S256x1024.Idx → Elt F .f32 := fun y =>
  tripPay arg2 arg3 arg4 v0 X2 X3 X4 ⟨(y 1).val / 128, by rw [trips_eq]; have := idx2_lt1 y; omega⟩
    (ix2 ⟨(y 0).val, idx2_lt0 y⟩ ⟨(y 1).val % 128, Nat.mod_lt _ (by norm_num)⟩)

/-- Trip `k`'s rectangle places local `(r, l)` at `(r, 128k + l)`. -/
theorem tripRect_emb (k : Fin k1_t1_loop.trips) (x : (tripRect k).shape.Idx) :
    (((tripRect k).emb x) 0).val = (x 0).val ∧ (((tripRect k).emb x) 1).val = 128 * k.val + (x 1).val := by
  have e0 : k1_off3 k 0 = 0 := by rw [k1_off3_eq]; rfl
  have e1 : k1_off3 k 1 = 128 * k.val := by rw [k1_off3_eq]; rfl
  constructor
  · show k1_off3 k 0 + 1 * (x 0).val = _; rw [e0]; omega
  · show k1_off3 k 1 + 1 * (x 1).val = _; rw [e1]; omega

/-- The eight trips' pieces cover the scratch: index `(r, c)` lies in trip `c / 128`'s rectangle. -/
theorem cover_pb (y : S256x1024.Idx) :
    ∃ p ∈ pb_k1_t1 (F := F) 𝒱 c bd i arg2 harg2 arg3 harg3 arg4 harg4 arg5 harg5 arg6 harg6 arg7 harg7 arg8 harg8 arg9 harg9 v0 X2 X3 X4 k1_t1_loop.trips, y ∈ p.1.set := by
  have hy1 := idx2_lt1 y
  have hy0 := idx2_lt0 y
  let k0 : Fin k1_t1_loop.trips := ⟨(y 1).val / 128, by rw [trips_eq]; omega⟩
  refine ⟨⟨tripRect k0, tripPay arg2 arg3 arg4 v0 X2 X3 X4 k0⟩,
    mem_pb 𝒱 c bd i arg2 harg2 arg3 harg3 arg4 harg4 arg5 harg5 arg6 harg6 arg7 harg7 arg8 harg8 arg9 harg9 v0 X2 X3 X4 k0 _ k0.isLt, ?_⟩
  show y ∈ (Rect.unit (s := S256x1024) (k1_off3 k0) S256x128.size (k1_off3_inb k0)).set
  rw [Rect.mem_set_unit]
  have e0 : k1_off3 k0 0 = 0 := by rw [k1_off3_eq]; rfl
  have e1 : k1_off3 k0 1 = 128 * ((y 1).val / 128) := by rw [k1_off3_eq]; rfl
  intro a
  match a with
  | ⟨0, _⟩ => show k1_off3 k0 0 ≤ (y 0).val ∧ (y 0).val < k1_off3 k0 0 + 256; rw [e0]; omega
  | ⟨1, _⟩ => show k1_off3 k0 1 ≤ (y 1).val ∧ (y 1).val < k1_off3 k0 1 + 128; rw [e1]; omega

/-- THE SCRATCH AFTER THE LOOP: the canon of the eight trips' pieces is that one function, at every index. -/
theorem canon_pb (y : S256x1024.Idx) :
    View.canon (pb_k1_t1 (F := F) 𝒱 c bd i arg2 harg2 arg3 harg3 arg4 harg4 arg5 harg5 arg6 harg6 arg7 harg7 arg8 harg8 arg9 harg9 v0 X2 X3 X4 k1_t1_loop.trips) y
      = scratchFn arg2 arg3 arg4 v0 X2 X3 X4 y := by
  refine View.canon_apply_of_pieces (scratchFn arg2 arg3 arg4 v0 X2 X3 X4) _ ?_ y
    (cover_pb 𝒱 c bd i arg2 harg2 arg3 harg3 arg4 harg4 arg5 harg5 arg6 harg6 arg7 harg7 arg8 harg8 arg9 harg9 v0 X2 X3 X4 y)
  intro p hp x
  obtain ⟨k, -, rfl⟩ := pb_mem 𝒱 c bd i arg2 harg2 arg3 harg3 arg4 harg4 arg5 harg5 arg6 harg6 arg7 harg7 arg8 harg8 arg9 harg9 v0 X2 X3 X4 _ p hp
  obtain ⟨h0, h1⟩ := tripRect_emb k x
  have hx1 : (x 1).val < 128 := (x 1).isLt
  unfold scratchFn
  refine (tripPay_congr arg2 arg3 arg4 v0 X2 X3 X4 (Fin.ext ?_) (funext fun a => Fin.ext ?_)).symm
  · show (((tripRect k).emb x) 1).val / 128 = k.val
    rw [h1]; omega
  · match a with
    | ⟨0, _⟩ => show (((tripRect k).emb x) 0).val = (x 0).val; exact h0
    | ⟨1, _⟩ => show (((tripRect k).emb x) 1).val % 128 = (x 1).val; rw [h1]; omega

/-- So a load of any box of the scratch after the loop reads that function at the box's indices, whatever the scratch
    held before the loop: the trips overwrite all of it. -/
theorem readAt_after_loop (B : LoadRect S256x1024) (fs0 : BufTy.Contents (Elt F) arg9.view.ty) :
    View.readAt (Elt F) arg9.view B
        (arg9.view.writes (Elt F) fs0 (pb_k1_t1 (F := F) 𝒱 c bd i arg2 harg2 arg3 harg3 arg4 harg4 arg5 harg5 arg6 harg6 arg7 harg7 arg8 harg8 arg9 harg9 v0 X2 X3 X4 k1_t1_loop.trips))
      = fun x => scratchFn arg2 arg3 arg4 v0 X2 X3 X4 (B.idx x) := by
  funext x
  rw [View.readAt_apply, View.read_writes_apply_eq_canon _ _ _ _ (cover_pb 𝒱 c bd i arg2 harg2 arg3 harg3 arg4 harg4 arg5 harg5 arg6 harg6 arg7 harg7 arg8 harg8 arg9 harg9 v0 X2 X3 X4 (B.idx x)),
    canon_pb]

end Trip

end Cert.Kernel.KV

end
-- ==== Proof.Trip.lean ====
/-
  The head loop of the attention kernel, read as values. Trip `k` (k < 8) loads lanes 128k … 128k+127 of the query
  block, the key block and the value block, computes the pair of heads 2k, 2k+1 against the mask block, and stores the
  pair's two contexts, side by side, at lanes 128k … 128k+127 of the context scratch. So after the eight trips the
  scratch holds, at row r and column c, trip c / 128's stored value at (r, c % 128): the trips' pieces tile the
  scratch and each is a block of that one function.
-/
import proofs.«409499_j57698590654770_3_alg».proof.Proof.Gen.KernelIdeal.Loops
import Idealize.ShloMosaic.Lib.Pipeline.Value
import Idealize.ShloMosaic.Lib.ValueIdx
import Idealize.ShloMosaic.Lib.Tactic

set_option maxRecDepth 16384

noncomputable section

namespace Cert.KernelIdeal.KV

open Cert.KernelIdeal Cert.KernelIdeal.Gen
open Idealize.ShloMosaic Idealize.ShloMosaic.TcCoe Idealize.ShloMosaic.Tactic Idealize.ShloMosaic.ValueIdx
open Idealize.SL Idealize.SL.Sem

variable {F : FTy → Type} [FloatOps F]

/-- The loop makes eight trips. -/
theorem trips_eq : k1_t1_loop.trips = 8 := by decide

section Trip

variable (𝒱 : Variants) (c : Dev nD) (bd : Option 𝒱.V) (i : grid1.Coords)
  (arg2 : Memref sig .tc .vmem S1x256x1024 .bf16) (harg2 : arg2.IsWhole) (arg3 : Memref sig .tc .vmem S1x2048x1024 .bf16) (harg3 : arg3.IsWhole)
  (arg4 : Memref sig .tc .vmem S1x2048x1024 .bf16) (harg4 : arg4.IsWhole) (arg5 : Memref sig .tc .vmem S1x256x2048 .f32) (harg5 : arg5.IsWhole)
  (arg6 : Memref sig .tc .vmem S1024x1024 .bf16) (harg6 : arg6.IsWhole) (arg7 : Memref sig .tc .vmem S1x1024 .f32) (harg7 : arg7.IsWhole)
  (arg8 : Memref sig .tc .vmem S1x256x1024 .f32) (harg8 : arg8.IsWhole) (arg9 : Memref sig .tc .vmem S256x1024 .f32) (harg9 : arg9.IsWhole)
  (v0 : Vec F S1x256x2048 .f32)
  (X2 : BufTy.Contents (Elt F) arg2.view.ty) (X3 : BufTy.Contents (Elt F) arg3.view.ty) (X4 : BufTy.Contents (Elt F) arg4.view.ty)

/-- The query lanes trip `k` loads. -/
abbrev qBlk (k : Fin k1_t1_loop.trips) : Vec F S1x256x128 .bf16 :=
  View.readAt (Elt F) arg2.view (Rect.unit (s := S1x256x1024) (k1_off1 k) S1x256x128.size (k1_off1_inb k)).toLoadRect X2
/-- The key lanes trip `k` loads. -/
abbrev kBlk (k : Fin k1_t1_loop.trips) : Vec F S1x2048x128 .bf16 :=
  View.readAt (Elt F) arg3.view (Rect.unit (s := S1x2048x1024) (k1_off2 k) S1x2048x128.size (k1_off2_inb k)).toLoadRect X3
/-- The value lanes trip `k` loads. -/
abbrev vBlk (k : Fin k1_t1_loop.trips) : Vec F S1x2048x128 .bf16 :=
  View.readAt (Elt F) arg4.view (Rect.unit (s := S1x2048x1024) (k1_off2 k) S1x2048x128.size (k1_off2_inb k)).toLoadRect X4

/-- What trip `k` stores: the pair of heads' contexts, side by side. -/
def tripPay (k : Fin k1_t1_loop.trips) : FVec F S256x128 .f32 :=
  k1_pay2 (k1_pay7 (k1_pay1 v0) (qBlk arg2 X2 k) (kBlk arg3 X3 k) (vBlk arg4 X4 k)) (k1_pay8 (vBlk arg4 X4 k))
    (k1_pay9 (k1_pay1 v0) (qBlk arg2 X2 k) (kBlk arg3 X3 k))

/-- Where trip `k` stores it: rows 0 … 255, lanes 128k … 128k+127 of the scratch. -/
abbrev tripRect (k : Fin k1_t1_loop.trips) : Rect S256x1024 :=
  Rect.unit (s := S256x1024) (k1_off3 k) S256x128.size (k1_off3_inb k)

/-- Trip `k` writes one piece: that value at that rectangle. -/
theorem tripL_eq (k : Fin k1_t1_loop.trips) :
    tripL_k1_t1 (F := F) 𝒱 c bd i arg2 harg2 arg3 harg3 arg4 harg4 arg5 harg5 arg6 harg6 arg7 harg7 arg8 harg8 arg9 harg9 v0 X2 X3 X4 k
      = [⟨tripRect k, tripPay arg2 arg3 arg4 v0 X2 X3 X4 k⟩] := by
  unfold tripL_k1_t1 trip_k1_t1
  dsimp only
  sl_unfold_run_names
  rfl

/-- Every piece of the trips before `n` is some trip's, -/
theorem pb_mem : ∀ (n : ℕ) (p : View.Piece (Elt F) S256x1024 .f32),
    p ∈ pb_k1_t1 (F := F) 𝒱 c bd i arg2 harg2 arg3 harg3 arg4 harg4 arg5 harg5 arg6 harg6 arg7 harg7 arg8 harg8 arg9 harg9 v0 X2 X3 X4 n →
      ∃ k : Fin k1_t1_loop.trips, k.val < n ∧ p = ⟨tripRect k, tripPay arg2 arg3 arg4 v0 X2 X3 X4 k⟩
  | 0, p, hp => by rw [pb_k1_t1.eq_1] at hp; exact absurd hp (List.not_mem_nil)
  | n + 1, p, hp => by
    rw [pb_k1_t1.eq_2] at hp
    unfold pb_k1_t1Step at hp
    split at hp
    · rename_i h
      rcases List.mem_append.mp hp with hp | hp
      · rw [tripL_eq, List.mem_singleton] at hp
        exact ⟨⟨n, h⟩, Nat.lt_succ_self n, hp⟩
      · obtain ⟨k, hk, e⟩ := pb_mem n p hp
        exact ⟨k, Nat.lt_succ_of_lt hk, e⟩
    · obtain ⟨k, hk, e⟩ := pb_mem n p hp
      exact ⟨k, Nat.lt_succ_of_lt hk, e⟩

/-- and every trip before `n` has its piece among them. -/
theorem mem_pb (k : Fin k1_t1_loop.trips) : ∀ (n : ℕ), k.val < n →
    (⟨tripRect k, tripPay arg2 arg3 arg4 v0 X2 X3 X4 k⟩ : View.Piece (Elt F) S256x1024 .f32)
      ∈ pb_k1_t1 (F := F) 𝒱 c bd i arg2 harg2 arg3 harg3 arg4 harg4 arg5 harg5 arg6 harg6 arg7 harg7 arg8 harg8 arg9 harg9 v0 X2 X3 X4 n
  | 0, h => absurd h (Nat.not_lt_zero _)
  | n + 1, h => by
    rw [pb_k1_t1.eq_2]
    unfold pb_k1_t1Step
    by_cases hn : n < k1_t1_loop.trips
    · rw [dif_pos hn]
      by_cases hk : k.val = n
      · apply List.mem_append_left
        obtain rfl : k = ⟨n, hn⟩ := Fin.ext hk
        rw [tripL_eq]
        exact List.mem_singleton.mpr rfl
      · exact List.mem_append_right _ (mem_pb k n (by omega))
    · rw [dif_neg hn]
      exact mem_pb k n (by have := k.isLt; omega)

/-- The trip's value depends on the trip and the index only through their values. -/
theorem tripPay_congr {k k' : Fin k1_t1_loop.trips} (hk : k' = k) {x x' : S256x128.Idx} (hx : x' = x) :
    tripPay arg2 arg3 arg4 v0 X2 X3 X4 k' x' = tripPay arg2 arg3 arg4 v0 X2 X3 X4 k x := by
  subst hk hx; rfl

/-- The scratch after the eight trips, as one function of the index: at row `r` and column `c`, trip `c / 128`'s
    stored value at `(r, c % 128)`. -/
def scratchFn : S256x1024.Idx → Elt F .f32 := fun y =>
  tripPay arg2 arg3 arg4 v0 X2 X3 X4 ⟨(y 1).val / 128, by rw [trips_eq]; have := idx2_lt1 y; omega⟩
    (ix2 ⟨(y 0).val, idx2_lt0 y⟩ ⟨(y 1).val % 128, Nat.mod_lt _ (by norm_num)⟩)

/-- Trip `k`'s rectangle places local `(r, l)` at `(r, 128k + l)`. -/
theorem tripRect_emb (k : Fin k1_t1_loop.trips) (x : (tripRect k).shape.Idx) :
    (((tripRect k).emb x) 0).val = (x 0).val ∧ (((tripRect k).emb x) 1).val = 128 * k.val + (x 1).val := by
  have e0 : k1_off3 k 0 = 0 := by rw [k1_off3_eq]; rfl
  have e1 : k1_off3 k 1 = 128 * k.val := by rw [k1_off3_eq]; rfl
  constructor
  · show k1_off3 k 0 + 1 * (x 0).val = _; rw [e0]; omega
  · show k1_off3 k 1 + 1 * (x 1).val = _; rw [e1]; omega

/-- The eight trips' pieces cover the scratch: index `(r, c)` lies in trip `c / 128`'s rectangle. -/
theorem cover_pb (y : S256x1024.Idx) :
    ∃ p ∈ pb_k1_t1 (F := F) 𝒱 c bd i arg2 harg2 arg3 harg3 arg4 harg4 arg5 harg5 arg6 harg6 arg7 harg7 arg8 harg8 arg9 harg9 v0 X2 X3 X4 k1_t1_loop.trips, y ∈ p.1.set := by
  have hy1 := idx2_lt1 y
  have hy0 := idx2_lt0 y
  let k0 : Fin k1_t1_loop.trips := ⟨(y 1).val / 128, by rw [trips_eq]; omega⟩
  refine ⟨⟨tripRect k0, tripPay arg2 arg3 arg4 v0 X2 X3 X4 k0⟩,
    mem_pb 𝒱 c bd i arg2 harg2 arg3 harg3 arg4 harg4 arg5 harg5 arg6 harg6 arg7 harg7 arg8 harg8 arg9 harg9 v0 X2 X3 X4 k0 _ k0.isLt, ?_⟩
  show y ∈ (Rect.unit (s := S256x1024) (k1_off3 k0) S256x128.size (k1_off3_inb k0)).set
  rw [Rect.mem_set_unit]
  have e0 : k1_off3 k0 0 = 0 := by rw [k1_off3_eq]; rfl
  have e1 : k1_off3 k0 1 = 128 * ((y 1).val / 128) := by rw [k1_off3_eq]; rfl
  intro a
  match a with
  | ⟨0, _⟩ => show k1_off3 k0 0 ≤ (y 0).val ∧ (y 0).val < k1_off3 k0 0 + 256; rw [e0]; omega
  | ⟨1, _⟩ => show k1_off3 k0 1 ≤ (y 1).val ∧ (y 1).val < k1_off3 k0 1 + 128; rw [e1]; omega

/-- THE SCRATCH AFTER THE LOOP: the canon of the eight trips' pieces is that one function, at every index. -/
theorem canon_pb (y : S256x1024.Idx) :
    View.canon (pb_k1_t1 (F := F) 𝒱 c bd i arg2 harg2 arg3 harg3 arg4 harg4 arg5 harg5 arg6 harg6 arg7 harg7 arg8 harg8 arg9 harg9 v0 X2 X3 X4 k1_t1_loop.trips) y
      = scratchFn arg2 arg3 arg4 v0 X2 X3 X4 y := by
  refine View.canon_apply_of_pieces (scratchFn arg2 arg3 arg4 v0 X2 X3 X4) _ ?_ y
    (cover_pb 𝒱 c bd i arg2 harg2 arg3 harg3 arg4 harg4 arg5 harg5 arg6 harg6 arg7 harg7 arg8 harg8 arg9 harg9 v0 X2 X3 X4 y)
  intro p hp x
  obtain ⟨k, -, rfl⟩ := pb_mem 𝒱 c bd i arg2 harg2 arg3 harg3 arg4 harg4 arg5 harg5 arg6 harg6 arg7 harg7 arg8 harg8 arg9 harg9 v0 X2 X3 X4 _ p hp
  obtain ⟨h0, h1⟩ := tripRect_emb k x
  have hx1 : (x 1).val < 128 := (x 1).isLt
  unfold scratchFn
  refine (tripPay_congr arg2 arg3 arg4 v0 X2 X3 X4 (Fin.ext ?_) (funext fun a => Fin.ext ?_)).symm
  · show (((tripRect k).emb x) 1).val / 128 = k.val
    rw [h1]; omega
  · match a with
    | ⟨0, _⟩ => show (((tripRect k).emb x) 0).val = (x 0).val; exact h0
    | ⟨1, _⟩ => show (((tripRect k).emb x) 1).val % 128 = (x 1).val; rw [h1]; omega

/-- So a load of any box of the scratch after the loop reads that function at the box's indices, whatever the scratch
    held before the loop: the trips overwrite all of it. -/
theorem readAt_after_loop (B : LoadRect S256x1024) (fs0 : BufTy.Contents (Elt F) arg9.view.ty) :
    View.readAt (Elt F) arg9.view B
        (arg9.view.writes (Elt F) fs0 (pb_k1_t1 (F := F) 𝒱 c bd i arg2 harg2 arg3 harg3 arg4 harg4 arg5 harg5 arg6 harg6 arg7 harg7 arg8 harg8 arg9 harg9 v0 X2 X3 X4 k1_t1_loop.trips))
      = fun x => scratchFn arg2 arg3 arg4 v0 X2 X3 X4 (B.idx x) := by
  funext x
  rw [View.readAt_apply, View.read_writes_apply_eq_canon _ _ _ _ (cover_pb 𝒱 c bd i arg2 harg2 arg3 harg3 arg4 harg4 arg5 harg5 arg6 harg6 arg7 harg7 arg8 harg8 arg9 harg9 v0 X2 X3 X4 (B.idx x)),
    canon_pb]

end Trip

end Cert.KernelIdeal.KV

end
-- ==== Proof.Spec.lean ====
/-
  The function both programs compute, over the extended reals: multi-head self-attention (16 heads of width 64 over 2048
  positions) followed by an output projection, after a fused query/key/value projection.

  One query row is independent of every other, so the function is stated for ONE row: from the row's queries
  `qrow h d`, the keys and values `kk h s d`, `vv h s d` of every position `s`, the row's additive mask `mrow s`, and the
  output projection's matrix and bias,

    score s     = (sum over d of q d * k s d) * (1/8) + mrow s          (one head: q = qrow h, k = kk h, v = vv h)
    top         = the maximum over s of score s, folded from -infinity
    expo s      = exp (score s - top)
    denom       = sum over s of expo s
    weight s    = expo s / denom
    headCtx d   = sum over s of weight s * v s d
    rowOut e    = (sum over c < 1024 of headCtx[head c / 64] (c % 64) * Wo c e) + bo e.

  The fused projection at a position and a column is `(sum over k of x k * w k) + b`; head `h`'s query, key and value
  lanes are its columns h*192 + d, h*192 + 64 + d and h*192 + 128 + d. Last, the two scalar identities that join the two
  programs' spellings: a quotient by 8 is the product with 1/8 on every extended real, and a maximum against -infinity is
  the other operand.
-/
import Idealize.ShloMosaic.PureOps.Ideal
import Idealize.ShloMosaic.PureOps.Ideal.Laws
import Idealize.ShloMosaic.Lib.ValueIdx

noncomputable section

open scoped BigOperators

namespace Cert.Attn

open Idealize.ShloMosaic Idealize.ShloMosaic.ValueIdx

/-! ## The constants the two programs spell -/

/-- The word of 8.0 denotes the real 8. -/
theorem ofBits_eight : Ideal.ofBits .f32 0x41000000#32 = ((8 : ℝ) : EReal) := by
  simp [Ideal.ofBits, Ideal.ieee, -EReal.coe_mul]; norm_num

/-- The word of 0.125 denotes the real 1/8. -/
theorem ofBits_eighth : Ideal.ofBits .f32 0x3E000000#32 = ((1 / 8 : ℝ) : EReal) := by
  simp [Ideal.ofBits, Ideal.ieee, -EReal.coe_mul]; norm_num

/-- The word of -infinity denotes the bottom of the extended reals. -/
theorem ofBits_negInf : Ideal.ofBits .f32 0xFF800000#32 = (⊥ : EReal) := by
  simp [Ideal.ofBits, Ideal.ieee]

/-- A quotient by 8 is the product with 1/8, at the infinities too. -/
theorem div_eight (x : EReal) :
    Ideal.div x (Ideal.ofBits .f32 0x41000000#32) = x * Ideal.ofBits .f32 0x3E000000#32 := by
  rw [ofBits_eight, ofBits_eighth, Ideal.div_coe (by norm_num : (8 : ℝ) ≠ 0)]

/-- A maximum against -infinity is the other operand. -/
theorem max_negInf (x : EReal) : max (Ideal.ofBits .f32 0xFF800000#32) x = x := by
  rw [ofBits_negInf]; exact max_eq_right bot_le

/-! ## Columns -/

/-- Column `h*192 + p*64 + d` of the fused projection: head `h`, part `p` (0 the query, 1 the key, 2 the value),
    lane `d`. -/
def col (h : Fin 16) (p : Fin 3) (d : Fin 64) : Fin 3072 :=
  ⟨h.val * 192 + p.val * 64 + d.val, by have := h.isLt; have := p.isLt; have := d.isLt; omega⟩

theorem col_val (h : Fin 16) (p : Fin 3) (d : Fin 64) : (col h p d).val = h.val * 192 + p.val * 64 + d.val := rfl

/-- Column `h*64 + d` of a head-major array of width 1024: head `h`, lane `d`. -/
def hcol (h : Fin 16) (d : Fin 64) : Fin 1024 :=
  ⟨h.val * 64 + d.val, by have := h.isLt; have := d.isLt; omega⟩

theorem hcol_val (h : Fin 16) (d : Fin 64) : (hcol h d).val = h.val * 64 + d.val := rfl

/-- The head of a head-major column, `c / 64`. -/
def headOf (c : Fin 1024) : Fin 16 := ⟨c.val / 64, by have := c.isLt; omega⟩
/-- The lane of a head-major column, `c % 64`. -/
def laneOf (c : Fin 1024) : Fin 64 := ⟨c.val % 64, Nat.mod_lt _ (by norm_num)⟩

theorem headOf_val (c : Fin 1024) : (headOf c).val = c.val / 64 := rfl
theorem laneOf_val (c : Fin 1024) : (laneOf c).val = c.val % 64 := rfl
theorem hcol_headOf_laneOf (c : Fin 1024) : hcol (headOf c) (laneOf c) = c :=
  Fin.ext (by rw [hcol_val, headOf_val, laneOf_val]; omega)
theorem headOf_hcol (h : Fin 16) (d : Fin 64) : headOf (hcol h d) = h :=
  Fin.ext (by rw [headOf_val, hcol_val]; have := d.isLt; omega)
theorem laneOf_hcol (h : Fin 16) (d : Fin 64) : laneOf (hcol h d) = d :=
  Fin.ext (by rw [laneOf_val, hcol_val]; have := d.isLt; omega)

/-! ## One element of the fused projection -/

/-- A row of the input against a column of the weight, plus the column's bias. -/
def projAt (x w : Fin 1024 → EReal) (b : EReal) : EReal := (∑ k : Fin 1024, x k * w k) + b

/-! ## One head of one query row -/

section Head

variable (q : Fin 64 → EReal) (k v : Fin 2048 → Fin 64 → EReal) (mrow : Fin 2048 → EReal)

/-- The head's scaled, masked score of the row against key position `s`. -/
def score (s : Fin 2048) : EReal := (∑ d : Fin 64, q d * k s d) * Ideal.ofBits .f32 0x3E000000#32 + mrow s

/-- The head's largest score, folded from -infinity. -/
def top : EReal :=
  (Finset.univ : Finset (Fin 2048)).fold max (Ideal.ofBits .f32 0xFF800000#32) (fun s => score q k mrow s)

/-- The shifted exponential. -/
def expo (s : Fin 2048) : EReal := Ideal.exp (score q k mrow s - top q k mrow)

/-- The head's normaliser. -/
def denom : EReal := ∑ s : Fin 2048, expo q k mrow s

/-- The attention weight. -/
def weight (s : Fin 2048) : EReal := Ideal.div (expo q k mrow s) (denom q k mrow)

/-- The head's context at a lane. -/
def headCtx (d : Fin 64) : EReal := ∑ s : Fin 2048, weight q k mrow s * v s d

end Head

/-! ## One query row -/

section Row

variable (qrow : Fin 16 → Fin 64 → EReal) (kk vv : Fin 16 → Fin 2048 → Fin 64 → EReal) (mrow : Fin 2048 → EReal)
  (Wo : Fin 1024 → Fin 1024 → EReal) (bo : Fin 1024 → EReal)

/-- The row of the result: the heads' contexts laid side by side (column `c` is head `c / 64`, lane `c % 64`) through
    the output projection. -/
def rowOut (e : Fin 1024) : EReal :=
  (∑ c : Fin 1024, headCtx (qrow (headOf c)) (kk (headOf c)) (vv (headOf c)) mrow (laneOf c) * Wo c e) + bo e

end Row

/-! ## The whole function of the six argument arrays -/

section Fn

variable (X : (⟨3, ![2, 2048, 1024]⟩ : Shape).Idx → EReal) (M : (⟨3, ![2, 2048, 2048]⟩ : Shape).Idx → EReal)
  (W : (⟨2, ![1024, 3072]⟩ : Shape).Idx → EReal) (bq : (⟨1, ![3072]⟩ : Shape).Idx → EReal)
  (Wo : (⟨2, ![1024, 1024]⟩ : Shape).Idx → EReal) (bo : (⟨1, ![1024]⟩ : Shape).Idx → EReal)

/-- The fused projection at a position and a column. -/
def proj (b : Fin 2) (t : Fin 2048) (c : Fin 3072) : EReal :=
  projAt (fun k => X (ix3 b t k)) (fun k => W (ix2 k c)) (bq (ix1 c))

/-- The result array: each row is `rowOut` of that row's queries, its batch element's keys and values, and its mask
    row. -/
def result : (⟨3, ![2, 2048, 1024]⟩ : Shape).Idx → EReal := fun i =>
  rowOut (fun h d => proj X W bq (i 0) (i 1) (col h 0 d)) (fun h s d => proj X W bq (i 0) s (col h 1 d))
    (fun h s d => proj X W bq (i 0) s (col h 2 d)) (fun s => M (ix3 (i 0) (i 1) s))
    (fun c e => Wo (ix2 c e)) (fun e => bo (ix1 e)) (i 2)

end Fn

end Cert.Attn

end
-- ==== Proof.PayProj.lean ====
/-
  The two projection payloads of the kernel read at an index, over the extended reals.

  The first body's accumulator is a block of rows of the input against the whole fused weight plus the bias row: its
  element `(r, c')` is `(sum over k of x r k * w k c') + b 0 c'`, and the three stored values are its column ranges
  `[0, 1024)`, `[1024, 2048)`, `[2048, 3072)`, so part `p` at column `c` is the accumulator at column
  `p * 1024 + c`. The second body's tail is the scratch rows against the output projection's matrix plus its bias row,
  with a leading unit axis added: its element `(0, r, e)` is `(sum over c of S r c * wo c e) + bo 0 e`.
  A matmul into the zero splat at `(r, c)` is the sum over the one contracting coordinate; the format changes are the
  identity on extended reals; a shape cast to the same shape is the identity; the bias row is broadcast down the rows.
-/
import proofs.«409499_j57698590654770_3_alg».proof.Proof.Gen.KernelIdeal.Skeleton
import proofs.«409499_j57698590654770_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx Idealize.SL.Sem

/-! ## The fused projection's product: the operand indices, axis by axis -/

theorem lhs_qkv_0 (i : S512x3072.Idx) (q : dot_S512x1024_S1024x3072_S512x3072_1_0_0_1_n_n.contr.Idx) :
    (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
theorem lhs_qkv_1 (i : S512x3072.Idx) (q : dot_S512x1024_S1024x3072_S512x3072_1_0_0_1_n_n.contr.Idx) :
    (dot_S512x1024_S1024x3072_S512x3072_1_0_0_1_n_n.lhsIdx i q 1).val = (q ⟨0, by decide⟩).val :=
  dot_S512x1024_S1024x3072_S512x3072_1_0_0_1_n_n.lhsIdx_val_of_single rfl i q
theorem rhs_qkv_0 (i : S512x3072.Idx) (q : dot_S512x1024_S1024x3072_S512x3072_1_0_0_1_n_n.contr.Idx) :
    (dot_S512x1024_S1024x3072_S512x3072_1_0_0_1_n_n.rhsIdx i q 0).val = (q ⟨0, by decide⟩).val :=
  dot_S512x1024_S1024x3072_S512x3072_1_0_0_1_n_n.rhsIdx_val_of_single rfl i q
theorem rhs_qkv_1 (i : S512x3072.Idx) (q : dot_S512x1024_S1024x3072_S512x3072_1_0_0_1_n_n.contr.Idx) :
    (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl

/-- The product into the zero splat, read at `(r, c)`: row `r` of the left operand against column `c` of the right. -/
theorem matmul_qkv_apply (a : FVec Ideal S512x1024 .bf16) (w : FVec Ideal S1024x3072 .bf16) (r : Fin 512) (c : Fin 3072) :
    matmul dot_S512x1024_S1024x3072_S512x3072_1_0_0_1_n_n none a w (constant (F := Ideal) S512x3072 .f32 0x00000000#32) (ix2 r c)
      = ∑ k : Fin 1024, a (ix2 r k) * w (ix2 k c) := by
  refine (Ideal.matmul_constant_zero_apply dot_S512x1024_S1024x3072_S512x3072_1_0_0_1_n_n none a w (ix2 r c)).trans ?_
  rw [← Equiv.sum_comp (contrEquiv1 dot_S512x1024_S1024x3072_S512x3072_1_0_0_1_n_n 1024 rfl rfl).symm]
  refine Finset.sum_congr rfl fun k _ => ?_
  have hk := contrEquiv1_symm_val dot_S512x1024_S1024x3072_S512x3072_1_0_0_1_n_n 1024 rfl rfl k
  have el : dot_S512x1024_S1024x3072_S512x3072_1_0_0_1_n_n.lhsIdx (ix2 r c) ((contrEquiv1 dot_S512x1024_S1024x3072_S512x3072_1_0_0_1_n_n 1024 rfl rfl).symm k) = ix2 r k := funext fun ax => Fin.ext (by
    match ax with
    | ⟨0, _⟩ => exact lhs_qkv_0 _ _
    | ⟨1, _⟩ => exact (lhs_qkv_1 _ _).trans hk)
  have er : dot_S512x1024_S1024x3072_S512x3072_1_0_0_1_n_n.rhsIdx (ix2 r c) ((contrEquiv1 dot_S512x1024_S1024x3072_S512x3072_1_0_0_1_n_n 1024 rfl rfl).symm k) = ix2 k c := funext fun ax => Fin.ext (by
    match ax with
    | ⟨0, _⟩ => exact (rhs_qkv_0 _ _).trans hk
    | ⟨1, _⟩ => exact rhs_qkv_1 _ _)
  rw [el, er]

/-! ## The output projection's product -/

theorem lhs_out_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhs_out_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhs_out_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhs_out_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- The product into the zero splat, read at `(r, c)`: row `r` of the left operand against column `c` of the right. -/
theorem matmul_out_apply (a : FVec Ideal S256x1024 .bf16) (w : FVec Ideal S1024x1024 .bf16) (r : Fin 256) (c : Fin 1024) :
    matmul dot_S256x1024_S1024x1024_S256x1024_1_0_0_1_n_n none a w (constant (F := Ideal) S256x1024 .f32 0x00000000#32) (ix2 r c)
      = ∑ k : Fin 1024, a (ix2 r k) * w (ix2 k c) := by
  refine (Ideal.matmul_constant_zero_apply dot_S256x1024_S1024x1024_S256x1024_1_0_0_1_n_n none a w (ix2 r c)).trans ?_
  rw [← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 r c) ((contrEquiv1 dot_S256x1024_S1024x1024_S256x1024_1_0_0_1_n_n 1024 rfl rfl).symm k) = ix2 r k := funext fun ax => Fin.ext (by
    match ax with
    | ⟨0, _⟩ => exact lhs_out_0 _ _
    | ⟨1, _⟩ => exact (lhs_out_1 _ _).trans hk)
  have er : dot_S256x1024_S1024x1024_S256x1024_1_0_0_1_n_n.rhsIdx (ix2 r c) ((contrEquiv1 dot_S256x1024_S1024x1024_S256x1024_1_0_0_1_n_n 1024 rfl rfl).symm k) = ix2 k c := funext fun ax => Fin.ext (by
    match ax with
    | ⟨0, _⟩ => exact (rhs_out_0 _ _).trans hk
    | ⟨1, _⟩ => exact rhs_out_1 _ _)
  rw [el, er]

/-! ## The first body's accumulator and its three column ranges -/

/-- Column `p * 1024 + c` of the fused projection: part `p`, column `c` of the part. -/
def wcol (p : Fin 3) (c : Fin 1024) : Fin 3072 :=
  ⟨p.val * 1024 + c.val, by have := p.isLt; have := c.isLt; omega⟩

theorem wcol_val (p : Fin 3) (c : Fin 1024) : (wcol p c).val = p.val * 1024 + c.val := rfl

/-- The accumulator at `(r, c')`: row `r` of the block against column `c'` of the weight, plus the bias at `c'`. -/
theorem pay1_apply (x : Vec Ideal S512x1024 .f32) (w : Vec Ideal S1024x3072 .bf16) (b : Vec Ideal S1x3072 .f32)
    (r : Fin 512) (c : Fin 3072) :
    k0_pay1 (F := Ideal) x w b (ix2 r c)
      = Cert.Attn.projAt (fun k => x (ix2 r k)) (fun k => w (ix2 k c)) (b (ix2 0 c)) := by
  unfold k0_pay1
  show matmul dot_S512x1024_S1024x3072_S512x3072_1_0_0_1_n_n none
        (truncf .bf16 (shapeCast S512x1024 x shapeCasts_S512x1024_S512x1024) bitsLt_bf16_f32)
        (shapeCast S1024x3072 w shapeCasts_S1024x3072_S1024x3072)
        (constant (F := Ideal) S512x3072 .f32 0x00000000#32) (ix2 r c)
      + broadcastTo S512x3072 (shapeCast S1x3072 b shapeCasts_S1x3072_S1x3072) broadcasts_S1x3072_S512x3072 (ix2 r c) = _
  rw [shapeCast_self, shapeCast_self, shapeCast_self, matmul_qkv_apply, broadcastTo_1b_ab_apply]
  rfl

/-- A column range of the accumulator starting at `p * 1024`, read at `(r, c)`: the accumulator at column
    `p * 1024 + c`. -/
theorem part_apply (o : Nat) (p : Fin 3) (ho : o = p.val * 1024) (h : S512x3072.Slices ![0, o] S512x1024)
    (x : Vec Ideal S512x1024 .f32) (w : Vec Ideal S1024x3072 .bf16) (b : Vec Ideal S1x3072 .f32)
    (r : Fin 512) (c : Fin 1024) :
    extractStridedSlice S512x1024 ![0, o] (k0_pay1 (F := Ideal) x w b) h (ix2 r c)
      = Cert.Attn.projAt (fun k => x (ix2 r k)) (fun k => w (ix2 k (wcol p c))) (b (ix2 0 (wcol p c))) :=
  (slice2_axis1_apply o (k0_pay1 (F := Ideal) x w b) h r c (wcol p c) (by rw [wcol_val, ho])).trans
    (pay1_apply x w b r (wcol p c))

/-- The three stored values at `(r, c)`: part `p` (0 the queries' columns, 1 the keys', 2 the values') is the fused
    projection of row `r` at column `p * 1024 + c`. -/
theorem qkv_apply (x : Vec Ideal S512x1024 .f32) (w : Vec Ideal S1024x3072 .bf16) (b : Vec Ideal S1x3072 .f32)
    (r : Fin 512) (p : Fin 3) (c : Fin 1024) :
    (match p with
      | ⟨0, _⟩ => k0_pay2 (F := Ideal) x w b
      | ⟨1, _⟩ => k0_pay3 (F := Ideal) x w b
      | ⟨2, _⟩ => k0_pay4 (F := Ideal) x w b) (ix2 r c)
      = Cert.Attn.projAt (fun k => x (ix2 r k)) (fun k => w (ix2 k (wcol p c))) (b (ix2 0 (wcol p c))) := by
  match p with
  | ⟨0, hp⟩ => exact part_apply 0 ⟨0, hp⟩ rfl slices_S512x3072_o0_0_S512x1024 x w b r c
  | ⟨1, hp⟩ => exact part_apply 1024 ⟨1, hp⟩ rfl slices_S512x3072_o0_1024_S512x1024 x w b r c
  | ⟨2, hp⟩ => exact part_apply 2048 ⟨2, hp⟩ rfl slices_S512x3072_o0_2048_S512x1024 x w b r c

/-! ## The second body's tail -/

/-- The output projection at `(0, r, e)`: row `r` of the scratch against column `e` of the matrix, plus the bias at
    `e`. -/
theorem outproj_apply (S : Vec Ideal S256x1024 .f32) (wo : Vec Ideal S1024x1024 .bf16) (bo : Vec Ideal S1x1024 .f32)
    (r : Fin 256) (e : Fin 1024) :
    k1_pay3 (F := Ideal) S wo bo (ix3 0 r e) = (∑ c : Fin 1024, S (ix2 r c) * wo (ix2 c e)) + bo (ix2 0 e) := by
  unfold k1_pay3
  refine (shapeCast_ab_1ab_apply _ shapeCasts_S256x1024_S1x256x1024 0 r e).trans ?_
  show matmul dot_S256x1024_S1024x1024_S256x1024_1_0_0_1_n_n none
        (truncf .bf16 S bitsLt_bf16_f32) (shapeCast S1024x1024 wo shapeCasts_S1024x1024_S1024x1024)
        (constant (F := Ideal) S256x1024 .f32 0x00000000#32) (ix2 r e)
      + broadcastTo S256x1024 (shapeCast S1x1024 bo shapeCasts_S1x1024_S1x1024) broadcasts_S1x1024_S256x1024 (ix2 r e) = _
  rw [shapeCast_self, shapeCast_self, matmul_out_apply, broadcastTo_1b_ab_apply]
  rfl

end Cert.KernelIdeal.Pay

end
-- ==== Proof.Region0.lean ====
/-
  The first region of the kernel's program, at the array level.

  The region is a grid of 8 points. Point `t` takes rows `512 t … 512 t + 511` of the `[4096, 1024]` input, the whole
  `[1024, 3072]` weight and the whole `[1, 3072]` bias row, computes the `[512, 3072]` block of the fused projection and
  writes its three column ranges to rows `512 t … 512 t + 511` of three `[4096, 1024]` arrays. Every row is in exactly
  one point's block, and what a point writes is its block of ONE function of the arrays the region finds at its entry:
  part `p` at `(r, c)` is `(sum over k of X r k * W k (p*1024 + c)) + b 0 (p*1024 + c)`. So after the region each of the
  three arrays is that function, index by index.
-/
import proofs.«409499_j57698590654770_3_alg».proof.Proof.KIFrame
import proofs.«409499_j57698590654770_3_alg».proof.Proof.PayProj
import proofs.«409499_j57698590654770_3_alg».proof.Proof.Spec
import Idealize.ShloMosaic.Lib.Pipeline.Value
import Idealize.ShloMosaic.Lib.ValueIdx

noncomputable section

open scoped BigOperators
open Idealize.ShloMosaic.Pipeline (Dat)

namespace Cert.KernelIdeal.KV

open Cert.KernelIdeal Cert.KernelIdeal.Gen Cert.KernelIdeal.GenP Cert.KernelIdeal.Pay Idealize.ShloMosaic
  Idealize.ShloMosaic.TcCoe Idealize.ShloMosaic.ValueIdx Idealize.SL.Sem

variable (V : (c : Dev nD) → (b : Ref sig .tc) → Buf (Elt Ideal) ((c : Thread nD τ).loc b))

/-! ## The function the three arrays end at -/

/-- Part `p` of the fused projection of the arrays the region finds, at row `R` and column `C` of the part. -/
def projEntry (c : Dev nD) (p : Fin 3) (R : Fin 4096) (C : Fin 1024) : EReal :=
  Cert.Attn.projAt (fun k => (V c main_v12 : S4096x1024.Idx → EReal) (ix2 R k))
    (fun k => (V c main_v10 : S1024x3072.Idx → EReal) (ix2 k (wcol p C)))
    ((V c main_v13 : S1x3072.Idx → EReal) (ix2 0 (wcol p C)))

/-- The same as an array. -/
def projArr (c : Dev nD) (p : Fin 3) : S4096x1024.Idx → EReal := fun i => projEntry V c p (i 0) (i 1)

/-- The array at an index whose coordinates are known. -/
theorem projArr_of (c : Dev nD) (p : Fin 3) (i : S4096x1024.Idx) (R : Fin 4096) (C : Fin 1024)
    (h0 : (i 0).val = R.val) (h1 : (i 1).val = C.val) : projArr V c p i = projEntry V c p R C :=
  congrArg₂ (projEntry V c p) (Fin.ext h0) (Fin.ext h1)

/-! ## The index maps over the grid -/

theorem hz : (![0, 0] : Fin 2 → Nat) = fun _ => 0 := funext fun a => by fin_cases a <;> rfl

/-- The input's and the three outputs' row blocks move with the point; every column block, and the weight's and the
    bias row's blocks, stay at 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-! ## The input blocks, read off the arrays -/

/-- Row `r` of point `t`'s input block is row `512 t + r` of the input. -/
theorem xblk_apply (c : Dev nD) (t : Fin cfg0.N) (r : Fin 512) (k : Fin 1024) (R : Fin 4096)
    (hR : R.val = t.val * 512 + r.val) :
    (iblk0 V c 0 t : Vec Ideal S512x1024 .f32) (ix2 r k) = (V c main_v12 : S4096x1024.Idx → EReal) (ix2 R k) := by
  obtain ⟨e0, e1, -⟩ := idx_facts t
  unfold iblk0
  rw [View.read_apply]
  show V c main_v12 _ = V c main_v12 _
  congr 1
  funext a
  apply Fin.ext
  match a with
  | ⟨0, _⟩ => show win0_0.index t (0 : Fin 2) * 512 + 1 * r.val = R.val; rw [e0, hR]; omega
  | ⟨1, _⟩ => show win0_0.index t (1 : Fin 2) * 1024 + 1 * k.val = k.val; rw [e1]; omega

/-- Every point's weight block is the whole weight. -/
theorem wblk_apply (c : Dev nD) (t : Fin cfg0.N) (k : Fin 1024) (cw : Fin 3072) :
    (iblk0 V c 1 t : Vec Ideal S1024x3072 .bf16) (ix2 k cw) = (V c main_v10 : S1024x3072.Idx → EReal) (ix2 k cw) := by
  obtain ⟨-, -, e0, e1, -⟩ := idx_facts t
  unfold iblk0
  rw [View.read_apply]
  show V c main_v10 _ = V c main_v10 _
  congr 1
  funext a
  apply Fin.ext
  match a with
  | ⟨0, _⟩ => show win0_1.index t (0 : Fin 2) * 1024 + 1 * k.val = k.val; rw [e0]; omega
  | ⟨1, _⟩ => show win0_1.index t (1 : Fin 2) * 3072 + 1 * cw.val = cw.val; rw [e1]; omega

/-- Every point's bias block is the whole bias row. -/
theorem bblk_apply (c : Dev nD) (t : Fin cfg0.N) (u : Fin 1) (cw : Fin 3072) :
    (iblk0 V c 2 t : Vec Ideal S1x3072 .f32) (ix2 u cw) = (V c main_v13 : S1x3072.Idx → EReal) (ix2 u cw) := by
  obtain ⟨-, -, -, -, e0, e1, -⟩ := idx_facts t
  unfold iblk0
  rw [View.read_apply]
  show V c main_v13 _ = V c main_v13 _
  congr 1
  funext a
  apply Fin.ext
  match a with
  | ⟨0, _⟩ => show win0_2.index t (0 : Fin 2) * 1 + 1 * u.val = u.val; rw [e0]; omega
  | ⟨1, _⟩ => show win0_2.index t (1 : Fin 2) * 3072 + 1 * cw.val = cw.val; rw [e1]; omega

/-- So the fused projection of a point's blocks at `(r, c)` is the arrays' at row `512 t + r`. -/
theorem proj_blk (c : Dev nD) (t : Fin cfg0.N) (r : Fin 512) (p : Fin 3) (cc : Fin 1024) (R : Fin 4096)
    (hR : R.val = t.val * 512 + r.val) :
    Cert.Attn.projAt (fun k => (iblk0 V c 0 t : Vec Ideal S512x1024 .f32) (ix2 r k))
        (fun k => (iblk0 V c 1 t : Vec Ideal S1024x3072 .bf16) (ix2 k (wcol p cc)))
        ((iblk0 V c 2 t : Vec Ideal S1x3072 .f32) (ix2 0 (wcol p cc)))
      = projEntry V c p R cc := by
  have ex : (fun k => (iblk0 V c 0 t : Vec Ideal S512x1024 .f32) (ix2 r k))
      = fun k => (V c main_v12 : S4096x1024.Idx → EReal) (ix2 R k) := funext fun k => xblk_apply V c t r k R hR
  have ew : (fun k => (iblk0 V c 1 t : Vec Ideal S1024x3072 .bf16) (ix2 k (wcol p cc)))
      = fun k => (V c main_v10 : S1024x3072.Idx → EReal) (ix2 k (wcol p cc)) := funext fun k => wblk_apply V c t k (wcol p cc)
  unfold projEntry
  rw [ex, ew, bblk_apply V c t 0 (wcol p cc)]

/-! ## The queries' array -/

/-- Point `t` writes back, to the queries' array, its block of part 0 of the fused projection. -/
theorem flushed_q (c : Dev nD) (t : Fin cfg0.N) :
    (dat0 V c).flushed 3 t = ((cfg0.win 3).blk t).view.read (Elt Ideal) (projArr V c 0) := by
  show (cfg0.win 3).cut (grid0.coords t) ((dat0 V c).after 3 t) = _
  rw [after0_3]
  unfold out0_3
  rw [View.canon_unit_zero hz]
  simp only [View.ld_unit_zero (S := S512x1024) hz, View.ld_unit_zero (S := S1024x3072) hz,
    View.ld_unit_zero (S := S1x3072) hz]
  obtain ⟨-, -, -, -, -, -, f3r, f3c, f4r, f4c, f5r, f5c⟩ := idx_facts t
  have ht : t.val < 8 := Nat.lt_of_lt_of_eq t.isLt N_0
  funext j
  obtain ⟨r, cc, rfl⟩ : ∃ (r : Fin 512) (cc : Fin 1024), j = ix2 r cc := ⟨j 0, j 1, eq_ix2 j⟩
  refine ((qkv_apply (iblk0 V c 0 t) (iblk0 V c 1 t) (iblk0 V c 2 t) r 0 cc).trans
    (proj_blk V c t r 0 cc ⟨t.val * 512 + r.val, by have := r.isLt; omega⟩ rfl)).trans ?_
  show _ = projArr V c 0 (((cfg0.win 3).blk t).view.emb (ix2 r cc))
  refine (projArr_of V c 0 _ _ cc ?_ ?_).symm
  · show win0_3.index t (0 : Fin 2) * 512 + 1 * r.val = t.val * 512 + r.val
    rw [f3r]; omega
  · show win0_3.index t (1 : Fin 2) * 1024 + 1 * cc.val = cc.val
    rw [f3c]; omega

/-- An index is in point `t`'s block of the queries' array iff each coordinate is in the block's range on its axis. -/
theorem mem_blk_q (t : Fin cfg0.N) (i : S4096x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v14_0).slice (win0_3.rect t)).set ↔ _
  rw [View.set_slice_whole, Rect.mem_set_unit]
  exact Iff.rfl

/-- Row `R` of the queries' array is in the block of point `R / 512`, which writes back. -/
theorem cover_q (i : S4096x1024.Idx) :
    ∃ t : Fin cfg0.N, (cfg0.win 3).flush t = true ∧ i ∈ ((cfg0.win 3).blk t).view.set := by
  have hi0 : (i 0).val < 4096 := (i 0).isLt
  have hi1 : (i 1).val < 1024 := (i 1).isLt
  have hN : cfg0.N = 8 := N_0
  obtain ⟨t, ht⟩ : ∃ t : Fin cfg0.N, t.val = (i 0).val / 512 := ⟨⟨(i 0).val / 512, by rw [hN]; omega⟩, rfl⟩
  obtain ⟨-, -, -, -, -, -, f3r, f3c, f4r, f4c, f5r, f5c⟩ := idx_facts t
  refine ⟨t, flush0_3 t, ?_⟩
  rw [mem_blk_q]
  intro a
  match a with
  | ⟨0, _⟩ =>
    show win0_3.index t (0 : Fin 2) * 512 ≤ (i 0).val ∧ (i 0).val < win0_3.index t (0 : Fin 2) * 512 + 512
    rw [f3r, ht]; omega
  | ⟨1, _⟩ =>
    show win0_3.index t (1 : Fin 2) * 1024 ≤ (i 1).val ∧ (i 1).val < win0_3.index t (1 : Fin 2) * 1024 + 1024
    rw [f3c]; omega

/-- After the region the queries' array is part 0 of the fused projection of the arrays the region found. -/
theorem final_q (c : Dev nD) : (dat0 V c).arrAt 3 cfg0.N = projArr V c 0 :=
  (dat0 V c).arrAt_eq_of_cover 3 (projArr V c 0) (fun t _ => flushed_q V c t) cover_q

theorem arr0_q (c : Dev nD) (r : Fin 4096) (cc : Fin 1024) :
    ((dat0 (F := Ideal) V c).arrAt 3 cfg0.N : S4096x1024.Idx → EReal) (ix2 r cc)
      = Cert.Attn.projAt (fun k => (V c main_v12 : S4096x1024.Idx → EReal) (ix2 r k))
          (fun k => (V c main_v10 : S1024x3072.Idx → EReal) (ix2 k (wcol 0 cc)))
          ((V c main_v13 : S1x3072.Idx → EReal) (ix2 0 (wcol 0 cc))) :=
  congrFun (final_q V c) (ix2 r cc)

/-! ## The keys' array -/

/-- Point `t` writes back, to the keys' array, its block of part 1 of the fused projection. -/
theorem flushed_k (c : Dev nD) (t : Fin cfg0.N) :
    (dat0 V c).flushed 4 t = ((cfg0.win 4).blk t).view.read (Elt Ideal) (projArr V c 1) := by
  show (cfg0.win 4).cut (grid0.coords t) ((dat0 V c).after 4 t) = _
  rw [after0_4]
  unfold out0_4
  rw [View.canon_unit_zero hz]
  simp only [View.ld_unit_zero (S := S512x1024) hz, View.ld_unit_zero (S := S1024x3072) hz,
    View.ld_unit_zero (S := S1x3072) hz]
  obtain ⟨-, -, -, -, -, -, f3r, f3c, f4r, f4c, f5r, f5c⟩ := idx_facts t
  have ht : t.val < 8 := Nat.lt_of_lt_of_eq t.isLt N_0
  funext j
  obtain ⟨r, cc, rfl⟩ : ∃ (r : Fin 512) (cc : Fin 1024), j = ix2 r cc := ⟨j 0, j 1, eq_ix2 j⟩
  refine ((qkv_apply (iblk0 V c 0 t) (iblk0 V c 1 t) (iblk0 V c 2 t) r 1 cc).trans
    (proj_blk V c t r 1 cc ⟨t.val * 512 + r.val, by have := r.isLt; omega⟩ rfl)).trans ?_
  show _ = projArr V c 1 (((cfg0.win 4).blk t).view.emb (ix2 r cc))
  refine (projArr_of V c 1 _ _ cc ?_ ?_).symm
  · show win0_4.index t (0 : Fin 2) * 512 + 1 * r.val = t.val * 512 + r.val
    rw [f4r]; omega
  · show win0_4.index t (1 : Fin 2) * 1024 + 1 * cc.val = cc.val
    rw [f4c]; omega

/-- An index is in point `t`'s block of the keys' array iff each coordinate is in the block's range on its axis. -/
theorem mem_blk_k (t : Fin cfg0.N) (i : S4096x1024.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v14_1).slice (win0_4.rect t)).set ↔ _
  rw [View.set_slice_whole, Rect.mem_set_unit]
  exact Iff.rfl

/-- Row `R` of the keys' array is in the block of point `R / 512`, which writes back. -/
theorem cover_k (i : S4096x1024.Idx) :
    ∃ t : Fin cfg0.N, (cfg0.win 4).flush t = true ∧ i ∈ ((cfg0.win 4).blk t).view.set := by
  have hi0 : (i 0).val < 4096 := (i 0).isLt
  have hi1 : (i 1).val < 1024 := (i 1).isLt
  have hN : cfg0.N = 8 := N_0
  obtain ⟨t, ht⟩ : ∃ t : Fin cfg0.N, t.val = (i 0).val / 512 := ⟨⟨(i 0).val / 512, by rw [hN]; omega⟩, rfl⟩
  obtain ⟨-, -, -, -, -, -, f3r, f3c, f4r, f4c, f5r, f5c⟩ := idx_facts t
  refine ⟨t, flush0_4 t, ?_⟩
  rw [mem_blk_k]
  intro a
  match a with
  | ⟨0, _⟩ =>
    show win0_4.index t (0 : Fin 2) * 512 ≤ (i 0).val ∧ (i 0).val < win0_4.index t (0 : Fin 2) * 512 + 512
    rw [f4r, ht]; omega
  | ⟨1, _⟩ =>
    show win0_4.index t (1 : Fin 2) * 1024 ≤ (i 1).val ∧ (i 1).val < win0_4.index t (1 : Fin 2) * 1024 + 1024
    rw [f4c]; omega

/-- After the region the keys' array is part 1 of the fused projection of the arrays the region found. -/
theorem final_k (c : Dev nD) : (dat0 V c).arrAt 4 cfg0.N = projArr V c 1 :=
  (dat0 V c).arrAt_eq_of_cover 4 (projArr V c 1) (fun t _ => flushed_k V c t) cover_k

theorem arr0_k (c : Dev nD) (r : Fin 4096) (cc : Fin 1024) :
    ((dat0 (F := Ideal) V c).arrAt 4 cfg0.N : S4096x1024.Idx → EReal) (ix2 r cc)
      = Cert.Attn.projAt (fun k => (V c main_v12 : S4096x1024.Idx → EReal) (ix2 r k))
          (fun k => (V c main_v10 : S1024x3072.Idx → EReal) (ix2 k (wcol 1 cc)))
          ((V c main_v13 : S1x3072.Idx → EReal) (ix2 0 (wcol 1 cc))) :=
  congrFun (final_k V c) (ix2 r cc)

/-! ## The values' array -/

/-- Point `t` writes back, to the values' array, its block of part 2 of the fused projection. -/
theorem flushed_v (c : Dev nD) (t : Fin cfg0.N) :
    (dat0 V c).flushed 5 t = ((cfg0.win 5).blk t).view.read (Elt Ideal) (projArr V c 2) := by
  show (cfg0.win 5).cut (grid0.coords t) ((dat0 V c).after 5 t) = _
  rw [after0_5]
  unfold out0_5
  rw [View.canon_unit_zero hz]
  simp only [View.ld_unit_zero (S := S512x1024) hz, View.ld_unit_zero (S := S1024x3072) hz,
    View.ld_unit_zero (S := S1x3072) hz]
  obtain ⟨-, -, -, -, -, -, f3r, f3c, f4r, f4c, f5r, f5c⟩ := idx_facts t
  have ht : t.val < 8 := Nat.lt_of_lt_of_eq t.isLt N_0
  funext j
  obtain ⟨r, cc, rfl⟩ : ∃ (r : Fin 512) (cc : Fin 1024), j = ix2 r cc := ⟨j 0, j 1, eq_ix2 j⟩
  refine ((qkv_apply (iblk0 V c 0 t) (iblk0 V c 1 t) (iblk0 V c 2 t) r 2 cc).trans
    (proj_blk V c t r 2 cc ⟨t.val * 512 + r.val, by have := r.isLt; omega⟩ rfl)).trans ?_
  show _ = projArr V c 2 (((cfg0.win 5).blk t).view.emb (ix2 r cc))
  refine (projArr_of V c 2 _ _ cc ?_ ?_).symm
  · show win0_5.index t (0 : Fin 2) * 512 + 1 * r.val = t.val * 512 + r.val
    rw [f5r]; omega
  · show win0_5.index t (1 : Fin 2) * 1024 + 1 * cc.val = cc.val
    rw [f5c]; omega

/-- An index is in point `t`'s block of the values' array iff each coordinate is in the block's range on its axis. -/
theorem mem_blk_v (t : Fin cfg0.N) (i : S4096x1024.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v14_2).slice (win0_5.rect t)).set ↔ _
  rw [View.set_slice_whole, Rect.mem_set_unit]
  exact Iff.rfl

/-- Row `R` of the values' array is in the block of point `R / 512`, which writes back. -/
theorem cover_v (i : S4096x1024.Idx) :
    ∃ t : Fin cfg0.N, (cfg0.win 5).flush t = true ∧ i ∈ ((cfg0.win 5).blk t).view.set := by
  have hi0 : (i 0).val < 4096 := (i 0).isLt
  have hi1 : (i 1).val < 1024 := (i 1).isLt
  have hN : cfg0.N = 8 := N_0
  obtain ⟨t, ht⟩ : ∃ t : Fin cfg0.N, t.val = (i 0).val / 512 := ⟨⟨(i 0).val / 512, by rw [hN]; omega⟩, rfl⟩
  obtain ⟨-, -, -, -, -, -, f3r, f3c, f4r, f4c, f5r, f5c⟩ := idx_facts t
  refine ⟨t, flush0_5 t, ?_⟩
  rw [mem_blk_v]
  intro a
  match a with
  | ⟨0, _⟩ =>
    show win0_5.index t (0 : Fin 2) * 512 ≤ (i 0).val ∧ (i 0).val < win0_5.index t (0 : Fin 2) * 512 + 512
    rw [f5r, ht]; omega
  | ⟨1, _⟩ =>
    show win0_5.index t (1 : Fin 2) * 1024 ≤ (i 1).val ∧ (i 1).val < win0_5.index t (1 : Fin 2) * 1024 + 1024
    rw [f5c]; omega

/-- After the region the values' array is part 2 of the fused projection of the arrays the region found. -/
theorem final_v (c : Dev nD) : (dat0 V c).arrAt 5 cfg0.N = projArr V c 2 :=
  (dat0 V c).arrAt_eq_of_cover 5 (projArr V c 2) (fun t _ => flushed_v V c t) cover_v

theorem arr0_v (c : Dev nD) (r : Fin 4096) (cc : Fin 1024) :
    ((dat0 (F := Ideal) V c).arrAt 5 cfg0.N : S4096x1024.Idx → EReal) (ix2 r cc)
      = Cert.Attn.projAt (fun k => (V c main_v12 : S4096x1024.Idx → EReal) (ix2 r k))
          (fun k => (V c main_v10 : S1024x3072.Idx → EReal) (ix2 k (wcol 2 cc)))
          ((V c main_v13 : S1x3072.Idx → EReal) (ix2 0 (wcol 2 cc))) :=
  congrFun (final_v V c) (ix2 r cc)

end Cert.KernelIdeal.KV

end
-- ==== Proof.PayAttn.lean ====
/-
  One trip of the attention kernel's head loop, read at an index.

  A trip handles a PAIR of heads on 128 lanes: lane `j*64 + d` is sub-head `j` (0 or 1), lane `d` below 64. From the
  trip's query block `[1,256,128]`, key and value blocks `[1,2048,128]` and the mask block `[256,2048]` each sub-head
  computes, for query row `r`,

    s t    = (sum over d of q r d * k t d) * (1/8) + mask r t
    top    = the maximum over t of s t, from -infinity
    p t    = exp (s t - top)
    l      = sum over t of p t
    ctx d  = sum over t of (p t / l) * v t d

  and the two `[256,64]` contexts are laid side by side along the lanes. At the extended reals every operation is exact
  and the format changes are the identity, so lane `j*64 + d` of row `r` of what the trip stores is the function
  `Cert.Attn.headCtx` of sub-head `j`'s lanes of the three blocks and row `r` of the mask.

  The file first reads each non-pointwise operation at an index (a row value laid along its row, a row's sum, a row's
  maximum, the two matrix products), then the three stretches of a sub-head's computation as functions of whole
  matrices (scores, shifted scores, context), then the payloads themselves.
-/
import proofs.«409499_j57698590654770_3_alg».proof.Proof.Gen.KernelIdeal.Skeleton
import proofs.«409499_j57698590654770_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The non-pointwise operations at an index -/

/-- A vector of row values stood up as a column and laid along every row reads, at `(r, t)`, row `r`'s value. -/
theorem keepdims_apply {α : Type} (v : S256.Idx → α) (h1 : S256.ShapeCasts S256x1) (h2 : S256x1.Broadcasts S256x2048)
    (r : Fin 256) (t : Fin 2048) :
    broadcastTo S256x2048 (shapeCast S256x1 v h1) h2 (ix2 r t) = v (ix1 r) := by
  refine (broadcastTo_apply _ h2 (ix2 r t) (ix2 r (0 : Fin 1)) fun a => ?_).trans ?_
  · match a with
    | ⟨0, _⟩ => rfl
    | ⟨1, _⟩ => rfl
  · refine shapeCast_apply v h1 (ix2 r (0 : Fin 1)) (ix1 r) ?_
    rw [Shape.rowMajor_val_one, Shape.rowMajor_val_two]
    show r.val = r.val * 1 + 0
    omega

/-- A sum along the rows reads, at row `r`, the sum of the row's entries. -/
theorem rowsum_apply (src : FVec Ideal S256x2048 .f32) (h : S256x2048.Reduces [1] S256) (hφ : FKind.Formats .f32)
    (hacc : (0x00000000#32 : BitVec 32) = FKind.add.neutral .f32 hφ) (r : Fin 256) :
    multiReduction (F := Ideal) .add [1] S256 src 0x00000000#32 h hφ hacc (ix1 r) = ∑ t : Fin 2048, src (ix2 r t) := by
  refine (Ideal.multiReduction_add_single src _ h hφ hacc (ix1 r)).trans ?_
  show ∑ t : Fin 2048, src (h.lift (ix1 r) t) = _
  refine Finset.sum_congr rfl fun t _ => congrArg src (funext fun a => ?_)
  match a with
  | ⟨0, _⟩ => rfl
  | ⟨1, _⟩ => rfl

/-- A maximum along the rows reads, at row `r`, the fold of `max` over the row's entries from -infinity. -/
theorem rowmax_apply (src : FVec Ideal S256x2048 .f32) (h : S256x2048.Reduces [1] S256) (hφ : FKind.Formats .f32)
    (hacc : (0xFF800000#32 : BitVec 32) = FKind.maximumf.neutral .f32 hφ) (r : Fin 256) :
    multiReduction (F := Ideal) .maximumf [1] S256 src 0xFF800000#32 h hφ hacc (ix1 r)
      = (Finset.univ : Finset (Fin 2048)).fold max (Ideal.ofBits .f32 0xFF800000#32) (fun t => src (ix2 r t)) := by
  refine (Ideal.multiReduction_maximumf_single src _ h hφ hacc (ix1 r)).trans ?_
  have e : (src ∘ h.lift (ix1 r)) = fun t : Fin 2048 => src (ix2 r t) := funext fun t => congrArg src (funext fun a => by
    match a with
    | ⟨0, _⟩ => rfl
    | ⟨1, _⟩ => rfl)
  exact congrArg (fun f => (Finset.univ : Finset (Fin 2048)).fold max (Ideal.ofBits .f32 0xFF800000#32) f) e

/-! ## The two matrix products at an index

`q kᵀ` contracts axis 1 of both operands; `a v` contracts axis 1 of the left operand with axis 0 of the right. Each
operand index is read axis by axis, then the contraction's sum is re-indexed by its one coordinate. -/

theorem lhs_qk_0 (i : S256x2048.Idx) (q : dot_S256x64_S2048x64_S256x2048_1_1_0_0_n_n.contr.Idx) :
    (dot_S256x64_S2048x64_S256x2048_1_1_0_0_n_n.lhsIdx i q 0).val = (i 0).val := by
  unfold DotDims.lhsIdx
  rw [dif_neg (show ¬(0 : Fin S256x64.rank) ∈ dot_S256x64_S2048x64_S256x2048_1_1_0_0_n_n.lhsBatch by decide), dif_pos (show (0 : Fin S256x64.rank) ∈ dot_S256x64_S2048x64_S256x2048_1_1_0_0_n_n.lhsNonContracting by decide)]
  rfl
theorem lhs_qk_1 (i : S256x2048.Idx) (q : dot_S256x64_S2048x64_S256x2048_1_1_0_0_n_n.contr.Idx) :
    (dot_S256x64_S2048x64_S256x2048_1_1_0_0_n_n.lhsIdx i q 1).val = (q ⟨0, by decide⟩).val :=
  dot_S256x64_S2048x64_S256x2048_1_1_0_0_n_n.lhsIdx_val_of_single rfl i q
theorem rhs_qk_0 (i : S256x2048.Idx) (q : dot_S256x64_S2048x64_S256x2048_1_1_0_0_n_n.contr.Idx) :
    (dot_S256x64_S2048x64_S256x2048_1_1_0_0_n_n.rhsIdx i q 0).val = (i 1).val := by
  unfold DotDims.rhsIdx
  rw [dif_neg (show ¬(0 : Fin S2048x64.rank) ∈ dot_S256x64_S2048x64_S256x2048_1_1_0_0_n_n.rhsBatch by decide), dif_pos (show (0 : Fin S2048x64.rank) ∈ dot_S256x64_S2048x64_S256x2048_1_1_0_0_n_n.rhsNonContracting by decide)]
  rfl
theorem rhs_qk_1 (i : S256x2048.Idx) (q : dot_S256x64_S2048x64_S256x2048_1_1_0_0_n_n.contr.Idx) :
    (dot_S256x64_S2048x64_S256x2048_1_1_0_0_n_n.rhsIdx i q 1).val = (q ⟨0, by decide⟩).val :=
  dot_S256x64_S2048x64_S256x2048_1_1_0_0_n_n.rhsIdx_val_of_single rfl i q

/-- `q kᵀ` into the zero splat reads, at `(r, t)`, the sum over the lanes of `q r d * k t d`. -/
theorem qk_apply (x : FVec Ideal S256x64 .bf16) (y : FVec Ideal S2048x64 .bf16) (r : Fin 256) (t : Fin 2048) :
    matmul dot_S256x64_S2048x64_S256x2048_1_1_0_0_n_n none x y (constant S256x2048 .f32 0x00000000#32) (ix2 r t)
      = ∑ d : Fin 64, x (ix2 r d) * y (ix2 t d) := by
  simp only [matmul]
  rw [Ideal.matmul_constant_zero_apply, ← Equiv.sum_comp (contrEquiv1 dot_S256x64_S2048x64_S256x2048_1_1_0_0_n_n 64 rfl rfl).symm]
  refine Finset.sum_congr rfl fun k _ => ?_
  have hk := contrEquiv1_symm_val dot_S256x64_S2048x64_S256x2048_1_1_0_0_n_n 64 rfl rfl k
  have el : dot_S256x64_S2048x64_S256x2048_1_1_0_0_n_n.lhsIdx (ix2 r t) ((contrEquiv1 dot_S256x64_S2048x64_S256x2048_1_1_0_0_n_n 64 rfl rfl).symm k) = ix2 r k := funext fun a => Fin.ext (by
    match a with
    | ⟨0, _⟩ => exact lhs_qk_0 _ _
    | ⟨1, _⟩ => exact (lhs_qk_1 _ _).trans hk)
  have er : dot_S256x64_S2048x64_S256x2048_1_1_0_0_n_n.rhsIdx (ix2 r t) ((contrEquiv1 dot_S256x64_S2048x64_S256x2048_1_1_0_0_n_n 64 rfl rfl).symm k) = ix2 t k := funext fun a => Fin.ext (by
    match a with
    | ⟨0, _⟩ => exact rhs_qk_0 _ _
    | ⟨1, _⟩ => exact (rhs_qk_1 _ _).trans hk)
  rw [el, er]

theorem lhs_av_0 (i : S256x64.Idx) (q : dot_S256x2048_S2048x64_S256x64_1_0_0_1_n_n.contr.Idx) :
    (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem lhs_av_1 (i : S256x64.Idx) (q : dot_S256x2048_S2048x64_S256x64_1_0_0_1_n_n.contr.Idx) :
    (dot_S256x2048_S2048x64_S256x64_1_0_0_1_n_n.lhsIdx i q 1).val = (q ⟨0, by decide⟩).val :=
  dot_S256x2048_S2048x64_S256x64_1_0_0_1_n_n.lhsIdx_val_of_single rfl i q
theorem rhs_av_0 (i : S256x64.Idx) (q : dot_S256x2048_S2048x64_S256x64_1_0_0_1_n_n.contr.Idx) :
    (dot_S256x2048_S2048x64_S256x64_1_0_0_1_n_n.rhsIdx i q 0).val = (q ⟨0, by decide⟩).val :=
  dot_S256x2048_S2048x64_S256x64_1_0_0_1_n_n.rhsIdx_val_of_single rfl i q
theorem rhs_av_1 (i : S256x64.Idx) (q : dot_S256x2048_S2048x64_S256x64_1_0_0_1_n_n.contr.Idx) :
    (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-- `a v` into the zero splat reads, at `(r, d)`, the sum over the positions of `a r t * v t d`. -/
theorem av_apply (x : FVec Ideal S256x2048 .bf16) (y : FVec Ideal S2048x64 .bf16) (r : Fin 256) (d : Fin 64) :
    matmul dot_S256x2048_S2048x64_S256x64_1_0_0_1_n_n none x y (constant S256x64 .f32 0x00000000#32) (ix2 r d)
      = ∑ t : Fin 2048, x (ix2 r t) * y (ix2 t d) := by
  simp only [matmul]
  rw [Ideal.matmul_constant_zero_apply, ← Equiv.sum_comp (contrEquiv1 dot_S256x2048_S2048x64_S256x64_1_0_0_1_n_n 2048 rfl rfl).symm]
  refine Finset.sum_congr rfl fun k _ => ?_
  have hk := contrEquiv1_symm_val dot_S256x2048_S2048x64_S256x64_1_0_0_1_n_n 2048 rfl rfl k
  have el : dot_S256x2048_S2048x64_S256x64_1_0_0_1_n_n.lhsIdx (ix2 r d) ((contrEquiv1 dot_S256x2048_S2048x64_S256x64_1_0_0_1_n_n 2048 rfl rfl).symm k) = ix2 r k := funext fun a => Fin.ext (by
    match a with
    | ⟨0, _⟩ => exact lhs_av_0 _ _
    | ⟨1, _⟩ => exact (lhs_av_1 _ _).trans hk)
  have er : dot_S256x2048_S2048x64_S256x64_1_0_0_1_n_n.rhsIdx (ix2 r d) ((contrEquiv1 dot_S256x2048_S2048x64_S256x64_1_0_0_1_n_n 2048 rfl rfl).symm k) = ix2 k d := funext fun a => Fin.ext (by
    match a with
    | ⟨0, _⟩ => exact (rhs_av_0 _ _).trans hk
    | ⟨1, _⟩ => exact rhs_av_1 _ _)
  rw [el, er]

/-! ## A sub-head's three stretches, as functions of whole matrices -/

/-- The scaled, masked scores `q kᵀ * (1/8) + mask`. -/
def scoreMat (q : FVec Ideal S256x64 .bf16) (k : FVec Ideal S2048x64 .bf16) (m1 : FVec Ideal S256x2048 .f32) :
    FVec Ideal S256x2048 .f32 :=
  addf (mulf (matmul dot_S256x64_S2048x64_S256x2048_1_1_0_0_n_n none q k (constant S256x2048 .f32 0x00000000#32))
    (broadcast S256x2048 (Scalar.ofBits (F := Ideal) .f32 0x3E000000#32))) m1

/-- Scores less their row's maximum. -/
def shiftMat (s : FVec Ideal S256x2048 .f32) : FVec Ideal S256x2048 .f32 :=
  subf s (broadcastTo S256x2048 (shapeCast S256x1
    (multiReduction .maximumf [1] S256 s 0xFF800000#32 reduces_S256x2048_S256 (.inl rfl) rfl)
    shapeCasts_S256_S256x1) broadcasts_S256x1_S256x2048)

/-- The context of shifted scores against a value matrix: their exponentials, each divided by its row's sum, times the
    values. -/
def ctxMat (p : FVec Ideal S256x2048 .f32) (v : FVec Ideal S2048x64 .bf16) : FVec Ideal S256x64 .f32 :=
  matmul dot_S256x2048_S2048x64_S256x64_1_0_0_1_n_n none
    (truncf .bf16 (divf (exp p) (broadcastTo S256x2048 (shapeCast S256x1
      (multiReduction .add [1] S256 (exp p) 0x00000000#32 reduces_S256x2048_S256 (.inl rfl) rfl)
      shapeCasts_S256_S256x1) broadcasts_S256x1_S256x2048)) bitsLt_bf16_f32)
    v (constant S256x64 .f32 0x00000000#32)

theorem scoreMat_apply (q : FVec Ideal S256x64 .bf16) (k : FVec Ideal S2048x64 .bf16) (m1 : FVec Ideal S256x2048 .f32)
    (r : Fin 256) (t : Fin 2048) :
    scoreMat q k m1 (ix2 r t)
      = (∑ d : Fin 64, q (ix2 r d) * k (ix2 t d)) * Ideal.ofBits .f32 0x3E000000#32 + m1 (ix2 r t) :=
  congrArg (fun z => z * Ideal.ofBits .f32 0x3E000000#32 + m1 (ix2 r t)) (qk_apply q k r t)

theorem shiftMat_apply (s : FVec Ideal S256x2048 .f32) (r : Fin 256) (t : Fin 2048) :
    shiftMat s (ix2 r t)
      = s (ix2 r t) - (Finset.univ : Finset (Fin 2048)).fold max (Ideal.ofBits .f32 0xFF800000#32) (fun t' => s (ix2 r t')) :=
  congrArg (fun z => s (ix2 r t) - z) ((keepdims_apply _ _ _ r t).trans (rowmax_apply s _ _ _ r))

theorem ctxMat_apply (p : FVec Ideal S256x2048 .f32) (v : FVec Ideal S2048x64 .bf16) (r : Fin 256) (d : Fin 64) :
    ctxMat p v (ix2 r d)
      = ∑ t : Fin 2048, Ideal.div (Ideal.exp (p (ix2 r t))) (∑ t' : Fin 2048, Ideal.exp (p (ix2 r t'))) * v (ix2 t d) := by
  refine (av_apply _ v r d).trans (Finset.sum_congr rfl fun t _ => ?_)
  exact congrArg (fun z => Ideal.div (Ideal.exp (p (ix2 r t))) z * v (ix2 t d))
    ((keepdims_apply _ _ _ r t).trans (rowsum_apply (exp p) _ _ _ r))

/-- The three stretches in a row are the head function of the matrices' rows. -/
theorem head_apply (q : FVec Ideal S256x64 .bf16) (k v : FVec Ideal S2048x64 .bf16) (m1 : FVec Ideal S256x2048 .f32)
    (r : Fin 256) (d : Fin 64) :
    ctxMat (shiftMat (scoreMat q k m1)) v (ix2 r d)
      = Cert.Attn.headCtx (fun d' => q (ix2 r d')) (fun t d' => k (ix2 t d')) (fun t d' => v (ix2 t d'))
          (fun t => m1 (ix2 r t)) d := by
  simp only [ctxMat_apply, shiftMat_apply, scoreMat_apply, Cert.Attn.headCtx, Cert.Attn.weight, Cert.Attn.denom,
    Cert.Attn.expo, Cert.Attn.top, Cert.Attn.score]

/-! ## Lanes -/

/-- Lane `j*64 + d` of a head pair's 128 lanes. -/
def lane (j : Fin 2) (d : Fin 64) : Fin 128 := ⟨j.val * 64 + d.val, by have := j.isLt; have := d.isLt; omega⟩

theorem lane_val (j : Fin 2) (d : Fin 64) : (lane j d).val = j.val * 64 + d.val := rfl

/-- Sub-head `j`'s 64 lanes of a `[1, n, 128]` block, cut from its `[n, 128]` cast at lane offset `j*64`, read
    `(t, d)` at `(0, t, j*64 + d)` of the block. -/
theorem lanes_apply {α : Type} {n : Nat} (o : Nat) (j : Fin 2) (ho : o = j.val * 64)
    (x : (⟨3, ![1, n, 128]⟩ : Shape).Idx → α) (hc : (⟨3, ![1, n, 128]⟩ : Shape).ShapeCasts ⟨2, ![n, 128]⟩)
    (h : (⟨2, ![n, 128]⟩ : Shape).Slices ![0, o] ⟨2, ![n, 64]⟩) (t : Fin n) (d : Fin 64) :
    extractStridedSlice ⟨2, ![n, 64]⟩ ![0, o] (shapeCast ⟨2, ![n, 128]⟩ x hc) h (ix2 t d) = x (ix3 (0 : Fin 1) t (lane j d)) :=
  (slice2_axis1_apply o _ h t d (lane j d) (by rw [lane_val, ho])).trans (shapeCast_1ab_ab_apply x hc t (lane j d))

/-- Two `[256, 64]` matrices side by side along the lanes: lane `d` of the pair reads the first, … -/
theorem sideBySide_left {α : Type} (x y : S256x64.Idx → α) (h : Shape.Concatenates [S256x64, S256x64] S256x128 1)
    (r : Fin 256) (d : Fin 64) :
    concatenate S256x128 1 [⟨S256x64, x⟩, ⟨S256x64, y⟩] h (ix2 r (lane 0 d)) = x (ix2 r d) := by
  refine concatenate_pair_apply_left (1 : Fin S256x128.rank) x y h (ix2 r (lane 0 d)) rfl (ix2 r d) fun b => ?_
  match b with
  | ⟨0, _⟩ => rfl
  | ⟨1, _⟩ => show d.val = 0 * 64 + d.val; omega

/-- … lane `64 + d` the second. -/
theorem sideBySide_right {α : Type} (x y : S256x64.Idx → α) (h : Shape.Concatenates [S256x64, S256x64] S256x128 1)
    (r : Fin 256) (d : Fin 64) :
    concatenate S256x128 1 [⟨S256x64, x⟩, ⟨S256x64, y⟩] h (ix2 r (lane 1 d)) = y (ix2 r d) := by
  refine concatenate_pair_apply_right (1 : Fin S256x128.rank) x y h (ix2 r (lane 1 d)) rfl rfl (ix2 r d) (fun b hb => ?_) ?_
  · match b with
    | ⟨0, _⟩ => rfl
    | ⟨1, _⟩ => exact absurd rfl hb
  · show d.val + 64 = 1 * 64 + d.val
    omega

/-! ## The payloads -/

/-- Sub-head `j`'s three stretches on its lanes of the trip's blocks are the head function of those lanes. -/
theorem sub_apply (o : Nat) (j : Fin 2) (ho : o = j.val * 64) (m1 : FVec Ideal S256x2048 .f32)
    (v20 : Vec Ideal S1x256x128 .bf16) (v23 v26 : Vec Ideal S1x2048x128 .bf16)
    (hq : S256x128.Slices ![0, o] S256x64) (hk : S2048x128.Slices ![0, o] S2048x64) (r : Fin 256) (d : Fin 64) :
    ctxMat (shiftMat (scoreMat (extractStridedSlice S256x64 ![0, o] (k1_pay4 v20) hq)
        (extractStridedSlice S2048x64 ![0, o] (k1_pay5 v23) hk) m1))
      (extractStridedSlice S2048x64 ![0, o] (k1_pay6 v26) hk) (ix2 r d)
      = Cert.Attn.headCtx (fun d' => v20 (ix3 0 r (lane j d'))) (fun t d' => v23 (ix3 0 t (lane j d')))
          (fun t d' => v26 (ix3 0 t (lane j d'))) (fun t => m1 (ix2 r t)) d := by
  have eq : (fun d' => extractStridedSlice S256x64 ![0, o] (k1_pay4 v20) hq (ix2 r d'))
      = fun d' => v20 (ix3 0 r (lane j d')) := funext fun d' => lanes_apply o j ho v20 _ hq r d'
  have ek : (fun t d' => extractStridedSlice S2048x64 ![0, o] (k1_pay5 v23) hk (ix2 t d'))
      = fun t d' => v23 (ix3 0 t (lane j d')) := funext fun t => funext fun d' => lanes_apply o j ho v23 _ hk t d'
  have ev : (fun t d' => extractStridedSlice S2048x64 ![0, o] (k1_pay6 v26) hk (ix2 t d'))
      = fun t d' => v26 (ix3 0 t (lane j d')) := funext fun t => funext fun d' => lanes_apply o j ho v26 _ hk t d'
  rw [head_apply, eq, ek, ev]

/-- Sub-head 0's context is the three stretches on lanes 0 to 63. -/
theorem pay7_eq (m1 : FVec Ideal S256x2048 .f32) (v20 : Vec Ideal S1x256x128 .bf16) (v23 v26 : Vec Ideal S1x2048x128 .bf16) :
    k1_pay7 (F := Ideal) m1 v20 v23 v26
      = ctxMat (shiftMat (scoreMat (extractStridedSlice S256x64 ![0, 0] (k1_pay4 v20) slices_S256x128_o0_0_S256x64)
          (extractStridedSlice S2048x64 ![0, 0] (k1_pay5 v23) slices_S2048x128_o0_0_S2048x64) m1))
        (extractStridedSlice S2048x64 ![0, 0] (k1_pay6 v26) slices_S2048x128_o0_0_S2048x64) := rfl

/-- Sub-head 1's shifted scores are the first two stretches on lanes 64 to 127. -/
theorem pay9_eq (m1 : FVec Ideal S256x2048 .f32) (v20 : Vec Ideal S1x256x128 .bf16) (v23 : Vec Ideal S1x2048x128 .bf16) :
    k1_pay9 (F := Ideal) m1 v20 v23
      = shiftMat (scoreMat (extractStridedSlice S256x64 ![0, 64] (k1_pay4 v20) slices_S256x128_o0_64_S256x64)
          (extractStridedSlice S2048x64 ![0, 64] (k1_pay5 v23) slices_S2048x128_o0_64_S2048x64) m1) := rfl

/-- The trip's stored block: sub-head 0's context beside the third stretch of sub-head 1. -/
theorem pay2_eq (v45 : FVec Ideal S256x64 .f32) (v48 : FVec Ideal S2048x64 .bf16) (v56 : FVec Ideal S256x2048 .f32) :
    k1_pay2 (F := Ideal) v45 v48 v56
      = shapeCast S256x128 (concatenate S256x128 1 [⟨S256x64, v45⟩, ⟨S256x64, ctxMat v56 v48⟩]
          concatenates_S256x64_S256x64_S256x128_d1) shapeCasts_S256x128_S256x128 := rfl

/-- Lane `j*64 + d` of row `r` of what a trip stores is the head function of sub-head `j`'s lanes of the trip's query,
    key and value blocks and row `r` of the mask. -/
theorem pair_apply (m1 : FVec Ideal S256x2048 .f32) (v20 : Vec Ideal S1x256x128 .bf16)
    (v23 v26 : Vec Ideal S1x2048x128 .bf16) (r : Fin 256) (j : Fin 2) (d : Fin 64) :
    k1_pay2 (F := Ideal) (k1_pay7 m1 v20 v23 v26) (k1_pay8 v26) (k1_pay9 m1 v20 v23) (ix2 r (lane j d))
      = Cert.Attn.headCtx (fun d' => v20 (ix3 0 r (lane j d'))) (fun t d' => v23 (ix3 0 t (lane j d')))
          (fun t d' => v26 (ix3 0 t (lane j d'))) (fun t => m1 (ix2 r t)) d := by
  rw [pay2_eq, shapeCast_self]
  match j with
  | 0 =>
    refine (sideBySide_left _ _ _ r d).trans ?_
    rw [pay7_eq]
    exact sub_apply 0 0 rfl m1 v20 v23 v26 _ _ r d
  | 1 =>
    refine (sideBySide_right _ _ _ r d).trans ?_
    rw [pay9_eq]
    exact sub_apply 64 1 rfl m1 v20 v23 v26 _ _ r d
  | ⟨_ + 2, h⟩ => exact absurd h (by omega)

/-- The mask block `[1, 256, 2048]` read as a matrix. -/
theorem mask_apply (v0 : Vec Ideal S1x256x2048 .f32) (r : Fin 256) (s : Fin 2048) :
    k1_pay1 (F := Ideal) v0 (ix2 r s) = v0 (ix3 0 r s) :=
  shapeCast_1ab_ab_apply v0 _ r s

end Cert.KernelIdeal.Pay

end
-- ==== Proof.ScratchValue.lean ====
/-
  The context scratch after the head loop, read at an index. At row `r` and column `c` it holds head `c / 64`'s
  context at lane `c % 64`: trip `c / 128` stored the pair of heads `2 (c / 128)`, `2 (c / 128) + 1`, the second half of
  its 128 lanes being the odd head, and each trip read lanes `128 (c / 128) …` of the query, key and value blocks, which
  are that head's 64 columns `(c / 64) * 64 …` of the blocks.
-/
import proofs.«409499_j57698590654770_3_alg».proof.Proof.Trip
import proofs.«409499_j57698590654770_3_alg».proof.Proof.PayAttn
import proofs.«409499_j57698590654770_3_alg».proof.Proof.Spec
import Idealize.ShloMosaic.Lib.Pipeline.Value
import Idealize.ShloMosaic.Lib.ValueIdx

set_option maxRecDepth 16384

noncomputable section

namespace Cert.KernelIdeal.KV

open Cert.KernelIdeal Cert.KernelIdeal.Gen Cert.KernelIdeal.Pay
open Idealize.ShloMosaic Idealize.ShloMosaic.TcCoe Idealize.ShloMosaic.ValueIdx
open Idealize.SL Idealize.SL.Sem

theorem hz3 : (![0, 0, 0] : Fin 3 → Nat) = fun _ => 0 := funext fun a => by fin_cases a <;> rfl
theorem hz2 : (![0, 0] : Fin 2 → Nat) = fun _ => 0 := funext fun a => by fin_cases a <;> rfl

/-- A trip's number is below 8. -/
theorem trip_lt (k : Fin k1_t1_loop.trips) : k.val < 8 := lt_of_lt_of_eq k.isLt trips_eq

section

variable (arg2 : Memref sig .tc .vmem S1x256x1024 .bf16) (harg2 : arg2.IsWhole) (arg3 : Memref sig .tc .vmem S1x2048x1024 .bf16) (harg3 : arg3.IsWhole)
  (arg4 : Memref sig .tc .vmem S1x2048x1024 .bf16) (harg4 : arg4.IsWhole) (arg5 : Memref sig .tc .vmem S1x256x2048 .f32) (harg5 : arg5.IsWhole)
  (x0 : Vec Ideal S1x256x1024 .bf16) (x1 x2 : Vec Ideal S1x2048x1024 .bf16) (x3 : Vec Ideal S1x256x2048 .f32)

/-- The mask block, loaded whole from a whole staging buffer holding `x3`, is `x3`. -/
theorem maskLoad_eq :
    View.readAt (Elt Ideal) arg5.view (Rect.unit (s := S1x256x2048) ![0, 0, 0] S1x256x2048.size inb_S1x256x2048_S1x256x2048_0_0_0).toLoadRect
      (harg5.unread x3) = x3 := by
  rw [View.readAt_eq_ld, harg5.read_unread, View.ld_unit_zero (S := S1x256x2048) hz3]

/-- Trip `k`'s query lanes at `(r, l)` are the query block at `(r, 128 k + l)`. -/
theorem qBlk_apply (k : Fin k1_t1_loop.trips) (r : Fin 256) (l : Fin 128) :
    qBlk (F := Ideal) arg2 (harg2.unread x0) k (ix3 0 r l)
      = x0 (ix3 0 r ⟨128 * k.val + l.val, by have := trip_lt k; have := l.isLt; omega⟩) := by
  show arg2.view.read (Elt Ideal) (harg2.unread x0) _ = _
  rw [harg2.read_unread]
  refine congrArg x0 (funext fun a => Fin.ext ?_)
  have e := k1_off1_eq k
  match a with
  | ⟨0, _⟩ => show k1_off1 k 0 + 1 * 0 = 0; rw [e]; rfl
  | ⟨1, _⟩ => show k1_off1 k 1 + 1 * r.val = r.val; rw [e]; show 0 + 1 * r.val = r.val; omega
  | ⟨2, _⟩ => show k1_off1 k 2 + 1 * l.val = 128 * k.val + l.val; rw [e]; show 128 * k.val + 1 * l.val = _; omega

/-- Trip `k`'s key lanes at `(s, l)` are the key block at `(s, 128 k + l)`. -/
theorem kBlk_apply (k : Fin k1_t1_loop.trips) (s : Fin 2048) (l : Fin 128) :
    kBlk (F := Ideal) arg3 (harg3.unread x1) k (ix3 0 s l)
      = x1 (ix3 0 s ⟨128 * k.val + l.val, by have := trip_lt k; have := l.isLt; omega⟩) := by
  show arg3.view.read (Elt Ideal) (harg3.unread x1) _ = _
  rw [harg3.read_unread]
  refine congrArg x1 (funext fun a => Fin.ext ?_)
  have e := k1_off2_eq k
  match a with
  | ⟨0, _⟩ => show k1_off2 k 0 + 1 * 0 = 0; rw [e]; rfl
  | ⟨1, _⟩ => show k1_off2 k 1 + 1 * s.val = s.val; rw [e]; show 0 + 1 * s.val = s.val; omega
  | ⟨2, _⟩ => show k1_off2 k 2 + 1 * l.val = 128 * k.val + l.val; rw [e]; show 128 * k.val + 1 * l.val = _; omega

/-- Trip `k`'s value lanes at `(s, l)` are the value block at `(s, 128 k + l)`. -/
theorem vBlk_apply (k : Fin k1_t1_loop.trips) (s : Fin 2048) (l : Fin 128) :
    vBlk (F := Ideal) arg4 (harg4.unread x2) k (ix3 0 s l)
      = x2 (ix3 0 s ⟨128 * k.val + l.val, by have := trip_lt k; have := l.isLt; omega⟩) := by
  show arg4.view.read (Elt Ideal) (harg4.unread x2) _ = _
  rw [harg4.read_unread]
  refine congrArg x2 (funext fun a => Fin.ext ?_)
  have e := k1_off2_eq k
  match a with
  | ⟨0, _⟩ => show k1_off2 k 0 + 1 * 0 = 0; rw [e]; rfl
  | ⟨1, _⟩ => show k1_off2 k 1 + 1 * s.val = s.val; rw [e]; show 0 + 1 * s.val = s.val; omega
  | ⟨2, _⟩ => show k1_off2 k 2 + 1 * l.val = 128 * k.val + l.val; rw [e]; show 128 * k.val + 1 * l.val = _; omega

/-- THE SCRATCH AT `(r, c)`: head `c / 64`'s context at lane `c % 64`, of the row's queries, the keys, the values and the
    row's mask. -/
theorem scratchFn_apply (r : Fin 256) (c : Fin 1024) :
    scratchFn (F := Ideal) arg2 arg3 arg4
        (View.readAt (Elt Ideal) arg5.view
          (Rect.unit (s := S1x256x2048) ![0, 0, 0] S1x256x2048.size inb_S1x256x2048_S1x256x2048_0_0_0).toLoadRect (harg5.unread x3))
        (harg2.unread x0) (harg3.unread x1) (harg4.unread x2) (ix2 r c)
      = Cert.Attn.headCtx (fun d => x0 (ix3 0 r (Cert.Attn.hcol (Cert.Attn.headOf c) d)))
          (fun s d => x1 (ix3 0 s (Cert.Attn.hcol (Cert.Attn.headOf c) d)))
          (fun s d => x2 (ix3 0 s (Cert.Attn.hcol (Cert.Attn.headOf c) d))) (fun s => x3 (ix3 0 r s)) (Cert.Attn.laneOf c) := by
  have hc := c.isLt
  rw [maskLoad_eq]
  unfold scratchFn
  let k : Fin k1_t1_loop.trips := ⟨c.val / 128, by rw [trips_eq]; omega⟩
  let j : Fin 2 := ⟨c.val % 128 / 64, by omega⟩
  refine (tripPay_congr (F := Ideal) arg2 arg3 arg4 x3 (harg2.unread x0) (harg3.unread x1) (harg4.unread x2)
    (k := k) (Fin.ext rfl) (x := ix2 r (lane j (Cert.Attn.laneOf c))) (funext fun a => Fin.ext ?_)).trans ?_
  · match a with
    | ⟨0, _⟩ => rfl
    | ⟨1, _⟩ => show c.val % 128 = (c.val % 128 / 64) * 64 + c.val % 64; omega
  · unfold tripPay
    rw [pair_apply]
    have hcol : ∀ d : Fin 64, 128 * k.val + (lane j d).val = (Cert.Attn.hcol (Cert.Attn.headOf c) d).val := fun d => by
      show 128 * (c.val / 128) + ((c.val % 128 / 64) * 64 + d.val) = (c.val / 64) * 64 + d.val
      omega
    congr 1
    · funext d
      rw [qBlk_apply]; exact congrArg x0 (congrArg (ix3 0 r) (Fin.ext (hcol d)))
    · funext s d
      rw [kBlk_apply]; exact congrArg x1 (congrArg (ix3 0 s) (Fin.ext (hcol d)))
    · funext s d
      rw [vBlk_apply]; exact congrArg x2 (congrArg (ix3 0 s) (Fin.ext (hcol d)))
    · funext s
      exact mask_apply x3 r s

end

end Cert.KernelIdeal.KV

end
-- ==== Proof.Region1Block.lean ====
/-
  What the attention kernel's body leaves in its output block, index by index: row `r`, column `e` of the block is the
  output projection of the row's sixteen head contexts — `rowOut` of the row's queries (the query block's row), the
  keys and values (the key and value blocks' rows), the row's mask, the output matrix and its bias.
-/
import proofs.«409499_j57698590654770_3_alg».proof.Proof.KIFrame
import proofs.«409499_j57698590654770_3_alg».proof.Proof.ScratchValue
import proofs.«409499_j57698590654770_3_alg».proof.Proof.PayProj
import proofs.«409499_j57698590654770_3_alg».proof.Proof.Spec
import Idealize.ShloMosaic.Lib.Pipeline.Value
import Idealize.ShloMosaic.Lib.ValueIdx

set_option maxRecDepth 16384

noncomputable section

namespace Cert.KernelIdeal.KV

open Cert.KernelIdeal Cert.KernelIdeal.Gen Cert.KernelIdeal.GenP Cert.KernelIdeal.Pay
open Idealize.ShloMosaic Idealize.ShloMosaic.TcCoe Idealize.ShloMosaic.Tactic Idealize.ShloMosaic.ValueIdx
open Idealize.SL Idealize.SL.Sem

/-- The whole scratch, as a box to load, places an index at itself. -/
theorem wholeScratch_idx (y : S256x1024.Idx) :
    (Rect.unit (s := S256x1024) ![0, 0] S256x1024.size inb_S256x1024_S256x1024_0_0).toLoadRect.idx y = y := by
  funext a
  apply Fin.ext
  match a with
  | ⟨0, _⟩ => show 0 + 1 * (y 0).val = (y 0).val; omega
  | ⟨1, _⟩ => show 0 + 1 * (y 1).val = (y 1).val; omega

set_option maxHeartbeats 1000000 in
/-- THE OUTPUT BLOCK at `(0, r, e)`. -/
theorem out1_apply (c : Dev nD) (i : grid1.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x2048 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x1024 .f32) (harg9 : arg9.IsWhole)
    (x0 : Vec Ideal S1x256x1024 .bf16) (x1 x2 : Vec Ideal S1x2048x1024 .bf16) (x3 : Vec Ideal S1x256x2048 .f32)
    (x4 : Vec Ideal S1024x1024 .bf16) (x5 : Vec Ideal S1x1024 .f32) (r : Fin 256) (e : Fin 1024) :
    out1_A_6 (F := Ideal) c i arg2 harg2 arg3 harg3 arg4 harg4 arg5 harg5 arg6 harg6 arg7 harg7 arg8 harg8 arg9 harg9 x0 x1 x2 x3 x4 x5 (ix3 0 r e)
      = Cert.Attn.rowOut (fun h d => x0 (ix3 0 r (Cert.Attn.hcol h d))) (fun h s d => x1 (ix3 0 s (Cert.Attn.hcol h d)))
          (fun h s d => x2 (ix3 0 s (Cert.Attn.hcol h d))) (fun s => x3 (ix3 0 r s)) (fun c' e' => x4 (ix2 c' e'))
          (fun e' => x5 (ix2 0 e')) e := by
  unfold out1_A_6
  rw [View.read_writes_eq_canon _ _ _ (cover1_A_6 c i arg2 harg2 arg3 harg3 arg4 harg4 arg5 harg5 arg6 harg6 arg7 harg7 arg8 harg8 arg9 harg9 x0 x1 x2 x3 x4 x5)]
  unfold kernelRun1_A
  dsimp only
  rw [View.canon_unit_zero hz3]
  have hwo : View.readAt (Elt Ideal) arg6.view
      (Rect.unit (s := S1024x1024) ![0, 0] S1024x1024.size inb_S1024x1024_S1024x1024_0_0).toLoadRect (harg6.unread x4) = x4 := by
    rw [View.readAt_eq_ld, harg6.read_unread, View.ld_unit_zero (S := S1024x1024) hz2]
  have hbo : View.readAt (Elt Ideal) arg7.view
      (Rect.unit (s := S1x1024) ![0, 0] S1x1024.size inb_S1x1024_S1x1024_0_0).toLoadRect (harg7.unread x5) = x5 := by
    rw [View.readAt_eq_ld, harg7.read_unread, View.ld_unit_zero (S := S1x1024) hz2]
  rw [hwo, hbo, outproj_apply]
  unfold Cert.Attn.rowOut
  refine congrArg (· + x5 (ix2 0 e)) (Finset.sum_congr rfl fun c' _ => ?_)
  refine congrArg (· * x4 (ix2 c' e)) ?_
  show scratchFn (F := Ideal) arg2 arg3 arg4 _ (harg2.unread x0) (harg3.unread x1) (harg4.unread x2)
      ((Rect.unit (s := S256x1024) ![0, 0] S256x1024.size inb_S256x1024_S256x1024_0_0).toLoadRect.idx (ix2 r c')) = _
  rw [wholeScratch_idx, scratchFn_apply]

end Cert.KernelIdeal.KV

end
-- ==== Proof.Region1.lean ====
/-
  The attention region at the level of arrays: after the region its output array is, index by index, the row function
  `rowOut` of the arrays the region finds at its entry.

  The region's grid has sixteen points; point `t` works on batch element `t / 8` and on the tile of 256 query rows
  number `t % 8`. At that point the query block and the mask block are rows `(t % 8) * 256 + r` of batch element `t / 8`,
  the key and value blocks are all 2048 rows of that batch element, the output matrix and its bias are whole, and the
  output block is written back to rows `(t % 8) * 256 + r` of batch element `t / 8`. The body leaves `rowOut` of its
  blocks in the output block, so what point `t` writes back is its block of ONE function of the entry arrays; every row
  `(b, tt)` of the output is in the block of point `b * 8 + tt / 256`, so the array ends holding that function.
-/
import proofs.«409499_j57698590654770_3_alg».proof.Proof.KIFrame
import proofs.«409499_j57698590654770_3_alg».proof.Proof.Region1Block
import proofs.«409499_j57698590654770_3_alg».proof.Proof.Spec
import Idealize.ShloMosaic.Lib.Pipeline.Value
import Idealize.ShloMosaic.Lib.ValueIdx

set_option maxRecDepth 16384

noncomputable section

namespace Cert.KernelIdeal.KV.Out

open Cert.KernelIdeal Cert.KernelIdeal.Gen Cert.KernelIdeal.GenP Idealize.ShloMosaic Idealize.ShloMosaic.TcCoe
  Idealize.ShloMosaic.ValueIdx Idealize.SL.Sem
open Idealize.ShloMosaic.Pipeline (Dat)

variable (V : (c : Dev nD) → (b : Ref sig .tc) → Buf (Elt Ideal) ((c : Thread nD τ).loc b))

/-! ## The grid's points and the windows' block indices -/

theorem lt16 (t : Fin cfg1.N) : t.val < 16 := by
  exact Nat.lt_of_lt_of_eq t.isLt N_1

/-- The printed index maps, decided over the grid: the query, mask and output blocks are at `(t / 8, t % 8, 0)`, the key
    and value blocks at `(t / 8, 0, 0)`, the output matrix and its bias at the origin. -/
theorem idx_facts : ∀ t : Fin cfg1.N,
    (win1_0.index t (0 : Fin 3) = t.val / 8 ∧ win1_0.index t (1 : Fin 3) = t.val % 8 ∧ win1_0.index t (2 : Fin 3) = 0)
    ∧ (win1_1.index t (0 : Fin 3) = t.val / 8 ∧ win1_1.index t (1 : Fin 3) = 0 ∧ win1_1.index t (2 : Fin 3) = 0)
    ∧ (win1_2.index t (0 : Fin 3) = t.val / 8 ∧ win1_2.index t (1 : Fin 3) = 0 ∧ win1_2.index t (2 : Fin 3) = 0)
    ∧ (win1_3.index t (0 : Fin 3) = t.val / 8 ∧ win1_3.index t (1 : Fin 3) = t.val % 8 ∧ win1_3.index t (2 : Fin 3) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 3) = t.val / 8 ∧ win1_6.index t (1 : Fin 3) = t.val % 8 ∧ win1_6.index t (2 : Fin 3) = 0) :=
  (by decide +kernel : ∀ t : Fin grid1.N, _)

/-- The batch element of a grid point. -/
def ptB (t : Fin cfg1.N) : Fin 2 := ⟨t.val / 8, by have := lt16 t; omega⟩
/-- Row `r` of a grid point's tile, as a row of the batch element. -/
def ptRow (t : Fin cfg1.N) (r : Fin 256) : Fin 2048 := ⟨t.val % 8 * 256 + r.val, by have := r.isLt; omega⟩

theorem ptB_val (t : Fin cfg1.N) : (ptB t).val = t.val / 8 := rfl
theorem ptRow_val (t : Fin cfg1.N) (r : Fin 256) : (ptRow t r).val = t.val % 8 * 256 + r.val := rfl

/-! ## The input blocks, read where the windows' rectangles say -/

/-- The query block at `(0, r, cc)`: row `(t % 8) * 256 + r` of batch element `t / 8`. -/
theorem q_blk (c : Dev nD) (t : Fin cfg1.N) (r : Fin 256) (cc : Fin 1024) :
    (iblk1 V c 0 t : Vec Ideal S1x256x1024 .bf16) (ix3 0 r cc)
      = (V c main_v15 : S2x2048x1024.Idx → EReal) (ix3 (ptB t) (ptRow t r) cc) := by
  obtain ⟨⟨e0, e1, e2⟩, -⟩ := idx_facts t
  unfold iblk1
  rw [View.read_apply]
  show (V c main_v15 : S2x2048x1024.Idx → EReal) _ = (V c main_v15 : S2x2048x1024.Idx → EReal) _
  congr 1
  funext a
  apply Fin.ext
  match a with
  | ⟨0, _⟩ => show win1_0.index t (0 : Fin 3) * 1 + 1 * 0 = t.val / 8; rw [e0]; omega
  | ⟨1, _⟩ => show win1_0.index t (1 : Fin 3) * 256 + 1 * r.val = t.val % 8 * 256 + r.val; rw [e1]; omega
  | ⟨2, _⟩ => show win1_0.index t (2 : Fin 3) * 1024 + 1 * cc.val = cc.val; rw [e2]; omega

/-- The key block at `(0, s, cc)`: row `s` of batch element `t / 8`. -/
theorem k_blk (c : Dev nD) (t : Fin cfg1.N) (s : Fin 2048) (cc : Fin 1024) :
    (iblk1 V c 1 t : Vec Ideal S1x2048x1024 .bf16) (ix3 0 s cc)
      = (V c main_v16 : S2x2048x1024.Idx → EReal) (ix3 (ptB t) s cc) := by
  obtain ⟨-, ⟨e0, e1, e2⟩, -⟩ := idx_facts t
  unfold iblk1
  rw [View.read_apply]
  show (V c main_v16 : S2x2048x1024.Idx → EReal) _ = (V c main_v16 : S2x2048x1024.Idx → EReal) _
  congr 1
  funext a
  apply Fin.ext
  match a with
  | ⟨0, _⟩ => show win1_1.index t (0 : Fin 3) * 1 + 1 * 0 = t.val / 8; rw [e0]; omega
  | ⟨1, _⟩ => show win1_1.index t (1 : Fin 3) * 2048 + 1 * s.val = s.val; rw [e1]; omega
  | ⟨2, _⟩ => show win1_1.index t (2 : Fin 3) * 1024 + 1 * cc.val = cc.val; rw [e2]; omega

/-- The value block at `(0, s, cc)`: row `s` of batch element `t / 8`. -/
theorem v_blk (c : Dev nD) (t : Fin cfg1.N) (s : Fin 2048) (cc : Fin 1024) :
    (iblk1 V c 2 t : Vec Ideal S1x2048x1024 .bf16) (ix3 0 s cc)
      = (V c main_v17 : S2x2048x1024.Idx → EReal) (ix3 (ptB t) s cc) := by
  obtain ⟨-, -, ⟨e0, e1, e2⟩, -⟩ := idx_facts t
  unfold iblk1
  rw [View.read_apply]
  show (V c main_v17 : S2x2048x1024.Idx → EReal) _ = (V c main_v17 : S2x2048x1024.Idx → EReal) _
  congr 1
  funext a
  apply Fin.ext
  match a with
  | ⟨0, _⟩ => show win1_2.index t (0 : Fin 3) * 1 + 1 * 0 = t.val / 8; rw [e0]; omega
  | ⟨1, _⟩ => show win1_2.index t (1 : Fin 3) * 2048 + 1 * s.val = s.val; rw [e1]; omega
  | ⟨2, _⟩ => show win1_2.index t (2 : Fin 3) * 1024 + 1 * cc.val = cc.val; rw [e2]; omega

/-- The mask block at `(0, r, s)`: row `(t % 8) * 256 + r` of batch element `t / 8`. -/
theorem m_blk (c : Dev nD) (t : Fin cfg1.N) (r : Fin 256) (s : Fin 2048) :
    (iblk1 V c 3 t : Vec Ideal S1x256x2048 .f32) (ix3 0 r s)
      = (V c main_arg1 : S2x2048x2048.Idx → EReal) (ix3 (ptB t) (ptRow t r) s) := by
  obtain ⟨-, -, -, ⟨e0, e1, e2⟩, -⟩ := idx_facts t
  unfold iblk1
  rw [View.read_apply]
  show (V c main_arg1 : S2x2048x2048.Idx → EReal) _ = (V c main_arg1 : S2x2048x2048.Idx → EReal) _
  congr 1
  funext a
  apply Fin.ext
  match a with
  | ⟨0, _⟩ => show win1_3.index t (0 : Fin 3) * 1 + 1 * 0 = t.val / 8; rw [e0]; omega
  | ⟨1, _⟩ => show win1_3.index t (1 : Fin 3) * 256 + 1 * r.val = t.val % 8 * 256 + r.val; rw [e1]; omega
  | ⟨2, _⟩ => show win1_3.index t (2 : Fin 3) * 2048 + 1 * s.val = s.val; rw [e2]; omega

/-- The output matrix's block is the whole matrix. -/
theorem wo_blk (c : Dev nD) (t : Fin cfg1.N) (c' : Fin 1024) (e' : Fin 1024) :
    (iblk1 V c 4 t : Vec Ideal S1024x1024 .bf16) (ix2 c' e')
      = (V c main_v11 : S1024x1024.Idx → EReal) (ix2 c' e') := by
  obtain ⟨-, -, -, -, ⟨e0, e1⟩, -⟩ := idx_facts t
  unfold iblk1
  rw [View.read_apply]
  show (V c main_v11 : S1024x1024.Idx → EReal) _ = (V c main_v11 : S1024x1024.Idx → EReal) _
  congr 1
  funext a
  apply Fin.ext
  match a with
  | ⟨0, _⟩ => show win1_4.index t (0 : Fin 2) * 1024 + 1 * c'.val = c'.val; rw [e0]; omega
  | ⟨1, _⟩ => show win1_4.index t (1 : Fin 2) * 1024 + 1 * e'.val = e'.val; rw [e1]; omega

/-- The bias row's block is the whole row. -/
theorem bo_blk (c : Dev nD) (t : Fin cfg1.N) (e' : Fin 1024) :
    (iblk1 V c 5 t : Vec Ideal S1x1024 .f32) (ix2 0 e')
      = (V c main_v18 : S1x1024.Idx → EReal) (ix2 0 e') := by
  obtain ⟨-, -, -, -, -, ⟨e0, e1⟩, -⟩ := idx_facts t
  unfold iblk1
  rw [View.read_apply]
  show (V c main_v18 : S1x1024.Idx → EReal) _ = (V c main_v18 : S1x1024.Idx → EReal) _
  congr 1
  funext a
  apply Fin.ext
  match a with
  | ⟨0, _⟩ => show win1_5.index t (0 : Fin 2) * 1 + 1 * 0 = 0; rw [e0]
  | ⟨1, _⟩ => show win1_5.index t (1 : Fin 2) * 1024 + 1 * e'.val = e'.val; rw [e1]; omega

/-! ## The function the output array ends holding -/

/-- Row `(b, t)` of the result, column `e`: `rowOut` of the row's queries, its batch element's keys and values, the
    row's mask, the output matrix and its bias, all as the region finds them. -/
def outFn (c : Dev nD) (b : Fin 2) (t : Fin 2048) (e : Fin 1024) : EReal :=
  Cert.Attn.rowOut (fun h d => (V c main_v15 : S2x2048x1024.Idx → EReal) (ix3 b t (Cert.Attn.hcol h d)))
    (fun h s d => (V c main_v16 : S2x2048x1024.Idx → EReal) (ix3 b s (Cert.Attn.hcol h d)))
    (fun h s d => (V c main_v17 : S2x2048x1024.Idx → EReal) (ix3 b s (Cert.Attn.hcol h d)))
    (fun s => (V c main_arg1 : S2x2048x2048.Idx → EReal) (ix3 b t s))
    (fun c' e' => (V c main_v11 : S1024x1024.Idx → EReal) (ix2 c' e'))
    (fun e' => (V c main_v18 : S1x1024.Idx → EReal) (ix2 0 e')) e

/-- The same as one array. -/
def outArr (c : Dev nD) : S2x2048x1024.Idx → EReal := fun i => outFn V c (i 0) (i 1) (i 2)

theorem outArr_apply (c : Dev nD) (b : Fin 2) (t : Fin 2048) (e : Fin 1024) :
    outArr V c (ix3 b t e) = outFn V c b t e := rfl

/-- `rowOut` of equal rows is equal. -/
theorem rowOut_congr {q q' : Fin 16 → Fin 64 → EReal} {k k' v v' : Fin 16 → Fin 2048 → Fin 64 → EReal}
    {mr mr' : Fin 2048 → EReal} {Wo Wo' : Fin 1024 → Fin 1024 → EReal} {bo bo' : Fin 1024 → EReal}
    (hq : ∀ h d, q h d = q' h d) (hk : ∀ h s d, k h s d = k' h s d) (hv : ∀ h s d, v h s d = v' h s d)
    (hm : ∀ s, mr s = mr' s) (hW : ∀ a b, Wo a b = Wo' a b) (hb : ∀ a, bo a = bo' a) (e : Fin 1024) :
    Cert.Attn.rowOut q k v mr Wo bo e = Cert.Attn.rowOut q' k' v' mr' Wo' bo' e := by
  obtain rfl : q = q' := funext fun h => funext fun d => hq h d
  obtain rfl : k = k' := funext fun h => funext fun s => funext fun d => hk h s d
  obtain rfl : v = v' := funext fun h => funext fun s => funext fun d => hv h s d
  obtain rfl : mr = mr' := funext hm
  obtain rfl : Wo = Wo' := funext fun a => funext fun b => hW a b
  obtain rfl : bo = bo' := funext hb
  rfl

/-! ## What a point writes back -/

/-- The output block's index `(0, r, e)` at point `t` is the array's index `(t / 8, (t % 8) * 256 + r, e)`. -/
theorem out_emb (t : Fin cfg1.N) (r : Fin 256) (e : Fin 1024) :
    ((cfg1.win 6).blk t).view.emb (ix3 (0 : Fin 1) r e) = (ix3 (ptB t) (ptRow t r) e : S2x2048x1024.Idx) := by
  obtain ⟨-, -, -, -, -, -, ⟨e0, e1, e2⟩⟩ := idx_facts t
  funext a
  apply Fin.ext
  match a with
  | ⟨0, _⟩ => show win1_6.index t (0 : Fin 3) * 1 + 1 * 0 = t.val / 8; rw [e0]; omega
  | ⟨1, _⟩ => show win1_6.index t (1 : Fin 3) * 256 + 1 * r.val = t.val % 8 * 256 + r.val; rw [e1]; omega
  | ⟨2, _⟩ => show win1_6.index t (2 : Fin 3) * 1024 + 1 * e.val = e.val; rw [e2]; omega

/-- WHAT POINT `t` WRITES BACK is its block of the one array `outArr`. -/
theorem flushed_eq (c : Dev nD) (t : Fin cfg1.N) :
    (dat1 (F := Ideal) V c).flushed 6 t = ((cfg1.win 6).blk t).view.read (Elt Ideal) (outArr V c) := by
  show (cfg1.win 6).cut (grid1.coords t) ((dat1 (F := Ideal) V c).after 6 t) = _
  rw [after1_6]
  unfold outsAt1
  funext y
  obtain ⟨u, r, e, rfl⟩ : ∃ (u : Fin 1) (r : Fin 256) (e : Fin 1024), y = ix3 u r e := ⟨y 0, y 1, y 2, eq_ix3 y⟩
  obtain rfl : u = 0 := Subsingleton.elim _ _
  rw [View.read_apply, out_emb]
  show out1_A_6 (F := Ideal) c (grid1.coords t) (ms1_0 t) (hs1_0 t) (ms1_1 t) (hs1_1 t) (ms1_2 t) (hs1_2 t) (ms1_3 t) (hs1_3 t)
      (ms1_4 t) (hs1_4 t) (ms1_5 t) (hs1_5 t) (ms1_6 t) (hs1_6 t) scM1_0 (Memref.isWhole_whole _)
      (iblk1 V c 0 t) (iblk1 V c 1 t) (iblk1 V c 2 t) (iblk1 V c 3 t) (iblk1 V c 4 t) (iblk1 V c 5 t) (ix3 0 r e)
    = outFn V c (ptB t) (ptRow t r) e
  refine (out1_apply c (grid1.coords t) (ms1_0 t) (hs1_0 t) (ms1_1 t) (hs1_1 t) (ms1_2 t) (hs1_2 t) (ms1_3 t) (hs1_3 t)
      (ms1_4 t) (hs1_4 t) (ms1_5 t) (hs1_5 t) (ms1_6 t) (hs1_6 t) scM1_0 (Memref.isWhole_whole _)
      (iblk1 V c 0 t) (iblk1 V c 1 t) (iblk1 V c 2 t) (iblk1 V c 3 t) (iblk1 V c 4 t) (iblk1 V c 5 t) r e).trans ?_
  exact rowOut_congr (fun h d => q_blk V c t r _) (fun h s d => k_blk V c t s _) (fun h s d => v_blk V c t s _)
    (fun s => m_blk V c t r s) (fun a b => wo_blk V c t a b) (fun a => bo_blk V c t a) e

/-! ## The blocks cover the array -/

/-- An index of the array is in point `t`'s block iff each coordinate is in the block's range on its axis. -/
theorem mem_blk (t : Fin cfg1.N) (i : S2x2048x1024.Idx) :
    i ∈ ((cfg1.win 6).blk t).view.set ↔ ∀ a : Fin 3, win1_6.index t a * S1x256x1024.size a ≤ (i a).val
      ∧ (i a).val < win1_6.index t a * S1x256x1024.size a + S1x256x1024.size a := by
  show i ∈ ((View.whole main_v19).slice (win1_6.rect t)).set ↔ _
  rw [View.set_slice_whole, Rect.mem_set_unit]
  exact Iff.rfl

/-- Row `(b, tt)` is in the block of point `b * 8 + tt / 256`. -/
theorem cover (i : S2x2048x1024.Idx) :
    ∃ t : Fin cfg1.N, (cfg1.win 6).flush t = true ∧ i ∈ ((cfg1.win 6).blk t).view.set := by
  have h0 : (i 0).val < 2 := (i 0).isLt
  have h1 : (i 1).val < 2048 := (i 1).isLt
  have h2 : (i 2).val < 1024 := (i 2).isLt
  let t : Fin cfg1.N := ⟨(i 0).val * 8 + (i 1).val / 256, Nat.lt_of_lt_of_eq (by omega) N_1.symm⟩
  have htv : t.val = (i 0).val * 8 + (i 1).val / 256 := rfl
  obtain ⟨-, -, -, -, -, -, ⟨e0, e1, e2⟩⟩ := idx_facts t
  refine ⟨t, flush1_6 t, ?_⟩
  rw [mem_blk]
  intro a
  match a with
  | ⟨0, _⟩ =>
    show win1_6.index t (0 : Fin 3) * 1 ≤ (i 0).val ∧ (i 0).val < win1_6.index t (0 : Fin 3) * 1 + 1
    rw [e0, htv]; omega
  | ⟨1, _⟩ =>
    show win1_6.index t (1 : Fin 3) * 256 ≤ (i 1).val ∧ (i 1).val < win1_6.index t (1 : Fin 3) * 256 + 256
    rw [e1, htv]; omega
  | ⟨2, _⟩ =>
    show win1_6.index t (2 : Fin 3) * 1024 ≤ (i 2).val ∧ (i 2).val < win1_6.index t (2 : Fin 3) * 1024 + 1024
    rw [e2]; omega

/-! ## The array after the region -/

/-- THE OUTPUT ARRAY after the region is `outArr` of the entry arrays. -/
theorem arr1_eq (c : Dev nD) : (dat1 (F := Ideal) V c).arrAt 6 cfg1.N = outArr V c :=
  (dat1 (F := Ideal) V c).arrAt_eq_of_cover 6 (outArr V c) (fun t _ => flushed_eq V c t) cover

/-- Index by index: row `(b, t)`, column `e` of the output is `rowOut` of the row's queries, its batch element's keys
    and values, the row's mask, the output matrix and its bias. -/
theorem arr1 (c : Dev nD) (b : Fin 2) (t : Fin 2048) (e : Fin 1024) :
    ((dat1 (F := Ideal) V c).arrAt 6 cfg1.N : S2x2048x1024.Idx → EReal) (ix3 b t e)
      = Cert.Attn.rowOut (fun h d => (V c main_v15 : S2x2048x1024.Idx → EReal) (ix3 b t (Cert.Attn.hcol h d)))
          (fun h s d => (V c main_v16 : S2x2048x1024.Idx → EReal) (ix3 b s (Cert.Attn.hcol h d)))
          (fun h s d => (V c main_v17 : S2x2048x1024.Idx → EReal) (ix3 b s (Cert.Attn.hcol h d)))
          (fun s => (V c main_arg1 : S2x2048x2048.Idx → EReal) (ix3 b t s))
          (fun c' e' => (V c main_v11 : S1024x1024.Idx → EReal) (ix2 c' e'))
          (fun e' => (V c main_v18 : S1x1024.Idx → EReal) (ix2 0 e')) e := by
  rw [arr1_eq]
  rfl

end Cert.KernelIdeal.KV.Out

end
-- ==== Proof.LibGatherCol.lean ====
import Idealize.ShloMosaic.PureOps.ShapeOps
import Idealize.ShloMosaic.Lib.ValueIdx

/-! # A gather that takes columns of a table, read at an index

`Host.gather d x idx j = x (d.operandIdx j idx)`: on each operand axis the operand index is the clamped start plus the
batching coordinate plus the offset coordinate. Worked out here, at any extents, for the columns of a rank-2 table
(`x[:, idx]`): operand `[R, N]`, start indices `[K, 1]` (the index vector on axis 1), result `[R, K]`; the column axis is
gathered (collapsed, one column per start index) and the row axis is the one offset axis, read whole. Result entry
`(r, k)` is the table's entry `(r, c)` with `c` the start index `idx[k, 0]` read as a SIGNED integer and CLAMPED into
`[0, N − 1]` (`gather_colTake_apply`); for a start index already inside the table the clamp does nothing
(`gather_colTake_apply_of_lt`). Both are stated for ANY dimension-number record with these fields, the field equations
taken as hypotheses (each is `rfl` at a literal record), and again at the literal record `colTakeDims`. -/

namespace Idealize.ShloMosaic.GatherCol

open Idealize.ShloMosaic Idealize.ShloMosaic.ValueIdx

/-- A signed word that is non-negative and below `N`, clamped into `[0, N - 1]`, is its own value. -/
theorem clamp_of_lt {w : Nat} (v : BitVec w) {N : Nat} (h0 : 0 ≤ v.toInt) (hN : v.toInt < (N : Int)) :
    min v.toInt.toNat (N - 1) = v.toInt.toNat := by
  apply Nat.min_eq_left
  omega

section
variable {α : Type}

/-- The dimension numbers of a column take: operand `[R, N]`, start indices `[K, 1]`, result `[R, K]`; axis 1 of the
    operand is gathered (collapsed, slice size 1), axis 0 is the offset axis (slice size `R`), read by the result's
    axis 0. Their conditions `wf` are decided on a program's literal shapes. -/
abbrev colTakeDims (R N K : Nat)
    (wf : GatherDims.WF ⟨2, ![R, N]⟩ ⟨2, ![K, 1]⟩ ⟨2, ![R, K]⟩ [0] [1] [] [1] [] 1 ![R, 1]) :
    GatherDims ⟨2, ![R, N]⟩ ⟨2, ![K, 1]⟩ ⟨2, ![R, K]⟩ where
  offsetDims := [0]
  collapsedSliceDims := [1]
  operandBatchingDims := []
  startIndicesBatchingDims := []
  startIndexMap := [1]
  indexVectorDim := 1
  sliceSizes := ![R, 1]
  wf := wf

/-- The operand index of a column take on the column axis: the start index `idx[k, 0]` read signed and clamped into
    `[0, N − 1]` (the axis is in the start index map, its slice size is `1`), with no batching and no offset coordinate
    (the axis is collapsed). -/
theorem operandIdx_col {R N K w : Nat}
    (wf : GatherDims.WF ⟨2, ![R, N]⟩ ⟨2, ![K, 1]⟩ ⟨2, ![R, K]⟩ [0] [1] [] [1] [] 1 ![R, 1])
    (idx : IVec ⟨2, ![K, 1]⟩ w) (r : Fin R) (k : Fin K) :
    (colTakeDims R N K wf).start (ix2 r k) idx (1 : Fin 2) + (colTakeDims R N K wf).batchCoord (ix2 r k) (1 : Fin 2)
      + (colTakeDims R N K wf).offCoord (ix2 r k) (1 : Fin 2) = min (idx (ix2 k (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (1 : Fin 2) ∈ (colTakeDims R N K wf).startIndexMap from List.mem_singleton.mpr rfl)]
  have hsi : (colTakeDims R N K wf).siIdx (ix2 r k) ⟨List.idxOf (1 : Fin 2) (colTakeDims R N K wf).startIndexMap,
      List.idxOf_lt_length_iff.2 (List.mem_singleton.mpr rfl)⟩ = ix2 k (0 : Fin 1) := by
    funext e; refine Fin.ext ?_
    match e with
    | ⟨0, _⟩ => rfl
    | ⟨1, _⟩ => rfl
  rw [hsi]
  rfl

/-- The operand index of a column take on the row axis: the result's own row `r` (the axis is the one the offset axis
    reads), with start `0` (the start index map does not name the axis) and no batching coordinate. -/
theorem operandIdx_row {R N K w : Nat}
    (wf : GatherDims.WF ⟨2, ![R, N]⟩ ⟨2, ![K, 1]⟩ ⟨2, ![R, K]⟩ [0] [1] [] [1] [] 1 ![R, 1])
    (idx : IVec ⟨2, ![K, 1]⟩ w) (r : Fin R) (k : Fin K) :
    (colTakeDims R N K wf).start (ix2 r k) idx (0 : Fin 2) + (colTakeDims R N K wf).batchCoord (ix2 r k) (0 : Fin 2)
      + (colTakeDims R N K wf).offCoord (ix2 r k) (0 : Fin 2) = r.val := by
  have h01 : (0 : Fin 2) ∉ [(1 : Fin 2)] := by decide
  have hst : (colTakeDims R N K wf).start (ix2 r k) idx (0 : Fin 2) = 0 := by
    unfold GatherDims.start
    rw [dif_neg (show ¬ (0 : Fin 2) ∈ (colTakeDims R N K wf).startIndexMap from h01)]
  have hoff : (colTakeDims R N K wf).offCoord (ix2 r k) (0 : Fin 2) = r.val := by
    unfold GatherDims.offCoord
    rw [dif_pos ((GatherDims.mem_sKept _ _).mpr ⟨h01, List.not_mem_nil⟩)]
    rfl
  rw [GatherDims.batchCoord_eq_zero _ _ _ List.not_mem_nil, hst, hoff, Nat.add_zero, Nat.zero_add]

/-- THE COLUMN TAKE AT THE LITERAL RECORD, READ AT `(r, k)`: the operand's entry `(r, c)`, `c` the start index
    `idx[k, 0]` read signed and clamped into `[0, N − 1]`: the operand index coordinate by coordinate. -/
theorem gather_colTakeDims_apply {R N K w : Nat} (hN : 0 < N)
    (wf : GatherDims.WF ⟨2, ![R, N]⟩ ⟨2, ![K, 1]⟩ ⟨2, ![R, K]⟩ [0] [1] [] [1] [] 1 ![R, 1])
    (x : (⟨2, ![R, N]⟩ : Shape).Idx → α) (idx : IVec ⟨2, ![K, 1]⟩ w) (r : Fin R) (k : Fin K) :
    Host.gather (colTakeDims R N K wf) x idx (ix2 r k)
      = x (ix2 r ⟨min (idx (ix2 k (0 : Fin 1))).toInt.toNat (N - 1), by omega⟩) := by
  unfold Host.gather
  congr 1
  funext a
  refine Fin.ext ?_
  match a with
  | ⟨0, _⟩ => exact operandIdx_row wf idx r k
  | ⟨1, _⟩ => exact operandIdx_col wf idx r k

/-- THE COLUMN TAKE AT ANY RECORD WITH THESE FIELDS, READ AT `(r, k)`: a record is its fields, so it is the literal
    one. -/
theorem gather_colTake_apply {R N K w : Nat} (hN : 0 < N)
    (d : GatherDims ⟨2, ![R, N]⟩ ⟨2, ![K, 1]⟩ ⟨2, ![R, K]⟩)
    (ho : d.offsetDims = [0]) (hc : d.collapsedSliceDims = [1]) (hb : d.operandBatchingDims = [])
    (hsb : d.startIndicesBatchingDims = []) (hm : d.startIndexMap = [1]) (hv : d.indexVectorDim = 1)
    (hs : d.sliceSizes = ![R, 1])
    (x : (⟨2, ![R, N]⟩ : Shape).Idx → α) (idx : IVec ⟨2, ![K, 1]⟩ w) (r : Fin R) (k : Fin K) :
    Host.gather d x idx (ix2 r k)
      = x (ix2 r ⟨min (idx (ix2 k (0 : Fin 1))).toInt.toNat (N - 1), by omega⟩) := by
  obtain ⟨od, cd, ob, sb, sm, iv, ss, wf⟩ := d
  simp only at ho hc hb hsb hm hv hs
  subst ho hc hb hsb hm hv hs
  exact gather_colTakeDims_apply hN wf x idx r k

/-- The same for a start index inside the table: the clamp does nothing, and the column read is the one the index
    names. -/
theorem gather_colTake_apply_of_lt {R N K w : Nat}
    (d : GatherDims ⟨2, ![R, N]⟩ ⟨2, ![K, 1]⟩ ⟨2, ![R, K]⟩)
    (ho : d.offsetDims = [0]) (hc : d.collapsedSliceDims = [1]) (hb : d.operandBatchingDims = [])
    (hsb : d.startIndicesBatchingDims = []) (hm : d.startIndexMap = [1]) (hv : d.indexVectorDim = 1)
    (hs : d.sliceSizes = ![R, 1])
    (x : (⟨2, ![R, N]⟩ : Shape).Idx → α) (idx : IVec ⟨2, ![K, 1]⟩ w) (r : Fin R) (k : Fin K)
    (h0 : 0 ≤ (idx (ix2 k (0 : Fin 1))).toInt) (hlt : (idx (ix2 k (0 : Fin 1))).toInt < (N : Int)) :
    Host.gather d x idx (ix2 r k) = x (ix2 r ⟨(idx (ix2 k (0 : Fin 1))).toInt.toNat, by omega⟩) := by
  rw [gather_colTake_apply (by omega) d ho hc hb hsb hm hv hs x idx r k]
  congr 2
  exact Fin.ext (clamp_of_lt _ h0 hlt)

end

end Idealize.ShloMosaic.GatherCol
-- ==== Proof.LibGather.lean ====
import Idealize.ShloMosaic.PureOps.ShapeOps
import Idealize.ShloMosaic.Lib.ValueIdx

/-! # A gather that takes entries of a flat array, read at an index

`Host.gather d x idx j = x (d.operandIdx j idx)`: the operand index has, on the gathered axis, the start index read as a SIGNED
integer and CLAMPED into the axis. Worked out here, at any extents, for entries of a flat array: operand `[N]`, start indices
`[K, 1]`, result `[K]` (`flatTakeDims`, `gather_flatTake_apply`), with the corollary for a start index already inside the array
(`gather_flatTake_apply_of_lt`): the clamp does nothing and the entry read is the one the index names. -/

namespace Idealize.ShloMosaic.GatherTake

open Idealize.ShloMosaic Idealize.ShloMosaic.ValueIdx

/-- A signed word that is non-negative and below `N`, clamped into `[0, N - 1]`, is its own value. -/
theorem clamp_of_lt {w : Nat} (v : BitVec w) {N : Nat} (h0 : 0 ≤ v.toInt) (hN : v.toInt < (N : Int)) :
    min v.toInt.toNat (N - 1) = v.toInt.toNat := by
  apply Nat.min_eq_left
  omega

section
variable {α : Type}

/-- Operand `[N]`, start indices `[K, 1]`, result `[K]`: the one axis is gathered (collapsed, one entry). -/
abbrev flatTakeDims (N K : Nat)
    (wf : GatherDims.WF ⟨1, ![N]⟩ ⟨2, ![K, 1]⟩ ⟨1, ![K]⟩ [] [0] [] [0] [] 1 ![1]) :
    GatherDims ⟨1, ![N]⟩ ⟨2, ![K, 1]⟩ ⟨1, ![K]⟩ where
  offsetDims := []
  collapsedSliceDims := [0]
  operandBatchingDims := []
  startIndicesBatchingDims := []
  startIndexMap := [0]
  indexVectorDim := 1
  sliceSizes := ![1]
  wf := wf

/-- THE GATHER READ AT `k`: the operand at the start index `idx[k, 0]`, read signed and clamped into `[0, N − 1]`. -/
theorem gather_flatTake_apply {N K w : Nat} (hN : 0 < N)
    (wf : GatherDims.WF ⟨1, ![N]⟩ ⟨2, ![K, 1]⟩ ⟨1, ![K]⟩ [] [0] [] [0] [] 1 ![1])
    (x : (⟨1, ![N]⟩ : Shape).Idx → α) (idx : IVec ⟨2, ![K, 1]⟩ w) (k : Fin K) :
    Host.gather (flatTakeDims N K wf) x idx (ix1 k)
      = x (ix1 ⟨min (idx (ix2 k (0 : Fin 1))).toInt.toNat (N - 1), by omega⟩) := by
  unfold Host.gather
  congr 1
  funext c
  obtain rfl : c = 0 := Subsingleton.elim _ _
  refine Fin.ext ?_
  show (flatTakeDims N K wf).start (ix1 k) idx 0 + (flatTakeDims N K wf).batchCoord (ix1 k) 0
    + (flatTakeDims N K wf).offCoord (ix1 k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatTakeDims N K wf).startIndexMap from List.mem_singleton.mpr rfl)]
  have hsi : (flatTakeDims N K wf).siIdx (ix1 k) ⟨List.idxOf (0 : Fin 1) (flatTakeDims N K wf).startIndexMap,
      List.idxOf_lt_length_iff.2 (List.mem_singleton.mpr rfl)⟩ = ix2 k (0 : Fin 1) := by
    funext e; refine Fin.ext ?_
    match e with
    | ⟨0, _⟩ => rfl
    | ⟨1, _⟩ => rfl
  rw [hsi]
  rfl

/-- The same for a start index inside the array: the entry it names. -/
theorem gather_flatTake_apply_of_lt {N K w : Nat}
    (wf : GatherDims.WF ⟨1, ![N]⟩ ⟨2, ![K, 1]⟩ ⟨1, ![K]⟩ [] [0] [] [0] [] 1 ![1])
    (x : (⟨1, ![N]⟩ : Shape).Idx → α) (idx : IVec ⟨2, ![K, 1]⟩ w) (k : Fin K)
    (h0 : 0 ≤ (idx (ix2 k (0 : Fin 1))).toInt) (hlt : (idx (ix2 k (0 : Fin 1))).toInt < (N : Int)) :
    Host.gather (flatTakeDims N K wf) x idx (ix1 k)
      = x (ix1 ⟨(idx (ix2 k (0 : Fin 1))).toInt.toNat, by omega⟩) := by
  rw [gather_flatTake_apply (by omega) wf x idx k]
  congr 2
  exact Fin.ext (clamp_of_lt _ h0 hlt)

end

end Idealize.ShloMosaic.GatherTake
-- ==== Proof.PermTable.lean ====
/-
  The static column table of the fused projection's wrapper, in closed form.

  The wrapper regroups the fused weight's and bias's columns from the reference's grouping, head by head
  [query (64) | key (64) | value (64)], into three head-major blocks [all queries | all keys | all values]. Position
  `p * 1024 + h * 64 + d` of the table (part `p < 3`, head `h < 16`, lane `d < 64`) holds the reference's column
  `h * 192 + p * 64 + d`. Written on a position `i < 3072`: the part is `i / 1024`, the head `(i % 1024) / 64`, the lane
  `i % 64`. The table is 3072 literal words, so the closed form is a finite check, word by word; every word is below
  3072, so read as a signed integer it is the same number.
-/
import proofs.«409499_j57698590654770_3_alg».proof.KernelIdeal
import proofs.«409499_j57698590654770_3_alg».proof.Proof.Spec

namespace Cert.KernelIdeal.Pay

open Cert.KernelIdeal

/-- Every word of the table, as a natural number, is the closed form at its position. -/
theorem lit0_toNat_all : ∀ i : Fin 3072,
    (lit0 i).toNat = (i.val % 1024) / 64 * 192 + (i.val / 1024) * 64 + i.val % 64 := by
  decide +kernel

/-- The table at position `i`, as a natural number: head `(i % 1024) / 64`, part `i / 1024`, lane `i % 64`. -/
theorem lit0_toNat (i : Fin 3072) :
    (lit0 i).toNat = (i.val % 1024) / 64 * 192 + (i.val / 1024) * 64 + i.val % 64 :=
  lit0_toNat_all i

/-- Every word of the table is below 3072. -/
theorem lit0_toNat_lt (i : Fin 3072) : (lit0 i).toNat < 3072 := by
  rw [lit0_toNat]
  have := i.isLt
  omega

/-- Read as a signed integer the word is the same number: it is far below `2 ^ 31`. -/
theorem lit0_toInt (i : Fin 3072) :
    (lit0 i).toInt = (((i.val % 1024) / 64 * 192 + (i.val / 1024) * 64 + i.val % 64 : Nat) : Int) := by
  have hlt := lit0_toNat_lt i
  rw [BitVec.toInt_eq_toNat_of_lt (by omega), lit0_toNat]

/-- At part `p`, head `h`, lane `d` the table holds the reference's column of that head, part and lane. -/
theorem lit0_col (p : Fin 3) (h : Fin 16) (d : Fin 64) :
    (lit0 ⟨p.val * 1024 + h.val * 64 + d.val, by have := p.isLt; have := h.isLt; have := d.isLt; omega⟩).toNat
      = (Cert.Attn.col h p d).val := by
  rw [lit0_toNat, Cert.Attn.col_val]
  have := p.isLt; have := h.isLt; have := d.isLt
  show (p.val * 1024 + h.val * 64 + d.val) % 1024 / 64 * 192 + (p.val * 1024 + h.val * 64 + d.val) / 1024 * 64
      + (p.val * 1024 + h.val * 64 + d.val) % 64 = h.val * 192 + p.val * 64 + d.val
  omega

end Cert.KernelIdeal.Pay
-- ==== Proof.HostStretch.lean ====
/-
  The host operations around the two kernel calls, read at an index, over the extended reals and from an arbitrary
  valuation of the buffers.

  Before the first call the host permutes the columns of the fused weight and of its bias by the static table
  (`x[:, perm]` and `b[perm]`: the table, a comparison-free select that keeps the table, a broadcast to a column of start
  indices, a gather), converts the two weights' format (the identity on extended reals), flattens the input's two
  leading axes and gives the bias a leading unit axis. So the first call's weight at `(k, p * 1024 + c)` is the
  argument's at column `col (c / 64) p (c % 64)`, its bias likewise, and its input's row `r` is the argument's row
  `(r / 2048, r % 2048)`. Between the calls the host only unflattens the three projections' rows and gives the output
  bias a leading unit axis; the mask and the converted output weight are not written.
-/
import proofs.«409499_j57698590654770_3_alg».proof.Proof.Gen.KernelIdeal.Launch
import proofs.«409499_j57698590654770_3_alg».proof.Proof.LibGatherCol
import proofs.«409499_j57698590654770_3_alg».proof.Proof.LibGather
import proofs.«409499_j57698590654770_3_alg».proof.Proof.PermTable
import proofs.«409499_j57698590654770_3_alg».proof.Proof.PayProj
import proofs.«409499_j57698590654770_3_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Host

open Cert.KernelIdeal Cert.KernelIdeal.Gen Cert.KernelIdeal.Pay Idealize.ShloMosaic Idealize.ShloMosaic.ValueIdx
  Idealize.SL.Sem

/-! ## The start indices of the two gathers -/

/-- The column of start indices both gathers read: the table, kept by a select whose condition is the constant false
    bit (its other branch is the table plus 3072), as a `[3072, 1]` array. -/
def permIdx : IVec S3072x1 32 :=
  broadcastInDim S3072x1 ![0] bcast_S3072_S3072x1_0
    (select (constantI S3072 1 0#1)
      (addi (fun i => lit0 (S3072.rowMajor i)) (broadcastInDim S3072 ![] bcast_S_S3072 (constantI S_ 32 3072#32)))
      (fun i => lit0 (S3072.rowMajor i)))

/-- Start index `j` is the table's word at `j`. -/
theorem permIdx_apply (j : Fin 3072) : permIdx (ix2 j (0 : Fin 1)) = lit0 j := by
  unfold permIdx
  refine (broadcastInDim_apply (s := S3072) (t := S3072x1) ![0] bcast_S3072_S3072x1_0 _ (ix2 j (0 : Fin 1)) (ix1 j)
    (fun a => by
      match a with
      | ⟨0, _⟩ => rfl)).trans ?_
  refine (select_apply _ _ _ _).trans ?_
  refine (select_zero _ _).trans ?_
  exact congrArg lit0 (Fin.ext (Shape.rowMajor_val_one (d := ![3072]) (ix1 j)))

/-- The table's word at `p * 1024 + c`, as a signed integer, is the reference's column of head `c / 64`, part `p`,
    lane `c % 64`. -/
theorem permIdx_toInt (p : Fin 3) (c : Fin 1024) :
    (permIdx (ix2 (wcol p c) (0 : Fin 1))).toInt
      = (((Cert.Attn.col (Cert.Attn.headOf c) p (Cert.Attn.laneOf c)).val : Nat) : Int) := by
  rw [permIdx_apply, lit0_toInt, Cert.Attn.col_val, Cert.Attn.headOf_val, Cert.Attn.laneOf_val, wcol_val]
  have := p.isLt; have := c.isLt
  congr 1
  omega

/-! ## Before the first call -/

/-- The first call's input at `(r, k)`: the argument at `(r / 2048, r % 2048, k)`. -/
theorem pre_x (W : Valuation τ sig (Elt Ideal)) (r : Fin 4096) (k : Fin 1024) :
    (StableHlo.after hostOps0 W (Proc.devRef .tc main_v12) : S4096x1024.Idx → EReal) (ix2 r k)
      = (W (Proc.devRef .tc main_arg0) : S2x2048x1024.Idx → EReal)
          (ix3 ⟨r.val / 2048, by have := r.isLt; omega⟩ ⟨r.val % 2048, Nat.mod_lt _ (by norm_num)⟩ k) := by
  have e : (StableHlo.after hostOps0 W (Proc.devRef .tc main_v12) : S4096x1024.Idx → EReal)
      = shapeCast S4096x1024 (W (Proc.devRef .tc main_arg0) : S2x2048x1024.Idx → EReal)
          shapeCasts_S2x2048x1024_S4096x1024 := by
    after_results
    rfl
  rw [e]
  refine shapeCast_apply (s := S2x2048x1024) (t := S4096x1024) _ shapeCasts_S2x2048x1024_S4096x1024 _ _ ?_
  rw [Shape.rowMajor_val_three, Shape.rowMajor_val_two]
  show (r.val / 2048 * 2048 + r.val % 2048) * 1024 + k.val = r.val * 1024 + k.val
  omega

/-- The first call's weight at `(k, p * 1024 + c)`: the argument's column of head `c / 64`, part `p`, lane `c % 64`. -/
theorem pre_w (W : Valuation τ sig (Elt Ideal)) (k : Fin 1024) (p : Fin 3) (c : Fin 1024) :
    (StableHlo.after hostOps0 W (Proc.devRef .tc main_v10) : S1024x3072.Idx → EReal) (ix2 k (wcol p c))
      = (W (Proc.devRef .tc main_arg2) : S1024x3072.Idx → EReal)
          (ix2 k (Cert.Attn.col (Cert.Attn.headOf c) p (Cert.Attn.laneOf c))) := by
  have e : (StableHlo.after hostOps0 W (Proc.devRef .tc main_v10) : S1024x3072.Idx → EReal)
      = truncf (F := Ideal) .bf16
          (Host.gather gather_S1024x3072_S3072x1_S1024x3072_0_1_n_n_1_1_10241 (W (Proc.devRef .tc main_arg2) : S1024x3072.Idx → EReal) permIdx)
          bitsLt_bf16_f32 := by
    after_results
    rfl
  rw [e]
  have hi := permIdx_toInt p c
  refine (GatherCol.gather_colTake_apply_of_lt gather_S1024x3072_S3072x1_S1024x3072_0_1_n_n_1_1_10241 rfl rfl rfl rfl rfl rfl rfl
    (W (Proc.devRef .tc main_arg2) : S1024x3072.Idx → EReal) permIdx k (wcol p c)
    (by rw [hi]; exact Int.natCast_nonneg _)
    (by rw [hi]; have := (Cert.Attn.col (Cert.Attn.headOf c) p (Cert.Attn.laneOf c)).isLt; omega)).trans ?_
  congr 2
  exact Fin.ext (by
    show (permIdx (ix2 (wcol p c) (0 : Fin 1))).toInt.toNat = _
    omega)

/-- The first call's bias at `(0, p * 1024 + c)`: the argument's entry of head `c / 64`, part `p`, lane `c % 64`. -/
theorem pre_b (W : Valuation τ sig (Elt Ideal)) (p : Fin 3) (c : Fin 1024) :
    (StableHlo.after hostOps0 W (Proc.devRef .tc main_v13) : S1x3072.Idx → EReal) (ix2 0 (wcol p c))
      = (W (Proc.devRef .tc main_arg3) : S3072.Idx → EReal)
          (ix1 (Cert.Attn.col (Cert.Attn.headOf c) p (Cert.Attn.laneOf c))) := by
  have e : (StableHlo.after hostOps0 W (Proc.devRef .tc main_v13) : S1x3072.Idx → EReal)
      = shapeCast S1x3072
          (Host.gather gather_S3072_S3072x1_S3072_n_0_n_n_0_1_1 (W (Proc.devRef .tc main_arg3) : S3072.Idx → EReal) permIdx)
          shapeCasts_S3072_S1x3072 := by
    after_results
    rfl
  rw [e]
  refine (shapeCast_a_1a_apply _ shapeCasts_S3072_S1x3072 0 (wcol p c)).trans ?_
  have hi := permIdx_toInt p c
  refine (GatherTake.gather_flatTake_apply_of_lt gather_S3072_S3072x1_S3072_n_0_n_n_0_1_1_wf
    (W (Proc.devRef .tc main_arg3) : S3072.Idx → EReal) permIdx (wcol p c)
    (by rw [hi]; exact Int.natCast_nonneg _)
    (by rw [hi]; have := (Cert.Attn.col (Cert.Attn.headOf c) p (Cert.Attn.laneOf c)).isLt; omega)).trans ?_
  congr 2
  exact Fin.ext (by
    show (permIdx (ix2 (wcol p c) (0 : Fin 1))).toInt.toNat = _
    omega)

/-- The second call's output weight is the argument, its format changed: the same extended reals. -/
theorem pre_wo (W : Valuation τ sig (Elt Ideal)) :
    (StableHlo.after hostOps0 W (Proc.devRef .tc main_v11) : S1024x1024.Idx → EReal)
      = (W (Proc.devRef .tc main_arg4) : S1024x1024.Idx → EReal) := by
  after_results
  rfl

/-! ## Between the two calls -/

/-- A `[4096, 1024]` array cast to `[2, 2048, 1024]` reads, at `(b, t, c)`, the operand at `(b * 2048 + t, c)`. -/
theorem cast_rows_apply {α : Type} (x : S4096x1024.Idx → α) (b : Fin 2) (t : Fin 2048) (c : Fin 1024) :
    shapeCast S2x2048x1024 x shapeCasts_S4096x1024_S2x2048x1024 (ix3 b t c)
      = x (ix2 ⟨b.val * 2048 + t.val, by have := b.isLt; have := t.isLt; omega⟩ c) :=
  shapeCast_apply (s := S4096x1024) (t := S2x2048x1024) x shapeCasts_S4096x1024_S2x2048x1024 _ _ (by
    rw [Shape.rowMajor_val_three, Shape.rowMajor_val_two]
    rfl)

/-- The queries handed to the second call at `(b, t, c)`: the first call's result at row `b * 2048 + t`. -/
theorem mid_q (W : Valuation τ sig (Elt Ideal)) (b : Fin 2) (t : Fin 2048) (c : Fin 1024) :
    (StableHlo.after hostOps1 W (Proc.devRef .tc main_v15) : S2x2048x1024.Idx → EReal) (ix3 b t c)
      = (W (Proc.devRef .tc main_v14_0) : S4096x1024.Idx → EReal)
          (ix2 ⟨b.val * 2048 + t.val, by have := b.isLt; have := t.isLt; omega⟩ c) := by
  have e : (StableHlo.after hostOps1 W (Proc.devRef .tc main_v15) : S2x2048x1024.Idx → EReal)
      = shapeCast S2x2048x1024 (W (Proc.devRef .tc main_v14_0) : S4096x1024.Idx → EReal)
          shapeCasts_S4096x1024_S2x2048x1024 := by
    after_results
    rfl
  rw [e]
  exact cast_rows_apply _ b t c

/-- The keys handed to the second call at `(b, t, c)`: the first call's result at row `b * 2048 + t`. -/
theorem mid_k (W : Valuation τ sig (Elt Ideal)) (b : Fin 2) (t : Fin 2048) (c : Fin 1024) :
    (StableHlo.after hostOps1 W (Proc.devRef .tc main_v16) : S2x2048x1024.Idx → EReal) (ix3 b t c)
      = (W (Proc.devRef .tc main_v14_1) : S4096x1024.Idx → EReal)
          (ix2 ⟨b.val * 2048 + t.val, by have := b.isLt; have := t.isLt; omega⟩ c) := by
  have e : (StableHlo.after hostOps1 W (Proc.devRef .tc main_v16) : S2x2048x1024.Idx → EReal)
      = shapeCast S2x2048x1024 (W (Proc.devRef .tc main_v14_1) : S4096x1024.Idx → EReal)
          shapeCasts_S4096x1024_S2x2048x1024 := by
    after_results
    rfl
  rw [e]
  exact cast_rows_apply _ b t c

/-- The values handed to the second call at `(b, t, c)`: the first call's result at row `b * 2048 + t`. -/
theorem mid_v (W : Valuation τ sig (Elt Ideal)) (b : Fin 2) (t : Fin 2048) (c : Fin 1024) :
    (StableHlo.after hostOps1 W (Proc.devRef .tc main_v17) : S2x2048x1024.Idx → EReal) (ix3 b t c)
      = (W (Proc.devRef .tc main_v14_2) : S4096x1024.Idx → EReal)
          (ix2 ⟨b.val * 2048 + t.val, by have := b.isLt; have := t.isLt; omega⟩ c) := by
  have e : (StableHlo.after hostOps1 W (Proc.devRef .tc main_v17) : S2x2048x1024.Idx → EReal)
      = shapeCast S2x2048x1024 (W (Proc.devRef .tc main_v14_2) : S4096x1024.Idx → EReal)
          shapeCasts_S4096x1024_S2x2048x1024 := by
    after_results
    rfl
  rw [e]
  exact cast_rows_apply _ b t c

/-- The output bias handed to the second call at `(0, e)`: the argument at `e`. -/
theorem mid_bo (W : Valuation τ sig (Elt Ideal)) (e : Fin 1024) :
    (StableHlo.after hostOps1 W (Proc.devRef .tc main_v18) : S1x1024.Idx → EReal) (ix2 0 e)
      = (W (Proc.devRef .tc main_arg5) : S1024.Idx → EReal) (ix1 e) := by
  have e1 : (StableHlo.after hostOps1 W (Proc.devRef .tc main_v18) : S1x1024.Idx → EReal)
      = shapeCast S1x1024 (W (Proc.devRef .tc main_arg5) : S1024.Idx → EReal) shapeCasts_S1024_S1x1024 := by
    after_results
    rfl
  rw [e1]
  exact shapeCast_a_1a_apply _ shapeCasts_S1024_S1x1024 0 e

/-- No operation between the calls writes the mask. -/
theorem mid_keep_mask (W : Valuation τ sig (Elt Ideal)) :
    StableHlo.after hostOps1 W (Proc.devRef .tc main_arg1) = W (Proc.devRef .tc main_arg1) :=
  StableHlo.after_of_forall_not_mem (b := Proc.devRef .tc main_arg1) _ _ (List.forall_iff_forall_mem.mp (by
    simp only [hostOps1, List.Forall, StableHlo.reshape_writes, Finset.mem_singleton]
    repeat' apply And.intro
    all_goals exact StableHlo.devRef_ne_of_ne (by decide)))

/-- No operation between the calls writes the converted output weight. -/
theorem mid_keep_wo (W : Valuation τ sig (Elt Ideal)) :
    StableHlo.after hostOps1 W (Proc.devRef .tc main_v11) = W (Proc.devRef .tc main_v11) :=
  StableHlo.after_of_forall_not_mem (b := Proc.devRef .tc main_v11) _ _ (List.forall_iff_forall_mem.mp (by
    simp only [hostOps1, List.Forall, StableHlo.reshape_writes, Finset.mem_singleton]
    repeat' apply And.intro
    all_goals exact StableHlo.devRef_ne_of_ne (by decide)))

end Cert.KernelIdeal.Host

end
-- ==== Proof.KernelValue.lean ====
/-
  The idealized kernel's result array as a function of its six arguments. Region 1 leaves in the result array, row by
  row, `rowOut` of the arrays it finds at its entry: the queries, keys and values (region 0's three output arrays, viewed
  as [2, 2048, 1024]), the mask, the output matrix and its bias row. Region 0 leaves in each of its output arrays the
  fused projection of the input rows against the PERMUTED weight and bias: column `p * 1024 + c` of the permuted weight
  is the reference's column `(c / 64) * 192 + p * 64 + c % 64`, so head `h`'s query, key and value lanes are the
  reference's. Reading these back through the host's reshapes gives `result` of the arguments.
-/
import proofs.«409499_j57698590654770_3_alg».proof.Proof.KILaunch
import proofs.«409499_j57698590654770_3_alg».proof.Proof.HostStretch
import proofs.«409499_j57698590654770_3_alg».proof.Proof.Spec
import Idealize.ShloMosaic.Lib.Pipeline.Value
import Idealize.ShloMosaic.Lib.ValueIdx

set_option maxRecDepth 16384

noncomputable section

namespace Cert.KernelIdeal.KV

open Cert.KernelIdeal Cert.KernelIdeal.Gen Cert.KernelIdeal.GenP Cert.KernelIdeal.Pay Cert.KernelIdeal.Host
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg) (c : Dev nD)

/-- The six arguments, as the launch memory holds them. -/
abbrev aX : S2x2048x1024.Idx → EReal := m ((c : Thread nD τ).loc main_arg0)
abbrev aM : S2x2048x2048.Idx → EReal := m ((c : Thread nD τ).loc main_arg1)
abbrev aW : S1024x3072.Idx → EReal := m ((c : Thread nD τ).loc main_arg2)
abbrev aB : S3072.Idx → EReal := m ((c : Thread nD τ).loc main_arg3)
abbrev aWo : S1024x1024.Idx → EReal := m ((c : Thread nD τ).loc main_arg4)
abbrev aBo : S1024.Idx → EReal := m ((c : Thread nD τ).loc main_arg5)

/-! ## Region 0's entry: the host prelude read back to the arguments -/

/-- One element of the fused projection, as region 0 computes it from its entry arrays, is the reference's: row
    `b * 2048 + t` of the reshaped input is position `(b, t)`, and column `p * 1024 + h * 64 + d` of the permuted weight and
    bias is the reference's column `h * 192 + p * 64 + d`. -/
theorem entry0_proj (p : Fin 3) (b : Fin 2) (t : Fin 2048) (h : Fin 16) (d : Fin 64) :
    Cert.Attn.projAt
        (fun k => (V1 m ρ c main_v12 : S4096x1024.Idx → EReal)
          (ix2 ⟨b.val * 2048 + t.val, by have := b.isLt; have := t.isLt; omega⟩ k))
        (fun k => (V1 m ρ c main_v10 : S1024x3072.Idx → EReal) (ix2 k (wcol p (Cert.Attn.hcol h d))))
        ((V1 m ρ c main_v13 : S1x3072.Idx → EReal) (ix2 0 (wcol p (Cert.Attn.hcol h d))))
      = Cert.Attn.proj (aX m c) (aW m c) (aB m c) b t (Cert.Attn.col h p d) := by
  have hb := b.isLt
  have ht := t.isLt
  unfold Cert.Attn.proj
  have ex : (fun k => (V1 m ρ c main_v12 : S4096x1024.Idx → EReal)
        (ix2 ⟨b.val * 2048 + t.val, by have := b.isLt; have := t.isLt; omega⟩ k)) = fun k => aX m c (ix3 b t k) := by
    funext k
    refine (pre_x (W0 m ρ c) _ k).trans ?_
    show aX m c _ = aX m c _
    refine congrArg (aX m c) (funext fun a => Fin.ext ?_)
    match a with
    | ⟨0, _⟩ => show (b.val * 2048 + t.val) / 2048 = b.val; omega
    | ⟨1, _⟩ => show (b.val * 2048 + t.val) % 2048 = t.val; omega
    | ⟨2, _⟩ => rfl
  have ew : (fun k => (V1 m ρ c main_v10 : S1024x3072.Idx → EReal) (ix2 k (wcol p (Cert.Attn.hcol h d))))
      = fun k => aW m c (ix2 k (Cert.Attn.col h p d)) := by
    funext k
    refine (pre_w (W0 m ρ c) k p _).trans ?_
    show aW m c _ = aW m c _
    rw [Cert.Attn.headOf_hcol, Cert.Attn.laneOf_hcol]
  have eb : (V1 m ρ c main_v13 : S1x3072.Idx → EReal) (ix2 0 (wcol p (Cert.Attn.hcol h d)))
      = aB m c (ix1 (Cert.Attn.col h p d)) := by
    refine (pre_b (W0 m ρ c) p _).trans ?_
    show aB m c _ = aB m c _
    rw [Cert.Attn.headOf_hcol, Cert.Attn.laneOf_hcol]
  rw [ex, ew, eb]

/-! ## Region 1's entry: region 0's arrays and the arguments, through the reshapes between the calls -/

/-- The mask reaches region 1 as launched. -/
theorem entry1_mask : (V3 m ρ c main_arg1 : S2x2048x2048.Idx → EReal) = aM m c :=
  ((W4_arr m ρ c 3).trans (((dat1 (V3 m ρ) c).arrAt_in 3 rfl _).trans (A_eq1 (V3 m ρ) c 3))).symm.trans (W4_main_arg1 m ρ c)

/-- The output matrix reaches region 1 as launched (its narrowing to bf16 is the identity on extended reals). -/
theorem entry1_wo : (V3 m ρ c main_v11 : S1024x1024.Idx → EReal) = aWo m c :=
  (mid_keep_wo (W2 m ρ c)).trans ((W2_of_ne m ρ c main_v11 (by decide)).trans (pre_wo (W0 m ρ c)))

/-- No host operation before region 0 writes the output bias. -/
theorem pre_keep_bo : W1 m ρ c (Proc.devRef .tc main_arg5) = W0 m ρ c (Proc.devRef .tc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The output bias reaches region 1 as a row. -/
theorem entry1_bo (e : Fin 1024) : (V3 m ρ c main_v18 : S1x1024.Idx → EReal) (ix2 0 e) = aBo m c (ix1 e) := by
  refine (mid_bo (W2 m ρ c) e).trans ?_
  exact congrFun ((W2_of_ne m ρ c main_arg5 (by decide)).trans (pre_keep_bo m ρ c)) (ix1 e)

section Assembly

variable
  (h1 : ∀ (b : Fin 2) (t : Fin 2048) (e : Fin 1024),
    ((dat1 (F := Ideal) (V3 m ρ) c).arrAt 6 cfg1.N : S2x2048x1024.Idx → EReal) (ix3 b t e)
      = Cert.Attn.rowOut (fun h d => (V3 m ρ c main_v15 : S2x2048x1024.Idx → EReal) (ix3 b t (Cert.Attn.hcol h d)))
          (fun h s d => (V3 m ρ c main_v16 : S2x2048x1024.Idx → EReal) (ix3 b s (Cert.Attn.hcol h d)))
          (fun h s d => (V3 m ρ c main_v17 : S2x2048x1024.Idx → EReal) (ix3 b s (Cert.Attn.hcol h d)))
          (fun s => (V3 m ρ c main_arg1 : S2x2048x2048.Idx → EReal) (ix3 b t s))
          (fun c' e' => (V3 m ρ c main_v11 : S1024x1024.Idx → EReal) (ix2 c' e'))
          (fun e' => (V3 m ρ c main_v18 : S1x1024.Idx → EReal) (ix2 0 e')) e)
  (hq : ∀ (r : Fin 4096) (cc : Fin 1024),
    ((dat0 (F := Ideal) (V1 m ρ) c).arrAt 3 cfg0.N : S4096x1024.Idx → EReal) (ix2 r cc)
      = Cert.Attn.projAt (fun k => (V1 m ρ c main_v12 : S4096x1024.Idx → EReal) (ix2 r k))
          (fun k => (V1 m ρ c main_v10 : S1024x3072.Idx → EReal) (ix2 k (wcol 0 cc))) ((V1 m ρ c main_v13 : S1x3072.Idx → EReal) (ix2 0 (wcol 0 cc))))
  (hk : ∀ (r : Fin 4096) (cc : Fin 1024),
    ((dat0 (F := Ideal) (V1 m ρ) c).arrAt 4 cfg0.N : S4096x1024.Idx → EReal) (ix2 r cc)
      = Cert.Attn.projAt (fun k => (V1 m ρ c main_v12 : S4096x1024.Idx → EReal) (ix2 r k))
          (fun k => (V1 m ρ c main_v10 : S1024x3072.Idx → EReal) (ix2 k (wcol 1 cc))) ((V1 m ρ c main_v13 : S1x3072.Idx → EReal) (ix2 0 (wcol 1 cc))))
  (hv : ∀ (r : Fin 4096) (cc : Fin 1024),
    ((dat0 (F := Ideal) (V1 m ρ) c).arrAt 5 cfg0.N : S4096x1024.Idx → EReal) (ix2 r cc)
      = Cert.Attn.projAt (fun k => (V1 m ρ c main_v12 : S4096x1024.Idx → EReal) (ix2 r k))
          (fun k => (V1 m ρ c main_v10 : S1024x3072.Idx → EReal) (ix2 k (wcol 2 cc))) ((V1 m ρ c main_v13 : S1x3072.Idx → EReal) (ix2 0 (wcol 2 cc))))

include hq in
/-- Head `h`'s query lane `d` at position `(b, t)`, as region 1 finds it. -/
theorem entry1_q (b : Fin 2) (t : Fin 2048) (h : Fin 16) (d : Fin 64) :
    (V3 m ρ c main_v15 : S2x2048x1024.Idx → EReal) (ix3 b t (Cert.Attn.hcol h d))
      = Cert.Attn.proj (aX m c) (aW m c) (aB m c) b t (Cert.Attn.col h 0 d) := by
  refine (mid_q (W2 m ρ c) b t _).trans ?_
  refine (congrFun (W2_arr m ρ c 3) _).trans ?_
  exact (hq _ _).trans (entry0_proj m ρ c 0 b t h d)

include hk in
/-- Head `h`'s key lane `d` at position `(b, s)`. -/
theorem entry1_k (b : Fin 2) (s : Fin 2048) (h : Fin 16) (d : Fin 64) :
    (V3 m ρ c main_v16 : S2x2048x1024.Idx → EReal) (ix3 b s (Cert.Attn.hcol h d))
      = Cert.Attn.proj (aX m c) (aW m c) (aB m c) b s (Cert.Attn.col h 1 d) := by
  refine (mid_k (W2 m ρ c) b s _).trans ?_
  refine (congrFun (W2_arr m ρ c 4) _).trans ?_
  exact (hk _ _).trans (entry0_proj m ρ c 1 b s h d)

include hv in
/-- Head `h`'s value lane `d` at position `(b, s)`. -/
theorem entry1_v (b : Fin 2) (s : Fin 2048) (h : Fin 16) (d : Fin 64) :
    (V3 m ρ c main_v17 : S2x2048x1024.Idx → EReal) (ix3 b s (Cert.Attn.hcol h d))
      = Cert.Attn.proj (aX m c) (aW m c) (aB m c) b s (Cert.Attn.col h 2 d) := by
  refine (mid_v (W2 m ρ c) b s _).trans ?_
  refine (congrFun (W2_arr m ρ c 5) _).trans ?_
  exact (hv _ _).trans (entry0_proj m ρ c 2 b s h d)

include h1 hq hk hv in
/-- THE RESULT ARRAY after the run is `result` of the six arguments. -/
theorem result_of_regions :
    ((dat1 (F := Ideal) (V3 m ρ) c).arrAt 6 cfg1.N : S2x2048x1024.Idx → EReal)
      = Cert.Attn.result (aX m c) (aM m c) (aW m c) (aB m c) (aWo m c) (aBo m c) := by
  funext i
  obtain ⟨b, t, e, rfl⟩ : ∃ (b : Fin 2) (t : Fin 2048) (e : Fin 1024), i = ix3 b t e := ⟨i 0, i 1, i 2, eq_ix3 i⟩
  rw [h1 b t e]
  show _ = Cert.Attn.rowOut (fun h d => Cert.Attn.proj (aX m c) (aW m c) (aB m c) b t (Cert.Attn.col h 0 d))
      (fun h s d => Cert.Attn.proj (aX m c) (aW m c) (aB m c) b s (Cert.Attn.col h 1 d))
      (fun h s d => Cert.Attn.proj (aX m c) (aW m c) (aB m c) b s (Cert.Attn.col h 2 d))
      (fun s => aM m c (ix3 b t s)) (fun c' e' => aWo m c (ix2 c' e')) (fun e' => aBo m c (ix1 e')) e
  have eq : (fun (h : Fin 16) (d : Fin 64) => (V3 m ρ c main_v15 : S2x2048x1024.Idx → EReal) (ix3 b t (Cert.Attn.hcol h d)))
      = fun h d => Cert.Attn.proj (aX m c) (aW m c) (aB m c) b t (Cert.Attn.col h 0 d) :=
    funext fun h => funext fun d => entry1_q m ρ c hq b t h d
  have ek : (fun (h : Fin 16) (s : Fin 2048) (d : Fin 64) => (V3 m ρ c main_v16 : S2x2048x1024.Idx → EReal) (ix3 b s (Cert.Attn.hcol h d)))
      = fun h s d => Cert.Attn.proj (aX m c) (aW m c) (aB m c) b s (Cert.Attn.col h 1 d) :=
    funext fun h => funext fun s => funext fun d => entry1_k m ρ c hk b s h d
  have ev : (fun (h : Fin 16) (s : Fin 2048) (d : Fin 64) => (V3 m ρ c main_v17 : S2x2048x1024.Idx → EReal) (ix3 b s (Cert.Attn.hcol h d)))
      = fun h s d => Cert.Attn.proj (aX m c) (aW m c) (aB m c) b s (Cert.Attn.col h 2 d) :=
    funext fun h => funext fun s => funext fun d => entry1_v m ρ c hv b s h d
  have eb : (fun (e' : Fin 1024) => (V3 m ρ c main_v18 : S1x1024.Idx → EReal) (ix2 0 e')) = fun e' => aBo m c (ix1 e') :=
    funext fun e' => entry1_bo m ρ c e'
  rw [eq, ek, ev, eb, entry1_mask, entry1_wo]

end Assembly

end Cert.KernelIdeal.KV

end
-- ==== Proof.RefValue.lean ====
/-
  The reference's result, index by index: each row of the result array is `rowOut` of that row's queries, its batch
  element's keys and values and its mask row, with the fused projection read at the reference's own column order.

  The stages go up from the arguments. The fused projection at (b, t, c) is `proj`; viewed as [b, head, t, 192] its lane
  p*64 + d of head h is column h*192 + p*64 + d, so the query, key and value arrays at (b, h, t, d) are `proj` at the
  columns `col h 0 d`, `col h 1 d`, `col h 2 d`. The scaled, masked score at (b, h, t, s) is `score` of row (b, t)
  (a quotient by 8 is the product with 1/8); the row maximum, folded from -infinity and then taken against -infinity
  once more, is `top`; then `expo`, `denom` (the sum starts from zero), `weight`, `headCtx`; the contexts laid out
  [b, t, h*64 + d] put head c / 64, lane c % 64 in column c; the output projection of that row is `rowOut`.
-/
import proofs.«409499_j57698590654770_3_alg».proof.Proof.Gen.ReferenceIdeal.Read
import proofs.«409499_j57698590654770_3_alg».proof.Proof.Spec
import Idealize.ShloMosaic.PureOps.Reduce
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Cert.ReferenceIdeal.Read Cert.Attn Idealize.ShloMosaic Idealize.ShloMosaic.ValueIdx

section Stages

variable (x0 : (⟨S2x2048x1024, .f32⟩ : BufTy).Contents (Elt Ideal)) (x1 : (⟨S2x2048x2048, .f32⟩ : BufTy).Contents (Elt Ideal))
  (x2 : (⟨S1024x3072, .f32⟩ : BufTy).Contents (Elt Ideal)) (x3 : (⟨S3072, .f32⟩ : BufTy).Contents (Elt Ideal))
  (x4 : (⟨S1024x1024, .f32⟩ : BufTy).Contents (Elt Ideal)) (x5 : (⟨S1024, .f32⟩ : BufTy).Contents (Elt Ideal))

/-- The queries of row (b, t): head `h`, lane `d`. -/
abbrev qrow (b : Fin 2) (t : Fin 2048) : Fin 16 → Fin 64 → EReal := fun h d => proj x0 x2 x3 b t (col h 0 d)
/-- The keys of batch element `b`: head `h`, position `s`, lane `d`. -/
abbrev kk (b : Fin 2) : Fin 16 → Fin 2048 → Fin 64 → EReal := fun h s d => proj x0 x2 x3 b s (col h 1 d)
/-- The values of batch element `b`. -/
abbrev vv (b : Fin 2) : Fin 16 → Fin 2048 → Fin 64 → EReal := fun h s d => proj x0 x2 x3 b s (col h 2 d)
/-- The mask row of (b, t). -/
abbrev mrow (b : Fin 2) (t : Fin 2048) : Fin 2048 → EReal := fun s => x1 (ix3 b t s)

/-! ## The fused projection and its three parts -/

/-- The fused projection at a position and a column. -/
theorem proj_at (b : Fin 2) (t : Fin 2048) (c : Fin 3072) :
    val_main_v3 (F := Ideal) x0 x2 x3 (ix3 b t c) = proj x0 x2 x3 b t c := by
  rw [val_main_v3_apply, val_main_v0_apply, val_main_v2_apply, val_main_v1_apply, Ideal.addf_def]
  have el : ∀ k : Fin 1024, lidx_main_v0 (ix3 b t c) k = ix3 b t k := fun k => funext fun a => Fin.ext (by
    match a with | ⟨0, _⟩ => rfl | ⟨1, _⟩ => rfl | ⟨2, _⟩ => rfl)
  have er : ∀ k : Fin 1024, ridx_main_v0 (ix3 b t c) k = ix2 k c := fun k => funext fun a => Fin.ext (by
    match a with | ⟨0, _⟩ => rfl | ⟨1, _⟩ => rfl)
  have eb : idx_main_v1 (idx_main_v2 (ix3 b t c)) = ix1 c := funext fun a => Fin.ext (by
    match a with | ⟨0, _⟩ => rfl)
  rw [eb]
  simp only [el, er]
  rfl

/-- Viewed as [b, head, t, 192], lane `p*64 + d` of head `h` is column `h*192 + p*64 + d` of the projection. -/
theorem part_at (b : Fin 2) (h : Fin 16) (t : Fin 2048) (p : Fin 3) (d : Fin 64) (hl : p.val * 64 + d.val < 192) :
    val_main_v5 (F := Ideal) x0 x2 x3 (ix4 b h t (⟨p.val * 64 + d.val, hl⟩ : Fin 192)) = proj x0 x2 x3 b t (col h p d) := by
  rw [val_main_v5_apply, val_main_v4_apply]
  have e : idx_main_v4 (idx_main_v5 (ix4 b h t (⟨p.val * 64 + d.val, hl⟩ : Fin 192))) = ix3 b t (col h p d) := by
    have hb := b.isLt; have hh := h.isLt; have ht := t.isLt; have hp := p.isLt; have hd := d.isLt
    funext a; apply Fin.ext
    match a with
    | ⟨0, _⟩ =>
      show (((b.val * 2048 + t.val) * 16 + h.val) * 192 + (p.val * 64 + d.val)) / 6291456 = b.val; omega
    | ⟨1, _⟩ =>
      show (((b.val * 2048 + t.val) * 16 + h.val) * 192 + (p.val * 64 + d.val)) / 3072 % 2048 = t.val; omega
    | ⟨2, _⟩ =>
      show (((b.val * 2048 + t.val) * 16 + h.val) * 192 + (p.val * 64 + d.val)) % 3072 = h.val * 192 + p.val * 64 + d.val; omega
  rw [e, proj_at]

/-- The query array at (b, h, t, d). -/
theorem q_at (b : Fin 2) (h : Fin 16) (t : Fin 2048) (d : Fin 64) :
    val_main_v6 (F := Ideal) x0 x2 x3 (ix4 b h t d) = proj x0 x2 x3 b t (col h 0 d) := by
  rw [val_main_v6_apply]
  have hd := d.isLt
  have e : idx_main_v6 (ix4 b h t d) = ix4 b h t (⟨(0 : Fin 3).val * 64 + d.val, by show 0 * 64 + d.val < 192; omega⟩ : Fin 192) :=
    funext fun a => Fin.ext (by
      match a with
      | ⟨0, _⟩ => rfl
      | ⟨1, _⟩ => rfl
      | ⟨2, _⟩ => rfl
      | ⟨3, _⟩ => show d.val = 0 * 64 + d.val; omega)
  rw [e, part_at]

/-- The key array at (b, h, s, d). -/
theorem k_at (b : Fin 2) (h : Fin 16) (s : Fin 2048) (d : Fin 64) :
    val_main_v7 (F := Ideal) x0 x2 x3 (ix4 b h s d) = proj x0 x2 x3 b s (col h 1 d) := by
  rw [val_main_v7_apply]
  have hd := d.isLt
  have e : idx_main_v7 (ix4 b h s d) = ix4 b h s (⟨(1 : Fin 3).val * 64 + d.val, by show 1 * 64 + d.val < 192; omega⟩ : Fin 192) :=
    funext fun a => Fin.ext (by
      match a with
      | ⟨0, _⟩ => rfl
      | ⟨1, _⟩ => rfl
      | ⟨2, _⟩ => rfl
      | ⟨3, _⟩ => show 64 + d.val = 1 * 64 + d.val; omega)
  rw [e, part_at]

/-- The value array at (b, h, s, d). -/
theorem v_at (b : Fin 2) (h : Fin 16) (s : Fin 2048) (d : Fin 64) :
    val_main_v8 (F := Ideal) x0 x2 x3 (ix4 b h s d) = proj x0 x2 x3 b s (col h 2 d) := by
  rw [val_main_v8_apply]
  have hd := d.isLt
  have e : idx_main_v8 (ix4 b h s d) = ix4 b h s (⟨(2 : Fin 3).val * 64 + d.val, by show 2 * 64 + d.val < 192; omega⟩ : Fin 192) :=
    funext fun a => Fin.ext (by
      match a with
      | ⟨0, _⟩ => rfl
      | ⟨1, _⟩ => rfl
      | ⟨2, _⟩ => rfl
      | ⟨3, _⟩ => show 128 + d.val = 2 * 64 + d.val; omega)
  rw [e, part_at]

/-! ## The scores of a row -/

/-- The scaled, masked score at (b, h, t, s): the quotient by 8 is the product with 1/8. -/
theorem score_at (b : Fin 2) (h : Fin 16) (t s : Fin 2048) :
    val_main_v14 (F := Ideal) x0 x1 x2 x3 (ix4 b h t s)
      = score (qrow x0 x2 x3 b t h) (kk x0 x2 x3 b h) (mrow x1 b t) s := by
  rw [val_main_v14_apply, val_main_v11_apply, val_main_v9_apply, val_main_v10_apply, val_main_cst_apply,
    val_main_v13_apply, val_main_v12_apply, Ideal.addf_def, Ideal.hostDivf_def, Ideal.ofBits_def, div_eight]
  have el : ∀ d : Fin 64, lidx_main_v9 (ix4 b h t s) d = ix4 b h t d := fun d => funext fun a => Fin.ext (by
    match a with | ⟨0, _⟩ => rfl | ⟨1, _⟩ => rfl | ⟨2, _⟩ => rfl | ⟨3, _⟩ => rfl)
  have er : ∀ d : Fin 64, ridx_main_v9 (ix4 b h t s) d = ix4 b h s d := fun d => funext fun a => Fin.ext (by
    match a with | ⟨0, _⟩ => rfl | ⟨1, _⟩ => rfl | ⟨2, _⟩ => rfl | ⟨3, _⟩ => rfl)
  have em : idx_main_v12 (idx_main_v13 (ix4 b h t s)) = ix3 b t s := funext fun a => Fin.ext (by
    match a with | ⟨0, _⟩ => rfl | ⟨1, _⟩ => rfl | ⟨2, _⟩ => rfl)
  rw [em]
  simp only [el, er, q_at, k_at]
  rfl

/-- The row maximum over the last axis, folded from -infinity, at (b, h, t): the fold over the key positions. -/
theorem rowmax_at (y : (⟨S2x16x2048x2048, .f32⟩ : BufTy).Contents (Elt Ideal)) (b : Fin 2) (h : Fin 16) (t : Fin 2048) :
    Host.reduce FloatOps.maximumf y (val_main_cst_0 (F := Ideal)) reducesTo_S2x16x2048x2048_S2x16x2048_d3 h_S_ (ix3 b h t)
      = (Finset.univ : Finset (Fin 2048)).fold max (Ideal.ofBits .f32 0xFF800000#32) (fun s => y (ix4 b h t s)) := by
  have hR : S2x16x2048x2048.Reduces [3] S2x16x2048 := by decide
  refine (Host.reduce_eq_fold_single (FloatOps.maximumf (F := Ideal) (φ := .f32)) y _
    reducesTo_S2x16x2048x2048_S2x16x2048_d3 hR h_S_ (ix3 b h t)).trans ?_
  have hf : (y ∘ hR.lift (ix3 b h t)) = fun s : Fin 2048 => y (ix4 b h t s) :=
    funext fun s => congrArg y (funext fun c => Fin.ext (by fin_cases c <;> rfl))
  exact congrArg (fun f => Finset.fold max (Ideal.ofBits .f32 0xFF800000#32) f (Finset.univ : Finset (Fin 2048))) hf

/-- The maximum the exponent is shifted by, at (b, h, t): a maximum against -infinity is the other operand. -/
theorem top_at (b : Fin 2) (h : Fin 16) (t : Fin 2048) :
    val_main_v17 (F := Ideal) x0 x1 x2 x3 (ix3 b h t)
      = top (qrow x0 x2 x3 b t h) (kk x0 x2 x3 b h) (mrow x1 b t) := by
  rw [val_main_v17_apply, val_main_v16_apply, val_main_cst_1_apply, Ideal.maximumf_def, Ideal.ofBits_def, max_negInf]
  unfold val_main_v15
  refine (rowmax_at _ b h t).trans ?_
  simp only [score_at]
  rfl

/-! ## The softmax of a row and the head's context -/

/-- The shifted exponential at (b, h, t, s). -/
theorem expo_at (b : Fin 2) (h : Fin 16) (t s : Fin 2048) :
    val_main_v21 (F := Ideal) x0 x1 x2 x3 (ix4 b h t s)
      = expo (qrow x0 x2 x3 b t h) (kk x0 x2 x3 b h) (mrow x1 b t) s := by
  rw [val_main_v21_apply, val_main_v20_apply, val_main_v19_apply, val_main_v18_apply, Ideal.hostUnary_exp_def,
    Ideal.subf_def, score_at]
  have e : idx_main_v18 (idx_main_v19 (ix4 b h t s)) = ix3 b h t := funext fun a => Fin.ext (by
    match a with | ⟨0, _⟩ => rfl | ⟨1, _⟩ => rfl | ⟨2, _⟩ => rfl)
  rw [e, top_at]
  rfl

/-- The normaliser at (b, h, t): the sum starts from zero. -/
theorem denom_at (b : Fin 2) (h : Fin 16) (t : Fin 2048) :
    val_main_v22 (F := Ideal) x0 x1 x2 x3 (ix3 b h t)
      = denom (qrow x0 x2 x3 b t h) (kk x0 x2 x3 b h) (mrow x1 b t) := by
  rw [val_main_v22_apply, val_main_cst_2_apply, Ideal.ofBits_def, Ideal.ofBits_zero_f32, zero_add]
  have e : ∀ s : Fin 2048, idx_main_v22 (ix3 b h t) s = ix4 b h t s := fun s => funext fun a => Fin.ext (by
    match a with | ⟨0, _⟩ => rfl | ⟨1, _⟩ => rfl | ⟨2, _⟩ => rfl | ⟨3, _⟩ => rfl)
  simp only [e, expo_at]
  rfl

/-- The attention weight at (b, h, t, s). -/
theorem weight_at (b : Fin 2) (h : Fin 16) (t s : Fin 2048) :
    val_main_v25 (F := Ideal) x0 x1 x2 x3 (ix4 b h t s)
      = weight (qrow x0 x2 x3 b t h) (kk x0 x2 x3 b h) (mrow x1 b t) s := by
  rw [val_main_v25_apply, val_main_v24_apply, val_main_v23_apply, Ideal.hostDivf_def, expo_at]
  have e : idx_main_v23 (idx_main_v24 (ix4 b h t s)) = ix3 b h t := funext fun a => Fin.ext (by
    match a with | ⟨0, _⟩ => rfl | ⟨1, _⟩ => rfl | ⟨2, _⟩ => rfl)
  rw [e, denom_at]
  rfl

/-- The head's context at (b, h, t, d). -/
theorem ctx_at (b : Fin 2) (h : Fin 16) (t : Fin 2048) (d : Fin 64) :
    val_main_v26 (F := Ideal) x0 x1 x2 x3 (ix4 b h t d)
      = headCtx (qrow x0 x2 x3 b t h) (kk x0 x2 x3 b h) (vv x0 x2 x3 b h) (mrow x1 b t) d := by
  rw [val_main_v26_apply]
  have el : ∀ s : Fin 2048, lidx_main_v26 (ix4 b h t d) s = ix4 b h t s := fun s => funext fun a => Fin.ext (by
    match a with | ⟨0, _⟩ => rfl | ⟨1, _⟩ => rfl | ⟨2, _⟩ => rfl | ⟨3, _⟩ => rfl)
  have er : ∀ s : Fin 2048, ridx_main_v26 (ix4 b h t d) s = ix4 b h s d := fun s => funext fun a => Fin.ext (by
    match a with | ⟨0, _⟩ => rfl | ⟨1, _⟩ => rfl | ⟨2, _⟩ => rfl | ⟨3, _⟩ => rfl)
  simp only [el, er, weight_at, v_at]
  rfl

/-! ## The contexts side by side, and the output projection -/

/-- Laid out [b, t, h*64 + d], column `c` holds head `c / 64`, lane `c % 64`. -/
theorem laid_at (b : Fin 2) (t : Fin 2048) (c : Fin 1024) :
    val_main_v28 (F := Ideal) x0 x1 x2 x3 (ix3 b t c)
      = headCtx (qrow x0 x2 x3 b t (headOf c)) (kk x0 x2 x3 b (headOf c)) (vv x0 x2 x3 b (headOf c)) (mrow x1 b t)
          (laneOf c) := by
  rw [val_main_v28_apply, val_main_v27_apply]
  have e : idx_main_v27 (idx_main_v28 (ix3 b t c)) = ix4 b (headOf c) t (laneOf c) := by
    have hb := b.isLt; have ht := t.isLt; have hc := c.isLt
    funext a; apply Fin.ext
    match a with
    | ⟨0, _⟩ => show ((b.val * 2048 + t.val) * 1024 + c.val) / 2097152 = b.val; omega
    | ⟨1, _⟩ => show ((b.val * 2048 + t.val) * 1024 + c.val) / 64 % 16 = c.val / 64; omega
    | ⟨2, _⟩ => show ((b.val * 2048 + t.val) * 1024 + c.val) / 1024 % 2048 = t.val; omega
    | ⟨3, _⟩ => show ((b.val * 2048 + t.val) * 1024 + c.val) % 64 = c.val % 64; omega
  rw [e, ctx_at]

/-- The result at (b, t, e): the row's contexts through the output projection. -/
theorem out_at (b : Fin 2) (t : Fin 2048) (e : Fin 1024) :
    val_main_v32 (F := Ideal) x0 x1 x2 x3 x4 x5 (ix3 b t e)
      = rowOut (qrow x0 x2 x3 b t) (kk x0 x2 x3 b) (vv x0 x2 x3 b) (mrow x1 b t) (fun c e => x4 (ix2 c e))
          (fun e => x5 (ix1 e)) e := by
  rw [val_main_v32_apply, val_main_v29_apply, val_main_v31_apply, val_main_v30_apply, Ideal.addf_def]
  have el : ∀ c : Fin 1024, lidx_main_v29 (ix3 b t e) c = ix3 b t c := fun c => funext fun a => Fin.ext (by
    match a with | ⟨0, _⟩ => rfl | ⟨1, _⟩ => rfl | ⟨2, _⟩ => rfl)
  have er : ∀ c : Fin 1024, ridx_main_v29 (ix3 b t e) c = ix2 c e := fun c => funext fun a => Fin.ext (by
    match a with | ⟨0, _⟩ => rfl | ⟨1, _⟩ => rfl)
  have eb : idx_main_v30 (idx_main_v31 (ix3 b t e)) = ix1 e := funext fun a => Fin.ext (by
    match a with | ⟨0, _⟩ => rfl)
  rw [eb]
  simp only [el, er, laid_at]
  rfl

end Stages

/-- The reference's result is the specification's function of the six argument arrays. -/
theorem ref_result
    (x0 : (⟨Cert.ReferenceIdeal.S2x2048x1024, .f32⟩ : BufTy).Contents (Elt Ideal)) (x1 : (⟨Cert.ReferenceIdeal.S2x2048x2048, .f32⟩ : BufTy).Contents (Elt Ideal))
    (x2 : (⟨Cert.ReferenceIdeal.S1024x3072, .f32⟩ : BufTy).Contents (Elt Ideal)) (x3 : (⟨Cert.ReferenceIdeal.S3072, .f32⟩ : BufTy).Contents (Elt Ideal))
    (x4 : (⟨Cert.ReferenceIdeal.S1024x1024, .f32⟩ : BufTy).Contents (Elt Ideal)) (x5 : (⟨Cert.ReferenceIdeal.S1024, .f32⟩ : BufTy).Contents (Elt Ideal)) :
    Cert.ReferenceIdeal.Read.val_main_v32 (F := Ideal) x0 x1 x2 x3 x4 x5 = Cert.Attn.result x0 x1 x2 x3 x4 x5 := by
  funext i
  obtain ⟨b, t, e, rfl⟩ : ∃ (b : Fin 2) (t : Fin 2048) (e : Fin 1024), i = ix3 b t e := ⟨i 0, i 1, i 2, eq_ix3 i⟩
  exact out_at x0 x1 x2 x3 x4 x5 b t e

end Cert.ReferenceIdeal.RefValue

end
-- ==== Proof.Claims.lean ====
/-
  The five claims. The three frames: the two kernel programs' by their frame certificates, the reference's by its run
  with the result dropped. The idealization rewrote nothing. The algebraic claim: at the extended reals the kernel's
  result array ends at `result` of its six arguments (its run with the result named, region 1's array read back through
  the reshapes, region 0's arrays and the host's column permutation), and the reference's result is the same `result` of
  arguments that agree.
-/
import proofs.«409499_j57698590654770_3_alg».proof.Defs
import proofs.«409499_j57698590654770_3_alg».proof.Proof.KFrame
import proofs.«409499_j57698590654770_3_alg».proof.Proof.KILaunch
import proofs.«409499_j57698590654770_3_alg».proof.Proof.Region0
import proofs.«409499_j57698590654770_3_alg».proof.Proof.Region1
import proofs.«409499_j57698590654770_3_alg».proof.Proof.KernelValue
import proofs.«409499_j57698590654770_3_alg».proof.Proof.RefValue

noncomputable section

namespace Cert.Proof.Claims

open Idealize.ShloMosaic Idealize.ShloMosaic.TcCoe Idealize.SL.Sem

variable [hKernel : Cert.Kernel.Facts] [hKernelIdeal : Cert.KernelIdeal.Facts] [hReferenceIdeal : Cert.ReferenceIdeal.Facts]
  [hPre_finite_inputs : Cert.Pre_finite_inputs.Facts]

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's run ends with the result array at `result` of the arguments. -/
theorem kernel_run (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    (Cert.KernelIdeal.GenP.dat1 (F := Ideal) (Cert.KernelIdeal.GenP.V3 m ρ) c).arrAt 6 Cert.KernelIdeal.cfg1.N
      = Cert.Attn.result (Cert.KernelIdeal.KV.aX m c) (Cert.KernelIdeal.KV.aM m c) (Cert.KernelIdeal.KV.aW m c)
          (Cert.KernelIdeal.KV.aB m c) (Cert.KernelIdeal.KV.aWo m c) (Cert.KernelIdeal.KV.aBo m c) :=
  Cert.KernelIdeal.KV.result_of_regions m ρ c
    (Cert.KernelIdeal.KV.Out.arr1 (Cert.KernelIdeal.GenP.V3 m ρ) c)
    (Cert.KernelIdeal.KV.arr0_q (Cert.KernelIdeal.GenP.V1 m ρ) c)
    (Cert.KernelIdeal.KV.arr0_k (Cert.KernelIdeal.GenP.V1 m ρ) c)
    (Cert.KernelIdeal.KV.arr0_v (Cert.KernelIdeal.GenP.V1 m ρ) c)

theorem algebraic : Cert.algebraic_KernelIdeal_ReferenceIdeal := by
  intro m ρ m' ρ' _ hagree
  refine ⟨fun c => Cert.Attn.result (Cert.KernelIdeal.KV.aX m c) (Cert.KernelIdeal.KV.aM m c) (Cert.KernelIdeal.KV.aW m c)
      (Cert.KernelIdeal.KV.aB m c) (Cert.KernelIdeal.KV.aWo m c) (Cert.KernelIdeal.KV.aBo m c), ?_, ?_⟩
  · exact (θ_run Cert.KernelIdeal.defs _ _).mono (fun _ h c => ⟨(h c).1.trans (kernel_run m ρ c), (h c).2⟩)
      (Cert.KernelIdeal.GenP.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v32_eq, Cert.ReferenceIdeal.RefValue.ref_result,
      (hagree c).1, (hagree c).2.1, (hagree c).2.2.1, (hagree c).2.2.2.1, (hagree c).2.2.2.2.1, (hagree c).2.2.2.2.2]

end Cert.Proof.Claims

end
-- ==== Proof.lean ====
/-
  The proof of `Cert.Claim`: a Pallas kernel for multi-head self-attention — a fused query/key/value projection whose
  weight columns are permuted into head-major order, then, per batch element and tile of 256 query rows, sixteen heads'
  softmax attention computed two heads at a time into a context scratch, and the output projection — against the jnp
  reference, equal as extended reals. The witnesses of the programs' stated facts are the generated modules'; the claims
  are Proof/Claims.lean's.
-/
import proofs.«409499_j57698590654770_3_alg».proof.Defs
import proofs.«409499_j57698590654770_3_alg».proof.Proof.Gen.Kernel
import proofs.«409499_j57698590654770_3_alg».proof.Proof.Gen.KernelIdeal
import proofs.«409499_j57698590654770_3_alg».proof.Proof.Gen.ReferenceIdeal
import proofs.«409499_j57698590654770_3_alg».proof.Proof.Gen.Pre_finite_inputs
import proofs.«409499_j57698590654770_3_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
